-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x4096 : Shape := ⟨2, ![4, 4096]⟩
abbrev S4x2048x2048 : Shape := ⟨3, ![4, 2048, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_

variable [Facts]

def fn_part1 {F : FTy → Type} [FloatOps F] (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  main_v18

def fn {F : FTy → Type} [FloatOps F] (main_arg0 : FVec F S4x4096x2048 .f32) (main_arg1 : IVec S4x4096 32) (main_arg2 : FVec F S4x2048x2048 .f32) (main_arg3 : FVec F S4x2048x2048 .f32) (main_arg4 : FVec F S4x2048x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x2048x2048 .f32 := Host.absf main_arg2
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S4x2048x2048 .f32 := Host.absf main_arg3
  let main_cst_2 : FVec F S_ .f32 := constant S_ .f32 0x7F800000#32
  let main_v10 : FVec F S4x2048x2048 .f32 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  let main_v14 : FVec F S4x2048x2048 .f32 := Host.absf main_arg4
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_v13 main_v16
-- ==== Kernel.lean ====
abbrev S4x4096x2048 : Shape := ⟨3, ![4, 4096, 2048]⟩
abbrev S4x4096 : Shape := ⟨2, ![4, 4096]⟩
abbrev S4x2048x2048 : Shape := ⟨3, ![4, 2048, 2048]⟩
abbrev S_ : Shape := ⟨0, ![]⟩
abbrev S16384 : Shape := ⟨1, ![16384]⟩
abbrev S16384x2048 : Shape := ⟨2, ![16384, 2048]⟩
abbrev S16384x1 : Shape := ⟨2, ![16384, 1]⟩
abbrev S4 : Shape := ⟨1, ![4]⟩
abbrev S17408 : Shape := ⟨1, ![17408]⟩
abbrev S1x2048 : Shape := ⟨2, ![1, 2048]⟩
abbrev S16385x2048 : Shape := ⟨2, ![16385, 2048]⟩
abbrev S17408x1 : Shape := ⟨2, ![17408, 1]⟩
abbrev S17408x2048 : Shape := ⟨2, ![17408, 2048]⟩
abbrev S68 : Shape := ⟨1, ![68]⟩
abbrev S3 : Shape := ⟨1, ![3]⟩
abbrev S68x1 : Shape := ⟨2, ![68, 1]⟩
abbrev S1x3 : Shape := ⟨2, ![1, 3]⟩
abbrev S68x3 : Shape := ⟨2, ![68, 3]⟩
abbrev S256x2048 : Shape := ⟨2, ![256, 2048]⟩
abbrev S1x2048x2048 : Shape := ⟨3, ![1, 2048, 2048]⟩
abbrev S1 : Shape := ⟨1, ![1]⟩
abbrev S2048x2048 : Shape := ⟨2, ![2048, 2048]⟩

abbrev nBuf : Space → Nat
  | .hbm => 182
  | .vmem => 7
  | .smem => 1
  | _ => 0

abbrev hbmTy0_0 (i : Nat) : BufTy := match i % 128 with
  | 0 => ⟨S4x4096x2048, .f32⟩
  | 1 => ⟨S4x4096, .i32⟩
  | 2 => ⟨S4x2048x2048, .f32⟩
  | 3 => ⟨S4x2048x2048, .f32⟩
  | 4 => ⟨S4x2048x2048, .f32⟩
  | 5 => ⟨S_, .i32⟩
  | 6 => ⟨S_, .i32⟩
  | 7 => ⟨S_, .i32⟩
  | 8 => ⟨S4x4096, .i32⟩
  | 9 => ⟨S4x4096, .i32⟩
  | 10 => ⟨S_, .i32⟩
  | 11 => ⟨S4x4096, .i32⟩
  | 12 => ⟨S4x4096, .i32⟩
  | 13 => ⟨S_, .i32⟩
  | 14 => ⟨S_, .i32⟩
  | 15 => ⟨S4x4096, .i32⟩
  | 16 => ⟨S4x4096, .i32⟩
  | 17 => ⟨S4x4096, .i32⟩
  | 18 => ⟨S_, .i32⟩
  | 19 => ⟨S4x4096, .i32⟩
  | 20 => ⟨S4x4096, .i1⟩
  | 21 => ⟨S4x4096, .i32⟩
  | 22 => ⟨S4x4096, .i32⟩
  | 23 => ⟨S_, .i32⟩
  | 24 => ⟨S4x4096, .i32⟩
  | 25 => ⟨S4x4096, .i1⟩
  | 26 => ⟨S4x4096, .i1⟩
  | 27 => ⟨S_, .i32⟩
  | 28 => ⟨S4x4096, .i32⟩
  | 29 => ⟨S4x4096, .i32⟩
  | 30 => ⟨S4x4096, .i32⟩
  | 31 => ⟨S_, .i32⟩
  | 32 => ⟨S4x4096, .i32⟩
  | 33 => ⟨S4x4096, .i32⟩
  | 34 => ⟨S16384, .i32⟩
  | 35 => ⟨S16384x2048, .f32⟩
  | 36 => ⟨S16384x2048, .bf16⟩
  | 37 => ⟨S16384, .i32⟩
  | 38 => ⟨S16384, .i32⟩
  | 39 => ⟨S16384, .i32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S16384, .i32⟩
  | 49 => ⟨S_, .i32⟩
  | 50 => ⟨S4, .i32⟩
  | 51 => ⟨S_, .i32⟩
  | 52 => ⟨S_, .i32⟩
  | 53 => ⟨S16384, .i32⟩
  | 54 => ⟨S16384, .i32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S_, .i32⟩
  | 64 => ⟨S16384, .i32⟩
  | 65 => ⟨S4, .i32⟩
  | 66 => ⟨S_, .i32⟩
  | 67 => ⟨S4, .i32⟩
  | 68 => ⟨S4, .i32⟩
  | 69 => ⟨S_, .i32⟩
  | 70 => ⟨S4, .i32⟩
  | 71 => ⟨S4, .i32⟩
  | 72 => ⟨S_, .i32⟩
  | 73 => ⟨S_, .i32⟩
  | 74 => ⟨S4, .i32⟩
  | 75 => ⟨S4, .i32⟩
  | 76 => ⟨S4, .i32⟩
  | 77 => ⟨S_, .i32⟩
  | 78 => ⟨S4, .i32⟩
  | 79 => ⟨S4, .i1⟩
  | 80 => ⟨S4, .i32⟩
  | 81 => ⟨S4, .i32⟩
  | 82 => ⟨S_, .i32⟩
  | 83 => ⟨S4, .i32⟩
  | 84 => ⟨S4, .i1⟩
  | 85 => ⟨S4, .i1⟩
  | 86 => ⟨S_, .i32⟩
  | 87 => ⟨S4, .i32⟩
  | 88 => ⟨S4, .i32⟩
  | 89 => ⟨S4, .i32⟩
  | 90 => ⟨S_, .i32⟩
  | 91 => ⟨S4, .i32⟩
  | 92 => ⟨S4, .i32⟩
  | 93 => ⟨S_, .i32⟩
  | 94 => ⟨S_, .i32⟩
  | 95 => ⟨S4, .i32⟩
  | 96 => ⟨S4, .i32⟩
  | 97 => ⟨S_, .i32⟩
  | 98 => ⟨S_, .i32⟩
  | 99 => ⟨S4, .i32⟩
  | 100 => ⟨S4, .i32⟩
  | 101 => ⟨S16384, .i32⟩
  | 102 => ⟨S_, .i32⟩
  | 103 => ⟨S16384, .i32⟩
  | 104 => ⟨S16384, .i1⟩
  | 105 => ⟨S_, .i32⟩
  | 106 => ⟨S16384, .i32⟩
  | 107 => ⟨S16384, .i32⟩
  | 108 => ⟨S16384, .i32⟩
  | 109 => ⟨S16384x1, .i32⟩
  | 110 => ⟨S16384, .i32⟩
  | 111 => ⟨S16384, .i32⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S16384x1, .i32⟩
  | 120 => ⟨S16384, .i32⟩
  | 121 => ⟨S16384, .i32⟩
  | 122 => ⟨S_, .i32⟩
  | 123 => ⟨S17408, .i32⟩
  | 124 => ⟨S_, .i32⟩
  | 125 => ⟨S16384, .i32⟩
  | 126 => ⟨S16384, .i1⟩
  | 127 => ⟨S_, .i32⟩
  | _ => ⟨S4x4096x2048, .f32⟩

abbrev hbmTy0_1 (i : Nat) : BufTy := match i % 128 with
  | 0 => ⟨S16384, .i32⟩
  | 1 => ⟨S16384, .i32⟩
  | 2 => ⟨S16384, .i32⟩
  | 3 => ⟨S16384x1, .i32⟩
  | 4 => ⟨S17408, .i32⟩
  | 5 => ⟨S_, .bf16⟩
  | 6 => ⟨S1x2048, .bf16⟩
  | 7 => ⟨S16385x2048, .bf16⟩
  | 8 => ⟨S_, .i32⟩
  | 9 => ⟨S17408, .i32⟩
  | 10 => ⟨S17408, .i1⟩
  | 11 => ⟨S_, .i32⟩
  | 12 => ⟨S17408, .i32⟩
  | 13 => ⟨S17408, .i32⟩
  | 14 => ⟨S17408, .i32⟩
  | 15 => ⟨S17408x1, .i32⟩
  | 16 => ⟨S17408x2048, .bf16⟩
  | 17 => ⟨S68, .i32⟩
  | 18 => ⟨S_, .i32⟩
  | 19 => ⟨S68, .i32⟩
  | 20 => ⟨S68, .i32⟩
  | 21 => ⟨S3, .i32⟩
  | 22 => ⟨S68x1, .i32⟩
  | 23 => ⟨S1x3, .i32⟩
  | 24 => ⟨S68x3, .i32⟩
  | 25 => ⟨S68x3, .i32⟩
  | 26 => ⟨S68x3, .i1⟩
  | 27 => ⟨S68x3, .i32⟩
  | 28 => ⟨S_, .i32⟩
  | 29 => ⟨S4x2048x2048, .bf16⟩
  | 30 => ⟨S4x2048x2048, .bf16⟩
  | 31 => ⟨S4x2048x2048, .bf16⟩
  | 32 => ⟨S17408x2048, .f32⟩
  | 33 => ⟨S_, .i32⟩
  | 34 => ⟨S16384, .i32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S16384, .i32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S16384x2048, .f32⟩
  | 53 => ⟨S4x4096x2048, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x2048x2048, .bf16⟩
  | .local _ .vmem, ⟨5, _⟩ => ⟨S256x2048, .f32⟩
  | .local _ .vmem, ⟨6, _⟩ => ⟨S256x2048, .f32⟩
  | .local _ .smem, ⟨0, _⟩ => ⟨S68, .i32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v1 : Ref sig .tc := ⟨.hbm, 30, rfl⟩
abbrev main_c_2 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_call2_v0 : Ref sig .tc := ⟨.hbm, 37, rfl⟩
abbrev main_call2_v1_0 : Ref sig .tc := ⟨.hbm, 38, rfl⟩
abbrev main_v7 : Ref sig .tc := ⟨.hbm, 39, rfl⟩
abbrev main_c_3 : Ref sig .tc := ⟨.hbm, 40, rfl⟩
abbrev main_v8 : Ref sig .tc := ⟨.hbm, 41, rfl⟩
abbrev main_v9 : Ref sig .tc := ⟨.hbm, 42, rfl⟩
abbrev main_c_4 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_c_5 : Ref sig .tc := ⟨.hbm, 49, rfl⟩
abbrev main_v15 : Ref sig .tc := ⟨.hbm, 50, rfl⟩
abbrev main_c_6 : Ref sig .tc := ⟨.hbm, 51, rfl⟩
abbrev main_call3_v0 : Ref sig .tc := ⟨.hbm, 52, rfl⟩
abbrev main_call3_v1 : Ref sig .tc := ⟨.hbm, 53, rfl⟩
abbrev main_v16 : Ref sig .tc := ⟨.hbm, 54, rfl⟩
abbrev main_c_7 : Ref sig .tc := ⟨.hbm, 55, rfl⟩
abbrev main_v17 : Ref sig .tc := ⟨.hbm, 56, rfl⟩
abbrev main_v18 : Ref sig .tc := ⟨.hbm, 57, rfl⟩
abbrev main_c_8 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_9 : Ref sig .tc := ⟨.hbm, 63, rfl⟩
abbrev main_v23 : Ref sig .tc := ⟨.hbm, 64, rfl⟩
abbrev main_v24 : Ref sig .tc := ⟨.hbm, 65, rfl⟩
abbrev main_c_10 : Ref sig .tc := ⟨.hbm, 66, rfl⟩
abbrev main_v25 : Ref sig .tc := ⟨.hbm, 67, rfl⟩
abbrev main_v26 : Ref sig .tc := ⟨.hbm, 68, rfl⟩
abbrev main_c_11 : Ref sig .tc := ⟨.hbm, 69, rfl⟩
abbrev main_v27 : Ref sig .tc := ⟨.hbm, 70, rfl⟩
abbrev main_v28 : Ref sig .tc := ⟨.hbm, 71, rfl⟩
abbrev main_c_12 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_v6 : Ref sig .tc := ⟨.hbm, 79, rfl⟩
abbrev main_call4_v7 : Ref sig .tc := ⟨.hbm, 80, rfl⟩
abbrev main_call4_v8 : Ref sig .tc := ⟨.hbm, 81, rfl⟩
abbrev main_call4_c : Ref sig .tc := ⟨.hbm, 82, rfl⟩
abbrev main_call4_v9 : Ref sig .tc := ⟨.hbm, 83, rfl⟩
abbrev main_call4_v10 : Ref sig .tc := ⟨.hbm, 84, rfl⟩
abbrev main_call4_v11 : Ref sig .tc := ⟨.hbm, 85, rfl⟩
abbrev main_call4_c_0 : Ref sig .tc := ⟨.hbm, 86, rfl⟩
abbrev main_call4_v12 : Ref sig .tc := ⟨.hbm, 87, rfl⟩
abbrev main_call4_v13 : Ref sig .tc := ⟨.hbm, 88, rfl⟩
abbrev main_v29 : Ref sig .tc := ⟨.hbm, 89, rfl⟩
abbrev main_c_13 : Ref sig .tc := ⟨.hbm, 90, rfl⟩
abbrev main_v30 : Ref sig .tc := ⟨.hbm, 91, rfl⟩
abbrev main_v31 : Ref sig .tc := ⟨.hbm, 92, rfl⟩
abbrev main_call5_call0_c : Ref sig .tc := ⟨.hbm, 93, rfl⟩
abbrev main_call5_call0_v0 : Ref sig .tc := ⟨.hbm, 94, rfl⟩
abbrev main_v32 : Ref sig .tc := ⟨.hbm, 95, rfl⟩
abbrev main_v33 : Ref sig .tc := ⟨.hbm, 96, rfl⟩
abbrev main_call6_call0_c : Ref sig .tc := ⟨.hbm, 97, rfl⟩
abbrev main_call6_call0_v0 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_c_14 : Ref sig .tc := ⟨.hbm, 102, rfl⟩
abbrev main_v37 : Ref sig .tc := ⟨.hbm, 103, rfl⟩
abbrev main_v38 : Ref sig .tc := ⟨.hbm, 104, rfl⟩
abbrev main_c_15 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_c_16 : Ref sig .tc := ⟨.hbm, 112, rfl⟩
abbrev main_v45 : Ref sig .tc := ⟨.hbm, 113, rfl⟩
abbrev main_v46 : Ref sig .tc := ⟨.hbm, 114, rfl⟩
abbrev main_c_17 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_c_18 : Ref sig .tc := ⟨.hbm, 122, rfl⟩
abbrev main_v53 : Ref sig .tc := ⟨.hbm, 123, rfl⟩
abbrev main_c_19 : Ref sig .tc := ⟨.hbm, 124, rfl⟩
abbrev main_v54 : Ref sig .tc := ⟨.hbm, 125, rfl⟩
abbrev main_v55 : Ref sig .tc := ⟨.hbm, 126, rfl⟩
abbrev main_c_20 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_cst : Ref sig .tc := ⟨.hbm, 133, rfl⟩
abbrev main_v61 : Ref sig .tc := ⟨.hbm, 134, rfl⟩
abbrev main_v62 : Ref sig .tc := ⟨.hbm, 135, rfl⟩
abbrev main_c_21 : Ref sig .tc := ⟨.hbm, 136, rfl⟩
abbrev main_v63 : Ref sig .tc := ⟨.hbm, 137, rfl⟩
abbrev main_v64 : Ref sig .tc := ⟨.hbm, 138, rfl⟩
abbrev main_c_22 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_c_23 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_c_24 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_c_25 : Ref sig .tc := ⟨.hbm, 161, rfl⟩
abbrev main_v85 : Ref sig .tc := ⟨.hbm, 162, rfl⟩
abbrev main_c_26 : Ref sig .tc := ⟨.hbm, 163, rfl⟩
abbrev main_v86 : Ref sig .tc := ⟨.hbm, 164, rfl⟩
abbrev main_v87 : Ref sig .tc := ⟨.hbm, 165, rfl⟩
abbrev main_c_27 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_c_28 : Ref sig .tc := ⟨.hbm, 172, rfl⟩
abbrev main_v93 : Ref sig .tc := ⟨.hbm, 173, rfl⟩
abbrev main_v94 : Ref sig .tc := ⟨.hbm, 174, rfl⟩
abbrev main_c_29 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v80 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![68], ![false]⟩

abbrev pre0 : Pipeline.Prefetch sig := ⟨1, ![main_v80.idx], fun | 0 => main_v80.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S68.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S68.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S68.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S4x4096 : S_.BroadcastsInDim S4x4096 (![] : Fin 0 → Fin S4x4096.rank)
  shapeCasts_S4x4096_S16384 : S4x4096.ShapeCasts S16384
  shapeCasts_S4x4096x2048_S16384x2048 : S4x4096x2048.ShapeCasts S16384x2048
  bitsLt_bf16_f32 : FTy.bits .bf16 < FTy.bits .f32
  bcast_S_S16384 : S_.BroadcastsInDim S16384 (![] : Fin 0 → Fin S16384.rank)
  bcast_S16384_S16384x1_0 : S16384.BroadcastsInDim S16384x1 (![0] : Fin 1 → Fin S16384x1.rank)
  bcast_S_S4 : S_.BroadcastsInDim S4 (![] : Fin 0 → Fin S4.rank)
  bcast_S_S_ : S_.BroadcastsInDim S_ (![] : Fin 0 → Fin S_.rank)
  reduceWindows_S4_S4_w4s1p3_0 : S4.ReduceWindows (![4] : Fin 1 → Nat) ![1] ![3] ![0] S4
  h_S_ : 0 < S_.numel
  bcast_S_S17408 : S_.BroadcastsInDim S17408 (![] : Fin 0 → Fin S17408.rank)
  bcast_S_S1x2048 : S_.BroadcastsInDim S1x2048 (![] : Fin 0 → Fin S1x2048.rank)
  concatenates_S16384x2048_S1x2048_S16385x2048_d0 : Shape.Concatenates [S16384x2048, S1x2048] S16385x2048 0
  bcast_S17408_S17408x1_0 : S17408.BroadcastsInDim S17408x1 (![0] : Fin 1 → Fin S17408x1.rank)
  bcast_S_S68 : S_.BroadcastsInDim S68 (![] : Fin 0 → Fin S68.rank)
  slices_S4_S3_0 : S4.Slices ![0] S3
  bcast_S68_S68x1_0 : S68.BroadcastsInDim S68x1 (![0] : Fin 1 → Fin S68x1.rank)
  bcast_S3_S1x3_1 : S3.BroadcastsInDim S1x3 (![1] : Fin 1 → Fin S1x3.rank)
  bcast_S68x1_S68x3_0_1 : S68x1.BroadcastsInDim S68x3 (![0, 1] : Fin 2 → Fin S68x3.rank)
  bcast_S1x3_S68x3_0_1 : S1x3.BroadcastsInDim S68x3 (![0, 1] : Fin 2 → Fin S68x3.rank)
  natLt_1_32 : 1 < 32
  reducesTo_S68x3_S68_d1 : S68x3.ReducesTo [1] S68
  numel1_S1 : S1.numel = 1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S16384x2048_S4x4096x2048 : S16384x2048.ShapeCasts S4x4096x2048
  gather_S16384_S16384x1_S16384_n_0_n_n_0_1_1_wf : GatherDims.WF S16384 S16384x1 S16384 [] [0] [] [0] [] 1 ![1]
  scatter_S4_S16384x1_S16384_n_0_0_1_wf : ScatterDims.WF S4 S16384x1 S16384 [] [0] [0] 1
  gather_S4_S16384x1_S16384_n_0_n_n_0_1_1_wf : GatherDims.WF S4 S16384x1 S16384 [] [0] [] [0] [] 1 ![1]
  scatter_S17408_S16384x1_S16384_n_0_0_1_wf : ScatterDims.WF S17408 S16384x1 S16384 [] [0] [0] 1
  gather_S16385x2048_S17408x1_S17408x2048_1_0_n_n_0_1_12048_wf : GatherDims.WF S16385x2048 S17408x1 S17408x2048 [1] [0] [] [0] [] 1 ![1, 2048]
  dot_S256x2048_S2048x2048_S256x2048_1_1_0_0_n_n_wf : DotDims.WF S256x2048 S2048x2048 S256x2048 [1] [1] [0] [0] [] []
  scatter_S16384_S16384x1_S16384_n_0_0_1_wf : ScatterDims.WF S16384 S16384x1 S16384 [] [0] [0] 1
  gather_S17408x2048_S16384x1_S16384x2048_1_0_n_n_0_1_12048_wf : GatherDims.WF S17408x2048 S16384x1 S16384x2048 [1] [0] [] [0] [] 1 ![1, 2048]
  hrank0 : 0 < grid0.rank
  k0_off1_inb : ∀ i : grid0.Coords, ∀ a, (k0_off1 i) a + S1.size a ≤ S68.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S17408x2048.size a
  hwx0_0 : ∀ i : grid0.Coords, EltTy.bits .bf16 = 32 ∨ (Rect.block (s := S17408x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 true = 1
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S17408x2048.size a
  hwx0_4 : ∀ i : grid0.Coords, EltTy.bits .f32 = 32 ∨ (Rect.block (s := S17408x2048) S256x2048.size (cc0_transform_4 i) (hinb0_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def scatter_S4_S16384x1_S16384_n_0_0_1 : ScatterDims S4 S16384x1 S16384 where
  updateWindowDims := []
  insertedWindowDims := [0]
  scatterDimsToOperandDims := [0]
  indexVectorDim := 1
  wf := scatter_S4_S16384x1_S16384_n_0_0_1_wf
def gather_S4_S16384x1_S16384_n_0_n_n_0_1_1 : GatherDims S4 S16384x1 S16384 where
  offsetDims := []
  collapsedSliceDims := [0]
  operandBatchingDims := []
  startIndicesBatchingDims := []
  startIndexMap := [0]
  indexVectorDim := 1
  sliceSizes := ![1]
  wf := gather_S4_S16384x1_S16384_n_0_n_n_0_1_1_wf
def scatter_S17408_S16384x1_S16384_n_0_0_1 : ScatterDims S17408 S16384x1 S16384 where
  updateWindowDims := []
  insertedWindowDims := [0]
  scatterDimsToOperandDims := [0]
  indexVectorDim := 1
  wf := scatter_S17408_S16384x1_S16384_n_0_0_1_wf
def gather_S16385x2048_S17408x1_S17408x2048_1_0_n_n_0_1_12048 : GatherDims S16385x2048 S17408x1 S17408x2048 where
  offsetDims := [1]
  collapsedSliceDims := [0]
  operandBatchingDims := []
  startIndicesBatchingDims := []
  startIndexMap := [0]
  indexVectorDim := 1
  sliceSizes := ![1, 2048]
  wf := gather_S16385x2048_S17408x1_S17408x2048_1_0_n_n_0_1_12048_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def scatter_S16384_S16384x1_S16384_n_0_0_1 : ScatterDims S16384 S16384x1 S16384 where
  updateWindowDims := []
  insertedWindowDims := [0]
  scatterDimsToOperandDims := [0]
  indexVectorDim := 1
  wf := scatter_S16384_S16384x1_S16384_n_0_0_1_wf
def gather_S17408x2048_S16384x1_S16384x2048_1_0_n_n_0_1_12048 : GatherDims S17408x2048 S16384x1 S16384x2048 where
  offsetDims := [1]
  collapsedSliceDims := [0]
  operandBatchingDims := []
  startIndicesBatchingDims := []
  startIndexMap := [0]
  indexVectorDim := 1
  sliceSizes := ![1, 2048]
  wf := gather_S17408x2048_S16384x1_S16384x2048_1_0_n_n_0_1_12048_wf

abbrev spec0_0 : Pipeline.WinSpec sig grid0.rank :=
  Pipeline.WinSpec.ofSpec (Memref.whole main_v69) S256x2048.size reads0_0 false false 2 stage0_0 sem0_0 nbuf0_0 hstage0_0

abbrev spec0_1 : Pipeline.WinSpec sig grid0.rank :=
  Pipeline.WinSpec.ofSpec (Memref.whole main_v81) S1x2048x2048.size reads0_1 false true 1 stage0_1 sem0_1 nbuf0_1 hstage0_1

abbrev spec0_2 : Pipeline.WinSpec sig grid0.rank :=
  Pipeline.WinSpec.ofSpec (Memref.whole main_v82) S1x2048x2048.size reads0_2 false true 1 stage0_2 sem0_2 nbuf0_2 hstage0_2

abbrev spec0_3 : Pipeline.WinSpec sig grid0.rank :=
  Pipeline.WinSpec.ofSpec (Memref.whole main_v83) S1x2048x2048.size reads0_3 false true 1 stage0_3 sem0_3 nbuf0_3 hstage0_3

abbrev spec0_4 : Pipeline.WinSpec sig grid0.rank :=
  Pipeline.WinSpec.ofSpec (Memref.whole main_v84) S256x2048.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x2048x2048.size a ≤ S4x2048x2048.size a), EltTy.bits .bf16 = 32 ∨ (Rect.block (s := S4x2048x2048) S1x2048x2048.size (cc0_transform_1 k0_off1_inb numel1_S1 pf i) h).WholeWords (EltTy.packing .bf16)) ∧
  (∀ i : grid0.Coords, ∃ h : (∀ a, (cc0_transform_2 k0_off1_inb numel1_S1 pf i a + 1) * S1x2048x2048.size a ≤ S4x2048x2048.size a), EltTy.bits .bf16 = 32 ∨ (Rect.block (s := S4x2048x2048) S1x2048x2048.size (cc0_transform_2 k0_off1_inb numel1_S1 pf i) h).WholeWords (EltTy.packing .bf16)) ∧
  (∀ i : grid0.Coords, ∃ h : (∀ a, (cc0_transform_3 k0_off1_inb numel1_S1 pf i a + 1) * S1x2048x2048.size a ≤ S4x2048x2048.size a), EltTy.bits .bf16 = 32 ∨ (Rect.block (s := S4x2048x2048) S1x2048x2048.size (cc0_transform_3 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2 i).elim fun h _ => h a | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2 i).elim fun _ h => h | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S4x4096x2048 : Shape := ⟨3, ![4, 4096, 2048]⟩
abbrev S4x4096 : Shape := ⟨2, ![4, 4096]⟩
abbrev S4x2048x2048 : Shape := ⟨3, ![4, 2048, 2048]⟩
abbrev S_ : Shape := ⟨0, ![]⟩
abbrev S1x2048x2048 : Shape := ⟨3, ![1, 2048, 2048]⟩
abbrev S2048x2048 : Shape := ⟨2, ![2048, 2048]⟩
abbrev S4x4096x1 : Shape := ⟨3, ![4, 4096, 1]⟩

abbrev nBuf : Space → Nat
  | .hbm => 136
  | .vmem => 0
  | .smem => 0
  | _ => 0

abbrev hbmTy0_0 (i : Nat) : BufTy := match i % 128 with
  | 0 => ⟨S4x4096x2048, .f32⟩
  | 1 => ⟨S4x4096, .i32⟩
  | 2 => ⟨S4x2048x2048, .f32⟩
  | 3 => ⟨S4x2048x2048, .f32⟩
  | 4 => ⟨S4x2048x2048, .f32⟩
  | 5 => ⟨S_, .i32⟩
  | 6 => ⟨S_, .i32⟩
  | 7 => ⟨S_, .i32⟩
  | 8 => ⟨S4x4096, .i32⟩
  | 9 => ⟨S4x4096, .i32⟩
  | 10 => ⟨S_, .i32⟩
  | 11 => ⟨S4x4096, .i32⟩
  | 12 => ⟨S4x4096, .i32⟩
  | 13 => ⟨S_, .i32⟩
  | 14 => ⟨S_, .i32⟩
  | 15 => ⟨S4x4096, .i32⟩
  | 16 => ⟨S4x4096, .i32⟩
  | 17 => ⟨S4x4096, .i32⟩
  | 18 => ⟨S_, .i32⟩
  | 19 => ⟨S4x4096, .i32⟩
  | 20 => ⟨S4x4096, .i1⟩
  | 21 => ⟨S4x4096, .i32⟩
  | 22 => ⟨S4x4096, .i32⟩
  | 23 => ⟨S_, .i32⟩
  | 24 => ⟨S4x4096, .i32⟩
  | 25 => ⟨S4x4096, .i1⟩
  | 26 => ⟨S4x4096, .i1⟩
  | 27 => ⟨S_, .i32⟩
  | 28 => ⟨S4x4096, .i32⟩
  | 29 => ⟨S4x4096, .i32⟩
  | 30 => ⟨S4x4096, .i32⟩
  | 31 => ⟨S_, .i32⟩
  | 32 => ⟨S4x4096, .i32⟩
  | 33 => ⟨S4x4096, .i32⟩
  | 34 => ⟨S_, .f32⟩
  | 35 => ⟨S4x4096x2048, .f32⟩
  | 36 => ⟨S1x2048x2048, .f32⟩
  | 37 => ⟨S2048x2048, .f32⟩
  | 38 => ⟨S4x4096x2048, .f32⟩
  | 39 => ⟨S4x4096x2048, .f32⟩
  | 40 => ⟨S4x4096x2048, .f32⟩
  | 41 => ⟨S_, .f32⟩
  | 42 => ⟨S4x4096x2048, .f32⟩
  | 43 => ⟨S4x4096x2048, .f32⟩
  | 44 => ⟨S_, .f32⟩
  | 45 => ⟨S4x4096x2048, .f32⟩
  | 46 => ⟨S4x4096x2048, .f32⟩
  | 47 => ⟨S4x4096x2048, .f32⟩
  | 48 => ⟨S1x2048x2048, .f32⟩
  | 49 => ⟨S2048x2048, .f32⟩
  | 50 => ⟨S4x4096x2048, .f32⟩
  | 51 => ⟨S4x4096x2048, .f32⟩
  | 52 => ⟨S1x2048x2048, .f32⟩
  | 53 => ⟨S2048x2048, .f32⟩
  | 54 => ⟨S4x4096x2048, .f32⟩
  | 55 => ⟨S_, .i32⟩
  | 56 => ⟨S4x4096, .i32⟩
  | 57 => ⟨S4x4096, .i1⟩
  | 58 => ⟨S4x4096x1, .i1⟩
  | 59 => ⟨S4x4096x2048, .i1⟩
  | 60 => ⟨S4x4096x2048, .f32⟩
  | 61 => ⟨S1x2048x2048, .f32⟩
  | 62 => ⟨S2048x2048, .f32⟩
  | 63 => ⟨S4x4096x2048, .f32⟩
  | 64 => ⟨S4x4096x2048, .f32⟩
  | 65 => ⟨S4x4096x2048, .f32⟩
  | 66 => ⟨S_, .f32⟩
  | 67 => ⟨S4x4096x2048, .f32⟩
  | 68 => ⟨S4x4096x2048, .f32⟩
  | 69 => ⟨S_, .f32⟩
  | 70 => ⟨S4x4096x2048, .f32⟩
  | 71 => ⟨S4x4096x2048, .f32⟩
  | 72 => ⟨S4x4096x2048, .f32⟩
  | 73 => ⟨S1x2048x2048, .f32⟩
  | 74 => ⟨S2048x2048, .f32⟩
  | 75 => ⟨S4x4096x2048, .f32⟩
  | 76 => ⟨S4x4096x2048, .f32⟩
  | 77 => ⟨S1x2048x2048, .f32⟩
  | 78 => ⟨S2048x2048, .f32⟩
  | 79 => ⟨S4x4096x2048, .f32⟩
  | 80 => ⟨S_, .i32⟩
  | 81 => ⟨S4x4096, .i32⟩
  | 82 => ⟨S4x4096, .i1⟩
  | 83 => ⟨S4x4096x1, .i1⟩
  | 84 => ⟨S4x4096x2048, .i1⟩
  | 85 => ⟨S4x4096x2048, .f32⟩
  | 86 => ⟨S1x2048x2048, .f32⟩
  | 87 => ⟨S2048x2048, .f32⟩
  | 88 => ⟨S4x4096x2048, .f32⟩
  | 89 => ⟨S4x4096x2048, .f32⟩
  | 90 => ⟨S4x4096x2048, .f32⟩
  | 91 => ⟨S_, .f32⟩
  | 92 => ⟨S4x4096x2048, .f32⟩
  | 93 => ⟨S4x4096x2048, .f32⟩
  | 94 => ⟨S_, .f32⟩
  | 95 => ⟨S4x4096x2048, .f32⟩
  | 96 => ⟨S4x4096x2048, .f32⟩
  | 97 => ⟨S4x4096x2048, .f32⟩
  | 98 => ⟨S1x2048x2048, .f32⟩
  | 99 => ⟨S2048x2048, .f32⟩
  | 100 => ⟨S4x4096x2048, .f32⟩
  | 101 => ⟨S4x4096x2048, .f32⟩
  | 102 => ⟨S1x2048x2048, .f32⟩
  | 103 => ⟨S2048x2048, .f32⟩
  | 104 => ⟨S4x4096x2048, .f32⟩
  | 105 => ⟨S_, .i32⟩
  | 106 => ⟨S4x4096, .i32⟩
  | 107 => ⟨S4x4096, .i1⟩
  | 108 => ⟨S4x4096x1, .i1⟩
  | 109 => ⟨S4x4096x2048, .i1⟩
  | 110 => ⟨S4x4096x2048, .f32⟩
  | 111 => ⟨S1x2048x2048, .f32⟩
  | 112 => ⟨S2048x2048, .f32⟩
  | 113 => ⟨S4x4096x2048, .f32⟩
  | 114 => ⟨S4x4096x2048, .f32⟩
  | 115 => ⟨S4x4096x2048, .f32⟩
  | 116 => ⟨S_, .f32⟩
  | 117 => ⟨S4x4096x2048, .f32⟩
  | 118 => ⟨S4x4096x2048, .f32⟩
  | 119 => ⟨S_, .f32⟩
  | 120 => ⟨S4x4096x2048, .f32⟩
  | 121 => ⟨S4x4096x2048, .f32⟩
  | 122 => ⟨S4x4096x2048, .f32⟩
  | 123 => ⟨S1x2048x2048, .f32⟩
  | 124 => ⟨S2048x2048, .f32⟩
  | 125 => ⟨S4x4096x2048, .f32⟩
  | 126 => ⟨S4x4096x2048, .f32⟩
  | 127 => ⟨S1x2048x2048, .f32⟩
  | _ => ⟨S4x4096x2048, .f32⟩

abbrev hbmTy0_1 (i : Nat) : BufTy := match i % 128 with
  | 0 => ⟨S2048x2048, .f32⟩
  | 1 => ⟨S4x4096x2048, .f32⟩
  | 2 => ⟨S_, .i32⟩
  | 3 => ⟨S4x4096, .i32⟩
  | 4 => ⟨S4x4096, .i1⟩
  | 5 => ⟨S4x4096x1, .i1⟩
  | 6 => ⟨S4x4096x2048, .i1⟩
  | 7 => ⟨S4x4096x2048, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v1 : Ref sig .tc := ⟨.hbm, 30, rfl⟩
abbrev main_c_2 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_3 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_call3_v0 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_call4_v0 : Ref sig .tc := ⟨.hbm, 64, rfl⟩
abbrev main_call4_v1 : Ref sig .tc := ⟨.hbm, 65, rfl⟩
abbrev main_call4_cst : Ref sig .tc := ⟨.hbm, 66, rfl⟩
abbrev main_call4_v2 : Ref sig .tc := ⟨.hbm, 67, rfl⟩
abbrev main_call4_v3 : Ref sig .tc := ⟨.hbm, 68, rfl⟩
abbrev main_call4_cst_0 : Ref sig .tc := ⟨.hbm, 69, rfl⟩
abbrev main_call4_v4 : Ref sig .tc := ⟨.hbm, 70, rfl⟩
abbrev main_call4_v5 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_c_4 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_call5_v0 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_call6_v0 : Ref sig .tc := ⟨.hbm, 89, rfl⟩
abbrev main_call6_v1 : Ref sig .tc := ⟨.hbm, 90, rfl⟩
abbrev main_call6_cst : Ref sig .tc := ⟨.hbm, 91, rfl⟩
abbrev main_call6_v2 : Ref sig .tc := ⟨.hbm, 92, rfl⟩
abbrev main_call6_v3 : Ref sig .tc := ⟨.hbm, 93, rfl⟩
abbrev main_call6_cst_0 : Ref sig .tc := ⟨.hbm, 94, rfl⟩
abbrev main_call6_v4 : Ref sig .tc := ⟨.hbm, 95, rfl⟩
abbrev main_call6_v5 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_c_5 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_call7_v0 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_call8_v0 : Ref sig .tc := ⟨.hbm, 114, rfl⟩
abbrev main_call8_v1 : Ref sig .tc := ⟨.hbm, 115, rfl⟩
abbrev main_call8_cst : Ref sig .tc := ⟨.hbm, 116, rfl⟩
abbrev main_call8_v2 : Ref sig .tc := ⟨.hbm, 117, rfl⟩
abbrev main_call8_v3 : Ref sig .tc := ⟨.hbm, 118, rfl⟩
abbrev main_call8_cst_0 : Ref sig .tc := ⟨.hbm, 119, rfl⟩
abbrev main_call8_v4 : Ref sig .tc := ⟨.hbm, 120, rfl⟩
abbrev main_call8_v5 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_c_6 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_call9_v0 : Ref sig .tc := ⟨.hbm, 134, rfl⟩
abbrev main_v64 : Ref sig .tc := ⟨.hbm, 135, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S_S4x4096x2048 : S_.BroadcastsInDim S4x4096x2048 (![] : Fin 0 → Fin S4x4096x2048.rank)
  slices_S4x2048x2048_S1x2048x2048_0_0_0 : S4x2048x2048.Slices ![0, 0, 0] S1x2048x2048
  shapeCasts_S1x2048x2048_S2048x2048 : S1x2048x2048.ShapeCasts S2048x2048
  bcast_S4x4096_S4x4096x1_0_1 : S4x4096.BroadcastsInDim S4x4096x1 (![0, 1] : Fin 2 → Fin S4x4096x1.rank)
  bcast_S4x4096x1_S4x4096x2048_0_1_2 : S4x4096x1.BroadcastsInDim S4x4096x2048 (![0, 1, 2] : Fin 3 → Fin S4x4096x2048.rank)
  slices_S4x2048x2048_S1x2048x2048_1_0_0 : S4x2048x2048.Slices ![1, 0, 0] S1x2048x2048
  slices_S4x2048x2048_S1x2048x2048_2_0_0 : S4x2048x2048.Slices ![2, 0, 0] S1x2048x2048
  slices_S4x2048x2048_S1x2048x2048_3_0_0 : S4x2048x2048.Slices ![3, 0, 0] S1x2048x2048
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.KOk.lean ====
/-
  The tile table's words are always below 4 (each is a sum of three 0/1 words), so every weight block the grid fetches lies inside its array: the side condition of both printed kernels' frames, for every input.
-/
import proofs.«400137_j63582695850549_3_alg».proof.Proof.Gen.KernelIdeal.Frame
import proofs.«400137_j63582695850549_3_alg».proof.Proof.Gen.Kernel.Frame
import Idealize.ShloMosaic.Lib.StableHlo.Run
import Idealize.ShloMosaic.Lib.StableHlo.Predicate
import Idealize.ShloMosaic.Lib.Affine
import Idealize.ShloMosaic.Lib.ValueIdx

noncomputable section

namespace Cert.Moe.KOk

open Idealize.ShloMosaic Idealize.ShloMosaic.ValueIdx Idealize.SL.Sem
open scoped BigOperators

/-! ## The two general facts -/

/-- The wrapping sum, from zero, over the three columns of a one-bit mask widened to 32 bits is, at each row, the number of
    set bits of that row: at most 3, so one more is at most 4. Stated at any number of rows. -/
theorem reduce_cols3_bound {n : Nat} (mask : IVec ⟨2, ![n, 3]⟩ 1) (hw : 1 < 32)
    (h : (⟨2, ![n, 3]⟩ : Shape).ReducesTo [1] ⟨1, ![n]⟩) {u : Shape} (hu : 0 < u.numel) (j : (⟨1, ![n]⟩ : Shape).Idx) :
    (Host.reduce IntOp.addi (extui 32 mask hw) (constantI u 32 0#32) h hu j).toNat + 1 ≤ 4 := by
  rw [StableHlo.Predicate.toNat_reduce_count_cols (by norm_num) mask hw h hu j]
  have hc := Finset.card_le_univ (Finset.univ.filter (fun q : Fin 3 => mask (StableHlo.Predicate.ij (j 0) q) = 1#1))
  rw [Fintype.card_fin] at hc
  omega

/-- The block of extents [1, 2048, 2048] at block index (x, 0, 0), x below 4, lies inside an array of extents [4, 2048, 2048]. -/
theorem block_inb (x : Nat) (hx : x + 1 ≤ 4) (a : Fin 3) :
    ((![x, 0, 0] : Fin 3 → Nat) a + 1) * (⟨3, ![1, 2048, 2048]⟩ : Shape).size a ≤ (⟨3, ![4, 2048, 2048]⟩ : Shape).size a := by
  fin_cases a
  · show (x + 1) * 1 ≤ 4; omega
  · show (0 + 1) * 2048 ≤ 2048; omega
  · show (0 + 1) * 2048 ≤ 2048; omega

/-! ## The program of `Cert.KernelIdeal` -/

section ideal
open Cert.KernelIdeal Cert.KernelIdeal.Gen

/-- At ANY contents of the table whose words are below 4, the three weight windows' blocks (block index: the table's word at the
    grid point, then 0, 0) lie inside their arrays, and each block, spanning the whole even last axis, is whole words of
    two-per-word elements. -/
theorem ok0_of_bound_ideal {F : FTy → Type} [FloatOps F] (pf : pre0.Contents (Elt F))
    (h : ∀ (r : Rect S68) (h1 : r.shape.numel = 1), (pf.at 0 r h1 : BitVec 32).toNat + 1 ≤ 4) : ok0 pf := by
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · exact block_inb _ (h _ _)
  · exact block_inb _ (h _ _)
  · exact block_inb _ (h _ _)

/-- The table the region is entered with is the sum over the 3 columns of a widened one-bit [68 × 3] mask (whatever the mask
    is): each of its words is below 4. -/
theorem tbl_bound_ideal {F : FTy → Type} [FloatOps F] (m : (ℓ : Loc Cert.KernelIdeal.nD Cert.KernelIdeal.τ Cert.KernelIdeal.sig) → Buf (Elt F) ℓ)
    (j : S68.Idx) : ((tbl (F := F) m 0 : S68.Idx → BitVec 32) j).toNat + 1 ≤ 4 := by
  obtain ⟨X, e⟩ : ∃ (X : IVec S68x3 1),
      (tbl (F := F) m 0 : S68.Idx → BitVec 32) = Host.reduce IntOp.addi (extui 32 X natLt_1_32) (constantI S_ 32 0#32) reducesTo_S68x3_S68_d1 h_S_ := by
    refine ⟨?X, ?e⟩
    case e =>
      show StableHlo.after _ (fun b => m ((0 : Dev nD), b)) (Proc.devRef .tc main_v80) = _
      simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
        List.nil_append, StableHlo.after_cons, StableHlo.after_nil]
      rw [StableHlo.unary_result_ne]; rotate_left; decide
      rw [StableHlo.unary_result_ne]; rotate_left; decide
      rw [StableHlo.unary_result_ne]; rotate_left; decide
      rw [StableHlo.binary_result]
      rw [StableHlo.nullary_result_ne (r := main_v79)]; rotate_left; decide
      rw [StableHlo.unary_result, StableHlo.nullary_result]
  rw [e]
  exact reduce_cols3_bound X _ _ _ j

end ideal

theorem ok_ideal {F : FTy → Type} [FloatOps F] (m : (ℓ : Loc Cert.KernelIdeal.nD Cert.KernelIdeal.τ Cert.KernelIdeal.sig) → Buf (Elt F) ℓ) :
    Cert.KernelIdeal.Gen.Ok (F := F) m :=
  ok0_of_bound_ideal (Cert.KernelIdeal.Gen.tbl m) fun _ _ => tbl_bound_ideal m _

/-! ## The program of `Cert.Kernel` -/

section bits
open Cert.Kernel Cert.Kernel.Gen

/-- At ANY contents of the table whose words are below 4, the three weight windows' blocks (block index: the table's word at the
    grid point, then 0, 0) lie inside their arrays, and each block, spanning the whole even last axis, is whole words of
    two-per-word elements. -/
theorem ok0_of_bound_bits {F : FTy → Type} [FloatOps F] (pf : pre0.Contents (Elt F))
    (h : ∀ (r : Rect S68) (h1 : r.shape.numel = 1), (pf.at 0 r h1 : BitVec 32).toNat + 1 ≤ 4) : ok0 pf := by
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · exact block_inb _ (h _ _)
  · exact block_inb _ (h _ _)
  · exact block_inb _ (h _ _)

/-- The table the region is entered with is the sum over the 3 columns of a widened one-bit [68 × 3] mask (whatever the mask
    is): each of its words is below 4. -/
theorem tbl_bound_bits {F : FTy → Type} [FloatOps F] (m : (ℓ : Loc Cert.Kernel.nD Cert.Kernel.τ Cert.Kernel.sig) → Buf (Elt F) ℓ)
    (j : S68.Idx) : ((tbl (F := F) m 0 : S68.Idx → BitVec 32) j).toNat + 1 ≤ 4 := by
  obtain ⟨X, e⟩ : ∃ (X : IVec S68x3 1),
      (tbl (F := F) m 0 : S68.Idx → BitVec 32) = Host.reduce IntOp.addi (extui 32 X natLt_1_32) (constantI S_ 32 0#32) reducesTo_S68x3_S68_d1 h_S_ := by
    refine ⟨?X, ?e⟩
    case e =>
      show StableHlo.after _ (fun b => m ((0 : Dev nD), b)) (Proc.devRef .tc main_v80) = _
      simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
        List.nil_append, StableHlo.after_cons, StableHlo.after_nil]
      rw [StableHlo.unary_result_ne]; rotate_left; decide
      rw [StableHlo.unary_result_ne]; rotate_left; decide
      rw [StableHlo.unary_result_ne]; rotate_left; decide
      rw [StableHlo.binary_result]
      rw [StableHlo.nullary_result_ne (r := main_v79)]; rotate_left; decide
      rw [StableHlo.unary_result, StableHlo.nullary_result]
  rw [e]
  exact reduce_cols3_bound X _ _ _ j

end bits

theorem ok_bits {F : FTy → Type} [FloatOps F] (m : (ℓ : Loc Cert.Kernel.nD Cert.Kernel.τ Cert.Kernel.sig) → Buf (Elt F) ℓ) :
    Cert.Kernel.Gen.Ok (F := F) m :=
  ok0_of_bound_bits (Cert.Kernel.Gen.tbl m) fun _ _ => tbl_bound_bits m _

end Cert.Moe.KOk

end
-- ==== Proof.Tables.lean ====
/-
  The routing tables the kernel's program builds from the token ids, each as one function of the
  expert words: the sorting order, the per-expert counts and their running sums (plain and rounded up
  to whole tiles of 256 rows), the padded row each sorted token is sent to, the table that says which
  token sits in each padded row, the expert of each tile, and the padded row of each token.
-/
import proofs.«400137_j63582695850549_3_alg».proof.KernelIdeal

noncomputable section

namespace Cert.KernelIdeal.Tab

open Idealize.ShloMosaic Cert.KernelIdeal

variable [Facts₀]
open Facts₀

/-- Token ids clamped into [0, 99999]. -/
def clipped (tok : IVec S4x4096 32) : IVec S4x4096 32 :=
  minsi (broadcastInDim S4x4096 ![] bcast_S_S4x4096 (id (constantI S_ 32 99999#32)))
    (maxsi (broadcastInDim S4x4096 ![] bcast_S_S4x4096 (id (constantI S_ 32 0#32))) tok)

/-- Floor division by 25000 as jnp spells it: the truncating quotient, lowered by one where the signs
    differ and the remainder is not zero. -/
def floorDiv25000 (a : IVec S4x4096 32) : IVec S4x4096 32 :=
  select (andi (cmpi .ne (signi a) (broadcastInDim S4x4096 ![] bcast_S_S4x4096 (signi (id (constantI S_ 32 25000#32)))))
      (cmpi .ne (Host.remsi a (broadcastInDim S4x4096 ![] bcast_S_S4x4096 (id (constantI S_ 32 25000#32))))
        (broadcastInDim S4x4096 ![] bcast_S_S4x4096 (constantI S_ 32 0#32))))
    (subi (Host.divsi a (broadcastInDim S4x4096 ![] bcast_S_S4x4096 (id (constantI S_ 32 25000#32))))
      (broadcastInDim S4x4096 ![] bcast_S_S4x4096 (constantI S_ 32 1#32)))
    (Host.divsi a (broadcastInDim S4x4096 ![] bcast_S_S4x4096 (id (constantI S_ 32 25000#32))))

/-- The expert word of every token: min(clip(id) // 25000, 3). -/
def expertIds (tok : IVec S4x4096 32) : IVec S4x4096 32 :=
  minsi (floorDiv25000 (clipped tok)) (broadcastInDim S4x4096 ![] bcast_S_S4x4096 (constantI S_ 32 3#32))

/-- The expert words as one vector of 16384. -/
def eflat (tok : IVec S4x4096 32) : IVec S16384 32 := shapeCast S16384 (expertIds tok) shapeCasts_S4x4096_S16384

/-- jnp's negative-index wrap on a vector of 16384 index words: add `n` where the word is negative. -/
def wrap16384 (n : BitVec 32) (idx : IVec S16384 32) : IVec S16384 32 :=
  select (cmpi .slt idx (broadcastInDim S16384 ![] bcast_S_S16384 (constantI S_ 32 0#32)))
    (addi idx (broadcastInDim S16384 ![] bcast_S_S16384 (constantI S_ 32 n))) idx

/-- An index vector as the one-column index array a gather or scatter takes. -/
def col16384 (idx : IVec S16384 32) : IVec S16384x1 32 := broadcastInDim S16384x1 ![0] bcast_S16384_S16384x1_0 idx

def wrap17408 (n : BitVec 32) (idx : IVec S17408 32) : IVec S17408 32 :=
  select (cmpi .slt idx (broadcastInDim S17408 ![] bcast_S_S17408 (constantI S_ 32 0#32)))
    (addi idx (broadcastInDim S17408 ![] bcast_S_S17408 (constantI S_ 32 n))) idx

def col17408 (idx : IVec S17408 32) : IVec S17408x1 32 := broadcastInDim S17408x1 ![0] bcast_S17408_S17408x1_0 idx

/-- argsort of the expert words: position `k` holds the token that sorts `k`-th. -/
def sortIdx (e : IVec S16384 32) : IVec S16384 32 := (Host.sort2 S16384 0 comparator_i32_i32_d0 e (iotaInDim S16384 32 0)).2

/-- The expert words in sorted order. -/
def sortedExpert (e : IVec S16384 32) : IVec S16384 32 :=
  Host.gather gather_S16384_S16384x1_S16384_n_0_n_n_0_1_1 e (col16384 (wrap16384 16384#32 (sortIdx e)))

/-- bincount: how many tokens each expert has. -/
def counts (e : IVec S16384 32) : IVec S4 32 :=
  Host.scatter scatter_S4_S16384x1_S16384_n_0_0_1 IntOp.addi (broadcastInDim S4 ![] bcast_S_S4 (constantI S_ 32 0#32))
    (col16384 (wrap16384 4#32 (maxsi (broadcastInDim S16384 ![] bcast_S_S16384 (id (constantI S_ 32 0#32))) e)))
    (broadcastInDim S16384 ![] bcast_S_S16384 (constantI S_ 32 1#32))

/-- Floor division by 256 on four words, as jnp spells it. -/
def floorDiv256 (a : IVec S4 32) : IVec S4 32 :=
  select (andi (cmpi .ne (signi a) (broadcastInDim S4 ![] bcast_S_S4 (signi (id (constantI S_ 32 256#32)))))
      (cmpi .ne (Host.remsi a (broadcastInDim S4 ![] bcast_S_S4 (id (constantI S_ 32 256#32))))
        (broadcastInDim S4 ![] bcast_S_S4 (constantI S_ 32 0#32))))
    (subi (Host.divsi a (broadcastInDim S4 ![] bcast_S_S4 (id (constantI S_ 32 256#32))))
      (broadcastInDim S4 ![] bcast_S_S4 (constantI S_ 32 1#32)))
    (Host.divsi a (broadcastInDim S4 ![] bcast_S_S4 (id (constantI S_ 32 256#32))))

/-- Each count rounded up to a whole number of 256-row tiles. -/
def paddedCounts (e : IVec S16384 32) : IVec S4 32 :=
  muli (floorDiv256 (subi (addi (counts e) (broadcastInDim S4 ![] bcast_S_S4 (constantI S_ 32 256#32)))
      (broadcastInDim S4 ![] bcast_S_S4 (constantI S_ 32 1#32))))
    (broadcastInDim S4 ![] bcast_S_S4 (constantI S_ 32 256#32))

/-- Running sum of four words. -/
def cumsum4 (x : IVec S4 32) : IVec S4 32 :=
  Host.reduceWindow IntOp.addi ![4] ![1] ![3] ![0] x (broadcastInDim S_ ![] bcast_S_S_ (constantI S_ 32 0#32))
    reduceWindows_S4_S4_w4s1p3_0 h_S_

def paddedCum (e : IVec S16384 32) : IVec S4 32 := cumsum4 (paddedCounts e)
def paddedOff (e : IVec S16384 32) : IVec S4 32 := subi (paddedCum e) (paddedCounts e)
def origCum (e : IVec S16384 32) : IVec S4 32 := cumsum4 (counts e)
def origOff (e : IVec S16384 32) : IVec S4 32 := subi (origCum e) (counts e)

/-- Position inside its expert's group of the k-th sorted token. -/
def rankInGroup (e : IVec S16384 32) : IVec S16384 32 :=
  subi (iotaInDim S16384 32 0)
    (Host.gather gather_S4_S16384x1_S16384_n_0_n_n_0_1_1 (origOff e) (col16384 (wrap16384 4#32 (sortedExpert e))))

/-- The padded row the k-th sorted token is sent to. -/
def destPos (e : IVec S16384 32) : IVec S16384 32 :=
  addi (Host.gather gather_S4_S16384x1_S16384_n_0_n_n_0_1_1 (paddedOff e) (col16384 (wrap16384 4#32 (sortedExpert e))))
    (rankInGroup e)

/-- Which token sits in each padded row (16384 where none does). -/
def srcRow (e : IVec S16384 32) : IVec S17408 32 :=
  Host.scatter scatter_S17408_S16384x1_S16384_n_0_0_1 (fun _ b => b)
    (broadcastInDim S17408 ![] bcast_S_S17408 (constantI S_ 32 16384#32))
    (col16384 (wrap16384 17408#32 (destPos e))) (sortIdx e)

/-- The same as the index column the row gather of the extended token table takes. -/
def srcCol (e : IVec S16384 32) : IVec S17408x1 32 := col17408 (wrap17408 16385#32 (srcRow e))

/-- The expert of each of the 68 tiles: how many of the first three rounded running sums the tile's
    first row has reached. -/
def gid (e : IVec S16384 32) : IVec S68 32 :=
  Host.reduce IntOp.addi
    (extui 32 (cmpi .sge
      (broadcastInDim S68x3 ![0, 1] bcast_S68x1_S68x3_0_1
        (broadcastInDim S68x1 ![0] bcast_S68_S68x1_0
          (muli (iotaInDim S68 32 0) (broadcastInDim S68 ![] bcast_S_S68 (constantI S_ 32 256#32)))))
      (broadcastInDim S68x3 ![0, 1] bcast_S1x3_S68x3_0_1
        (broadcastInDim S1x3 ![1] bcast_S3_S1x3_1 (extractStridedSlice S3 ![0] (paddedCum e) slices_S4_S3_0)))) natLt_1_32)
    (constantI S_ 32 0#32) reducesTo_S68x3_S68_d1 h_S_

/-- The padded row of each token. -/
def posOfToken (e : IVec S16384 32) : IVec S16384 32 :=
  Host.scatter scatter_S16384_S16384x1_S16384_n_0_0_1 (fun _ b => b)
    (broadcastInDim S16384 ![] bcast_S_S16384 (constantI S_ 32 0#32))
    (col16384 (wrap16384 16384#32 (sortIdx e))) (destPos e)

/-- The same as the index column the final row gather takes. -/
def posCol (e : IVec S16384 32) : IVec S16384x1 32 := col16384 (wrap16384 17408#32 (posOfToken e))

end Cert.KernelIdeal.Tab

end
-- ==== Proof.KHost.lean ====
/-
  What the host operations before the grid leave in the buffers the grid and the tail read, as functions of the arguments.
-/
import proofs.«400137_j63582695850549_3_alg».proof.Proof.Gen.KernelIdeal.Frame
import proofs.«400137_j63582695850549_3_alg».proof.Proof.Tables
import Idealize.ShloMosaic.Lib.StableHlo.Run
import Idealize.ShloMosaic.Lib.ValueIdx

noncomputable section

namespace Cert.Moe.KHost

open Idealize.ShloMosaic Idealize.ShloMosaic.ValueIdx Idealize.SL.Sem Cert.KernelIdeal Cert.KernelIdeal.Gen
open scoped BigOperators

variable {F : FTy → Type} [FloatOps F] (m : (ℓ : Loc nD τ sig) → Buf (Elt F) ℓ) (c : Dev nD)

/-- The token table with one zero row appended: row i < 16384 is token i narrowed to bf16. -/
def xExt (x : FVec F S4x4096x2048 .f32) : FVec F S16385x2048 .bf16 :=
  concatenate S16385x2048 0 [⟨S16384x2048, truncf .bf16 (shapeCast S16384x2048 x Facts₀.shapeCasts_S4x4096x2048_S16384x2048) bitsLt_bf16_f32⟩,
    ⟨S1x2048, broadcastInDim S1x2048 ![] Facts₀.bcast_S_S1x2048 (constant S_ .bf16 0x0000#16)⟩] Facts₀.concatenates_S16384x2048_S1x2048_S16385x2048_d0

/-- The padded token array: padded row p is the row of the extended table its source word names. -/
def xPadded (x : FVec F S4x4096x2048 .f32) (e : IVec S16384 32) : FVec F S17408x2048 .bf16 :=
  Host.gather gather_S16385x2048_S17408x1_S17408x2048_1_0_n_n_0_1_12048 (xExt x) (Tab.srcCol e)

open StableHlo

/-- Buffer contents after the stretches that compute the expert words and narrow the tokens. -/
def Wa : Valuation τ sig (Elt F) :=
  after (hostOps0 ++ (hostOps0_1 ++ (hostOps0_2 ++ (hostOps0_3 ++ hostOps0_4)))) (fun b => m (c, b))

/-- Buffer contents after the sort, the sorted expert words and the counts. -/
def Wb : Valuation τ sig (Elt F) :=
  after (hostOps0_5 ++ (hostOps0_6 ++ (hostOps0_7 ++ hostOps0_8))) (Wa m c)

/-- Buffer contents after the rounded counts and both running sums. -/
def Wc : Valuation τ sig (Elt F) :=
  after (hostOps0_9 ++ (hostOps0_10 ++ (hostOps0_11 ++ (hostOps0_12 ++ hostOps0_13)))) (Wb m c)

theorem V0_eq : V0 m c = after hostOps0_14 (Wc m c) := by
  simp only [V0, Wa, Wb, Wc, List.flatten_cons, List.flatten_nil, List.append_nil, StableHlo.after_append]

theorem Wa_v4 : Wa m c (Proc.devRef .tc main_v4) = Tab.eflat (m ((c.tc : Thread nD τ).loc main_arg1)) := by
  simp only [Wa, hostOps0, hostOps0_1, hostOps0_2, hostOps0_3, hostOps0_4, List.cons_append, List.nil_append]
  after_results_simp
  simp only [TRef.ofBuf, TRef.toBuf, cast_eq]
  rfl

theorem Wa_v6 : Wa m c (Proc.devRef .tc main_v6) = truncf .bf16 (shapeCast S16384x2048 (m ((c.tc : Thread nD τ).loc main_arg0)) Facts₀.shapeCasts_S4x4096x2048_S16384x2048) bitsLt_bf16_f32 := by
  simp only [Wa, hostOps0, hostOps0_1, hostOps0_2, hostOps0_3, hostOps0_4, List.cons_append, List.nil_append]
  after_results_simp
  try simp only [TRef.ofBuf, TRef.toBuf, cast_eq]
  try rfl

theorem Wb_v6 : Wb m c (Proc.devRef .tc main_v6) = truncf .bf16 (shapeCast S16384x2048 (m ((c.tc : Thread nD τ).loc main_arg0)) Facts₀.shapeCasts_S4x4096x2048_S16384x2048) bitsLt_bf16_f32 := by
  simp only [Wb, hostOps0_5, hostOps0_6, hostOps0_7, hostOps0_8, List.cons_append, List.nil_append]
  after_results_simp
  exact Wa_v6 m c

theorem Wb_v7 : Wb m c (Proc.devRef .tc main_v7) = Tab.sortIdx (Tab.eflat (m ((c.tc : Thread nD τ).loc main_arg1))) := by
  simp only [Wb, hostOps0_5, hostOps0_6, hostOps0_7, hostOps0_8, List.cons_append, List.nil_append]
  after_results_simp
  simp only [TRef.ofBuf, TRef.toBuf, cast_eq]
  rw [Wa_v4]
  generalize Tab.eflat _ = e
  rfl

theorem Wb_v14 : Wb m c (Proc.devRef .tc main_v14) = Tab.sortedExpert (Tab.eflat (m ((c.tc : Thread nD τ).loc main_arg1))) := by
  simp only [Wb, hostOps0_5, hostOps0_6, hostOps0_7, hostOps0_8, List.cons_append, List.nil_append]
  after_results_simp
  simp only [TRef.ofBuf, TRef.toBuf, cast_eq]
  rw [Wa_v4]
  generalize Tab.eflat _ = e
  rfl

theorem Wb_v24 : Wb m c (Proc.devRef .tc main_v24) = Tab.counts (Tab.eflat (m ((c.tc : Thread nD τ).loc main_arg1))) := by
  simp only [Wb, hostOps0_5, hostOps0_6, hostOps0_7, hostOps0_8, List.cons_append, List.nil_append]
  after_results_simp
  simp only [TRef.ofBuf, TRef.toBuf, cast_eq]
  rw [Wa_v4]
  generalize Tab.eflat _ = e
  rfl

theorem Wb_v28 : Wb m c (Proc.devRef .tc main_v28) =
    subi (addi (Tab.counts (Tab.eflat (m ((c.tc : Thread nD τ).loc main_arg1)))) (broadcastInDim S4 ![] Facts₀.bcast_S_S4 (constantI S_ 32 256#32)))
      (broadcastInDim S4 ![] Facts₀.bcast_S_S4 (constantI S_ 32 1#32)) := by
  simp only [Wb, hostOps0_5, hostOps0_6, hostOps0_7, hostOps0_8, List.cons_append, List.nil_append]
  after_results_simp
  simp only [TRef.ofBuf, TRef.toBuf, cast_eq]
  rw [Wa_v4]
  generalize Tab.eflat _ = e
  rfl

theorem Wc_v6 : Wc m c (Proc.devRef .tc main_v6) = truncf .bf16 (shapeCast S16384x2048 (m ((c.tc : Thread nD τ).loc main_arg0)) Facts₀.shapeCasts_S4x4096x2048_S16384x2048) bitsLt_bf16_f32 := by
  simp only [Wc, hostOps0_9, hostOps0_10, hostOps0_11, hostOps0_12, hostOps0_13, List.cons_append, List.nil_append]
  after_results_simp
  exact Wb_v6 m c

theorem Wc_v7 : Wc m c (Proc.devRef .tc main_v7) = Tab.sortIdx (Tab.eflat (m ((c.tc : Thread nD τ).loc main_arg1))) := by
  simp only [Wc, hostOps0_9, hostOps0_10, hostOps0_11, hostOps0_12, hostOps0_13, List.cons_append, List.nil_append]
  after_results_simp
  exact Wb_v7 m c

theorem Wc_v14 : Wc m c (Proc.devRef .tc main_v14) = Tab.sortedExpert (Tab.eflat (m ((c.tc : Thread nD τ).loc main_arg1))) := by
  simp only [Wc, hostOps0_9, hostOps0_10, hostOps0_11, hostOps0_12, hostOps0_13, List.cons_append, List.nil_append]
  after_results_simp
  exact Wb_v14 m c

theorem Wc_v24 : Wc m c (Proc.devRef .tc main_v24) = Tab.counts (Tab.eflat (m ((c.tc : Thread nD τ).loc main_arg1))) := by
  simp only [Wc, hostOps0_9, hostOps0_10, hostOps0_11, hostOps0_12, hostOps0_13, List.cons_append, List.nil_append]
  after_results_simp
  exact Wb_v24 m c

theorem Wc_v31 : Wc m c (Proc.devRef .tc main_v31) = Tab.paddedCounts (Tab.eflat (m ((c.tc : Thread nD τ).loc main_arg1))) := by
  simp only [Wc, hostOps0_9, hostOps0_10, hostOps0_11, hostOps0_12, hostOps0_13, List.cons_append, List.nil_append]
  after_results_simp
  simp only [TRef.ofBuf, TRef.toBuf, cast_eq]
  rw [Wb_v28]
  generalize Tab.eflat _ = e
  rfl

theorem Wc_v32 : Wc m c (Proc.devRef .tc main_v32) = Tab.paddedCum (Tab.eflat (m ((c.tc : Thread nD τ).loc main_arg1))) := by
  simp only [Wc, hostOps0_9, hostOps0_10, hostOps0_11, hostOps0_12, hostOps0_13, List.cons_append, List.nil_append]
  after_results_simp
  simp only [TRef.ofBuf, TRef.toBuf, cast_eq]
  rw [Wb_v28]
  generalize Tab.eflat _ = e
  rfl

theorem Wc_v33 : Wc m c (Proc.devRef .tc main_v33) = Tab.paddedOff (Tab.eflat (m ((c.tc : Thread nD τ).loc main_arg1))) := by
  simp only [Wc, hostOps0_9, hostOps0_10, hostOps0_11, hostOps0_12, hostOps0_13, List.cons_append, List.nil_append]
  after_results_simp
  simp only [TRef.ofBuf, TRef.toBuf, cast_eq]
  rw [Wb_v28]
  generalize Tab.eflat _ = e
  rfl

theorem Wc_v34 : Wc m c (Proc.devRef .tc main_v34) = Tab.origCum (Tab.eflat (m ((c.tc : Thread nD τ).loc main_arg1))) := by
  simp only [Wc, hostOps0_9, hostOps0_10, hostOps0_11, hostOps0_12, hostOps0_13, List.cons_append, List.nil_append]
  after_results_simp
  simp only [TRef.ofBuf, TRef.toBuf, cast_eq]
  rw [Wb_v24]
  generalize Tab.eflat _ = e
  rfl

/-- The last stretch up to the source-row table. -/
def opsA : List (HloOp τ sig (Elt F)) := List.take 34 hostOps0_14
/-- Its three operations that build the extended token table. -/
def opsB : List (HloOp τ sig (Elt F)) := List.take 3 (List.drop 34 hostOps0_14)
/-- The rest of it. -/
def opsC : List (HloOp τ sig (Elt F)) := List.drop 37 hostOps0_14

theorem ops14_cut : (hostOps0_14 : List (HloOp τ sig (Elt F))) = opsA ++ (opsB ++ opsC) := rfl

/-- Buffer contents after the source-row table. -/
def Wd : Valuation τ sig (Elt F) := after opsA (Wc m c)
/-- Buffer contents after the extended token table. -/
def We : Valuation τ sig (Elt F) := after opsB (Wd m c)

theorem V0_cut : V0 m c = after opsC (We m c) := by
  rw [V0_eq, ops14_cut, StableHlo.after_append, StableHlo.after_append]; rfl

theorem Wd_v6 : Wd m c (Proc.devRef .tc main_v6) = truncf .bf16 (shapeCast S16384x2048 (m ((c.tc : Thread nD τ).loc main_arg0)) Facts₀.shapeCasts_S4x4096x2048_S16384x2048) bitsLt_bf16_f32 := by
  simp only [Wd, opsA, hostOps0_14, List.take_succ_cons, List.take_zero]
  after_results_simp
  exact Wc_v6 m c
theorem Wd_v7 : Wd m c (Proc.devRef .tc main_v7) = Tab.sortIdx (Tab.eflat (m ((c.tc : Thread nD τ).loc main_arg1))) := by
  simp only [Wd, opsA, hostOps0_14, List.take_succ_cons, List.take_zero]
  after_results_simp
  exact Wc_v7 m c
theorem Wd_v32 : Wd m c (Proc.devRef .tc main_v32) = Tab.paddedCum (Tab.eflat (m ((c.tc : Thread nD τ).loc main_arg1))) := by
  simp only [Wd, opsA, hostOps0_14, List.take_succ_cons, List.take_zero]
  after_results_simp
  exact Wc_v32 m c
theorem Wd_v52 : Wd m c (Proc.devRef .tc main_v52) = Tab.destPos (Tab.eflat (m ((c.tc : Thread nD τ).loc main_arg1))) := by
  simp only [Wd, opsA, hostOps0_14, List.take_succ_cons, List.take_zero]
  after_results_simp
  rw [Wc_v14, Wc_v33, Wc_v34, Wc_v24]
  generalize Tab.eflat _ = e
  rfl
theorem Wd_v60 : Wd m c (Proc.devRef .tc main_v60) = Tab.srcRow (Tab.eflat (m ((c.tc : Thread nD τ).loc main_arg1))) := by
  simp only [Wd, opsA, hostOps0_14, List.take_succ_cons, List.take_zero]
  after_results_simp
  rw [Wc_v14, Wc_v33, Wc_v34, Wc_v24, Wc_v7]
  generalize Tab.eflat _ = e
  rfl

theorem We_v7 : We m c (Proc.devRef .tc main_v7) = Tab.sortIdx (Tab.eflat (m ((c.tc : Thread nD τ).loc main_arg1))) := by
  simp only [We, opsB, hostOps0_14, List.take_succ_cons, List.take_zero, List.drop_succ_cons, List.drop_zero]
  after_results_simp
  exact Wd_v7 m c
theorem We_v32 : We m c (Proc.devRef .tc main_v32) = Tab.paddedCum (Tab.eflat (m ((c.tc : Thread nD τ).loc main_arg1))) := by
  simp only [We, opsB, hostOps0_14, List.take_succ_cons, List.take_zero, List.drop_succ_cons, List.drop_zero]
  after_results_simp
  exact Wd_v32 m c
theorem We_v52 : We m c (Proc.devRef .tc main_v52) = Tab.destPos (Tab.eflat (m ((c.tc : Thread nD τ).loc main_arg1))) := by
  simp only [We, opsB, hostOps0_14, List.take_succ_cons, List.take_zero, List.drop_succ_cons, List.drop_zero]
  after_results_simp
  exact Wd_v52 m c
theorem We_v60 : We m c (Proc.devRef .tc main_v60) = Tab.srcRow (Tab.eflat (m ((c.tc : Thread nD τ).loc main_arg1))) := by
  simp only [We, opsB, hostOps0_14, List.take_succ_cons, List.take_zero, List.drop_succ_cons, List.drop_zero]
  after_results_simp
  exact Wd_v60 m c
theorem We_v62 : We m c (Proc.devRef .tc main_v62) = xExt (m ((c.tc : Thread nD τ).loc main_arg0)) := by
  simp only [We, opsB, hostOps0_14, List.take_succ_cons, List.take_zero, List.drop_succ_cons, List.drop_zero]
  after_results
  rw [Wd_v6]
  rfl

theorem V_v69 : V m c main_v69 = xPadded (m ((c.tc : Thread nD τ).loc main_arg0)) (Tab.eflat (m ((c.tc : Thread nD τ).loc main_arg1))) := by
  show V0 m c (Proc.devRef .tc main_v69) = _
  rw [V0_cut]
  simp only [opsC, hostOps0_14, List.drop_succ_cons, List.drop_zero]
  after_results_simp
  rw [We_v60, We_v62]
  generalize Tab.eflat _ = e
  generalize m _ = x
  rfl
theorem V_v80 : V m c main_v80 = Tab.gid (Tab.eflat (m ((c.tc : Thread nD τ).loc main_arg1))) := by
  show V0 m c (Proc.devRef .tc main_v80) = _
  rw [V0_cut]
  simp only [opsC, hostOps0_14, List.drop_succ_cons, List.drop_zero]
  after_results_simp
  rw [We_v32]
  generalize Tab.eflat _ = e
  rfl
theorem tbl_eq : tbl m 0 = Tab.gid (Tab.eflat (m (((0 : Dev nD).tc : Thread nD τ).loc main_arg1))) := by
  exact V_v80 m 0
theorem V_v81 : V m c main_v81 = truncf .bf16 (m ((c.tc : Thread nD τ).loc main_arg2)) bitsLt_bf16_f32 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
theorem V_v82 : V m c main_v82 = truncf .bf16 (m ((c.tc : Thread nD τ).loc main_arg3)) bitsLt_bf16_f32 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
theorem V_v83 : V m c main_v83 = truncf .bf16 (m ((c.tc : Thread nD τ).loc main_arg4)) bitsLt_bf16_f32 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
theorem V0_v7 : V0 m c (Proc.devRef .tc main_v7) = Tab.sortIdx (Tab.eflat (m ((c.tc : Thread nD τ).loc main_arg1))) := by
  rw [V0_cut]
  simp only [opsC, hostOps0_14, List.drop_succ_cons, List.drop_zero]
  after_results_simp
  exact We_v7 m c
theorem V0_v52 : V0 m c (Proc.devRef .tc main_v52) = Tab.destPos (Tab.eflat (m ((c.tc : Thread nD τ).loc main_arg1))) := by
  rw [V0_cut]
  simp only [opsC, hostOps0_14, List.drop_succ_cons, List.drop_zero]
  after_results_simp
  exact We_v52 m c

end Cert.Moe.KHost

end
-- ==== Proof.KTail.lean ====
/-
  The kernel program's run with its result named: after the grid, the tail gathers each token's row out of the padded output array by the token's padded-row word and reshapes to [4, 4096, 2048].
-/
import proofs.«400137_j63582695850549_3_alg».proof.Proof.Gen.KernelIdeal.Frame
import proofs.«400137_j63582695850549_3_alg».proof.Proof.Tables
import proofs.«400137_j63582695850549_3_alg».proof.Proof.KHost
import Idealize.ShloMosaic.Lib.StableHlo.Run
import Idealize.ShloMosaic.Lib.ValueIdx

noncomputable section

namespace Cert.Moe.KTail

open Idealize.ShloMosaic Idealize.ShloMosaic.ValueIdx Idealize.SL.Sem Cert.KernelIdeal Cert.KernelIdeal.Gen
open scoped BigOperators

/-- The tail's result from the padded output array and the padded-row index column. -/
def tailOut {F : FTy → Type} [FloatOps F] (op : FVec F S17408x2048 .f32) (col : IVec S16384x1 32) : FVec F S4x4096x2048 .f32 :=
  shapeCast S4x4096x2048 (Host.gather gather_S17408x2048_S16384x1_S16384x2048_1_0_n_n_0_1_12048 op col) Facts₀.shapeCasts_S16384x2048_S4x4096x2048

/-- The padded-row index column from the sorting order and the padded rows of the sorted tokens. -/
def posColOf (si dp : IVec S16384 32) : IVec S16384x1 32 :=
  Tab.col16384 (Tab.wrap16384 17408#32
    (Host.scatter scatter_S16384_S16384x1_S16384_n_0_0_1 (fun _ b => b)
      (broadcastInDim S16384 ![] Facts₀.bcast_S_S16384 (constantI S_ 32 0#32))
      (Tab.col16384 (Tab.wrap16384 16384#32 si)) dp))

theorem posCol_eq (e : IVec S16384 32) : Tab.posCol e = posColOf (Tab.sortIdx e) (Tab.destPos e) := rfl

/-- The operations after the grid, from any contents: the result buffer holds the row gather of the padded output by the
    index column built from the sorting order and the sorted tokens' padded rows, reshaped. -/
theorem tail_after (W : Valuation τ sig (Elt Ideal)) :
    StableHlo.after (hostOps1 (F := Ideal)) W (Proc.devRef .tc main_v100)
      = tailOut (F := Ideal) (W (Proc.devRef .tc main_v84)) (posColOf (W (Proc.devRef .tc main_v7)) (W (Proc.devRef .tc main_v52))) := by
  after_results_simp
  rfl

variable (m : (ℓ : Loc nD τ sig) → Buf (Elt Ideal) ℓ) (ρ : Dev nD → PrngReg)

/-- The result buffer after the whole program, as the tail of the padded output array the grid leaves. -/
theorem tail_eq (hO : Ok (F := Ideal) m) (c : Dev nD) :
    Pipeline.afterTail (pcfgs (F := Ideal)) (fun _ => adm (F := Ideal) m hO) (dats (F := Ideal) m hO) 0 (V0 (F := Ideal) m) [hostOps1 (F := Ideal)] c main_v100
      = tailOut (F := Ideal) ((dats (F := Ideal) m hO 0 c).arrAt 4 (cfgM m hO).N : FVec Ideal S17408x2048 .f32) (Tab.posCol (Tab.eflat (m ((c.tc : Thread nD τ).loc main_arg1)))) := by
  unfold Pipeline.afterTail
  simp only [List.flatten_cons, List.flatten_nil, List.append_nil]
  refine (tail_after _).trans ?_
  have h84 := Pipeline.withArrays_arr (τ := τ) (Val := Elt Ideal) spec0 (launch0 (F := Ideal)).win.arr_inj c (V0 (F := Ideal) m c) (fun w => (dats (F := Ideal) m hO 0 c).arrAt w (cfgM m hO).N) 4
  have h7 := Pipeline.withArrays_of_ne (τ := τ) (Val := Elt Ideal) spec0 c (V0 (F := Ideal) m c) (fun w => (dats (F := Ideal) m hO 0 c).arrAt w (cfgM m hO).N) main_v7 (by decide)
  have h52 := Pipeline.withArrays_of_ne (τ := τ) (Val := Elt Ideal) spec0 c (V0 (F := Ideal) m c) (fun w => (dats (F := Ideal) m hO 0 c).arrAt w (cfgM m hO).N) main_v52 (by decide)
  rw [posCol_eq, ← KHost.V0_v7 (F := Ideal) m c, ← KHost.V0_v52 (F := Ideal) m c]
  exact congrArg₂ (tailOut (F := Ideal)) h84 (congrArg₂ posColOf h7 h52)

theorem run (hO : Ok (F := Ideal) m) :
    θ_run (defs (F := Ideal)) (onTc (τ := τ) (main (F := Ideal))) ⟨m, fun _ => 0, ρ⟩ (fun r => ∀ c : Dev nD,
      r.2.mem ((c.tc : Thread nD τ).loc main_v100)
          = tailOut (F := Ideal) ((dats (F := Ideal) m hO 0 c).arrAt 4 (cfgM m hO).N : FVec Ideal S17408x2048 .f32) (Tab.posCol (Tab.eflat (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c =>
    ⟨((h c).2 main_v100 (by decide : main_v100 ∈ Pipeline.restRefs sig spec0)).trans (tail_eq m hO c),
      ((h c).2 main_arg0 (by decide : main_arg0 ∈ Pipeline.restRefs sig spec0)).trans (W_main_arg0 (F := Ideal) m hO (dats (F := Ideal) m hO) c),
      ((h c).2 main_arg1 (by decide : main_arg1 ∈ Pipeline.restRefs sig spec0)).trans (W_main_arg1 (F := Ideal) m hO (dats (F := Ideal) m hO) c),
      ((h c).2 main_arg2 (by decide : main_arg2 ∈ Pipeline.restRefs sig spec0)).trans (W_main_arg2 (F := Ideal) m hO (dats (F := Ideal) m hO) c),
      ((h c).2 main_arg3 (by decide : main_arg3 ∈ Pipeline.restRefs sig spec0)).trans (W_main_arg3 (F := Ideal) m hO (dats (F := Ideal) m hO) c),
      ((h c).2 main_arg4 (by decide : main_arg4 ∈ Pipeline.restRefs sig spec0)).trans (W_main_arg4 (F := Ideal) m hO (dats (F := Ideal) m hO) c)⟩)
    (run_main (F := Ideal) m ρ hO)

end Cert.Moe.KTail

end
-- ==== Proof.Spec.lean ====
/-
  The mathematics both programs compute, stated once over the extended reals.

  A token is a row of 2048 numbers; an expert is three 2048 x 2048 matrices (gate, up, down, each stored
  [out_features, in_features]). The expert's gated unit sends the row x to the row whose d-th entry is
  the sum over f of  (g_f * logistic(g_f) * u_f) * Wd[d, f],  with g_f = sum_k x_k * Wg[f, k] and
  u_f = sum_k x_k * Wu[f, k].  Every token is sent through the one expert its token id names.
-/
import Idealize.ShloMosaic.PureOps.Ideal
import Idealize.ShloMosaic.Lib.ValueIdx

noncomputable section

namespace Cert.Moe

open Idealize.ShloMosaic Idealize.ShloMosaic.ValueIdx
open scoped BigOperators

abbrev SX : Shape := ⟨3, ![4, 4096, 2048]⟩
abbrev ST : Shape := ⟨2, ![4, 4096]⟩
abbrev SW : Shape := ⟨3, ![4, 2048, 2048]⟩
abbrev SP : Shape := ⟨2, ![17408, 2048]⟩
abbrev SF : Shape := ⟨2, ![16384, 2048]⟩

/-- One expert's gated unit on one token row, read at output column `d`. -/
def mlp (x : Fin 2048 → EReal) (wg wu wd : Fin 2048 → Fin 2048 → EReal) (d : Fin 2048) : EReal :=
  ∑ f : Fin 2048, ((∑ k : Fin 2048, x k * wg f k) * Ideal.logistic (∑ k : Fin 2048, x k * wg f k)
      * (∑ k : Fin 2048, x k * wu f k)) * wd d f

/-- The expert a routing word names: the word's value when it is one of 0, 1, 2, 3. -/
def expertOf (w : BitVec 32) : Fin 4 := ⟨w.toNat % 4, Nat.mod_lt _ (by norm_num)⟩

/-- The whole result: token (b, s) through the expert its routing word names. -/
def G (x : SX.Idx → EReal) (e : ST.Idx → BitVec 32) (wg wu wd : SW.Idx → EReal) : SX.Idx → EReal :=
  fun i => mlp (fun k => x (ix3 (i 0) (i 1) k))
    (fun f k => wg (ix3 (expertOf (e (ix2 (i 0) (i 1)))) f k))
    (fun f k => wu (ix3 (expertOf (e (ix2 (i 0) (i 1)))) f k))
    (fun f k => wd (ix3 (expertOf (e (ix2 (i 0) (i 1)))) f k)) (i 2)

/-- The padded intermediate the kernel's grid writes: padded row `p` through the expert its tile's table
    word names (tile = p / 256). -/
def outPadded (xp : SP.Idx → EReal) (gid : (⟨1, ![68]⟩ : Shape).Idx → BitVec 32) (wg wu wd : SW.Idx → EReal) :
    SP.Idx → EReal :=
  fun p => mlp (fun k => xp (ix2 (p 0) k))
    (fun f k => wg (ix3 (expertOf (gid (ix1 ⟨(p 0).val / 256, by have := (p 0).isLt; simp only [Matrix.cons_val_zero] at this; omega⟩))) f k))
    (fun f k => wu (ix3 (expertOf (gid (ix1 ⟨(p 0).val / 256, by have := (p 0).isLt; simp only [Matrix.cons_val_zero] at this; omega⟩))) f k))
    (fun f k => wd (ix3 (expertOf (gid (ix1 ⟨(p 0).val / 256, by have := (p 0).isLt; simp only [Matrix.cons_val_zero] at this; omega⟩))) f k)) (p 1)

end Cert.Moe

end
-- ==== Proof.KBody.lean ====
/-
  What one grid point's body leaves in the output block: the gated unit of the tile's 256 rows against the three weight blocks, entry by entry.
-/
import proofs.«400137_j63582695850549_3_alg».proof.Proof.Gen.KernelIdeal.Frame
import proofs.«400137_j63582695850549_3_alg».proof.Proof.Spec
import Idealize.ShloMosaic.PureOps.Ideal.Laws
import Idealize.ShloMosaic.Lib.Pipeline.Value
import Idealize.ShloMosaic.Lib.ValueLayout
import Idealize.ShloMosaic.Lib.ValueIdx
import Idealize.ShloMosaic.Lib.Tactic

noncomputable section

namespace Cert.Moe.KBody

open Idealize.ShloMosaic Idealize.ShloMosaic.ValueIdx Idealize.SL.Sem Cert.KernelIdeal Cert.KernelIdeal.Gen
open Idealize.ShloMosaic.Tactic
open scoped BigOperators

/-- The zero offsets of a whole-block access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The block the body's one store leaves is the body's arithmetic on its four loaded blocks. -/
theorem out_eq_pay {F : FTy → Type} [FloatOps F] (c : Dev nD) (i : grid0.Coords) (arg2 : Memref sig .tc .vmem S256x2048 .bf16) (harg2 : arg2.IsWhole) (arg3 : Memref sig .tc .vmem S1x2048x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S256x2048 .f32) (harg6 : arg6.IsWhole)
    (x0 : Vec F S256x2048 .bf16) (x1 : Vec F S1x2048x2048 .bf16) (x2 : Vec F S1x2048x2048 .bf16) (x3 : Vec F S1x2048x2048 .bf16) (xt0 : TbBuf0 (F := F) c tbM0_0) :
    out0_A_4 c i arg2 harg2 arg3 harg3 arg4 harg4 arg5 harg5 arg6 harg6 x0 x1 x2 x3 xt0 = k0_pay1 x0 x1 x2 x3 := by
  unfold out0_A_4
  rw [View.read_writes_eq_canon _ _ _ (cover0_A_4 c i arg2 harg2 arg3 harg3 arg4 harg4 arg5 harg5 arg6 harg6 x0 x1 x2 x3 xt0)]
  unfold kernelRun0_A
  dsimp only
  sl_unfold_words
  rw [View.canon_unit_zero hz2]
  simp only [View.readAt_eq_ld, harg2.read_unread, harg3.read_unread, harg4.read_unread, harg5.read_unread,
    View.ld_unit_zero (S := S256x2048) hz2, View.ld_unit_zero (S := S1x2048x2048) hz3]

/-! ## The contraction x · wᵀ read at an index

The dot contracts axis 1 of both operands: at output (r, f) and contraction position k the left operand is read at
(r, k) and the right operand at (f, k). -/

theorem lhs_pay_0 (j : S256x2048.Idx) (k : dot_S256x2048_S2048x2048_S256x2048_1_1_0_0_n_n.contr.Idx) :
    (dot_S256x2048_S2048x2048_S256x2048_1_1_0_0_n_n.lhsIdx j k 0 : ℕ) = j 0 := by
  simp [DotDims.lhsIdx, dot_S256x2048_S2048x2048_S256x2048_1_1_0_0_n_n]; rfl
theorem lhs_pay_1 (j : S256x2048.Idx) (k : dot_S256x2048_S2048x2048_S256x2048_1_1_0_0_n_n.contr.Idx) :
    (dot_S256x2048_S2048x2048_S256x2048_1_1_0_0_n_n.lhsIdx j k 1 : ℕ) = k ⟨0, by decide⟩ := by
  simp [DotDims.lhsIdx, dot_S256x2048_S2048x2048_S256x2048_1_1_0_0_n_n]; rfl
theorem rhs_pay_0 (j : S256x2048.Idx) (k : dot_S256x2048_S2048x2048_S256x2048_1_1_0_0_n_n.contr.Idx) :
    (dot_S256x2048_S2048x2048_S256x2048_1_1_0_0_n_n.rhsIdx j k 0 : ℕ) = j 1 := by
  simp [DotDims.rhsIdx, dot_S256x2048_S2048x2048_S256x2048_1_1_0_0_n_n]; rfl
theorem rhs_pay_1 (j : S256x2048.Idx) (k : dot_S256x2048_S2048x2048_S256x2048_1_1_0_0_n_n.contr.Idx) :
    (dot_S256x2048_S2048x2048_S256x2048_1_1_0_0_n_n.rhsIdx j k 1 : ℕ) = k ⟨0, by decide⟩ := by
  simp [DotDims.rhsIdx, dot_S256x2048_S2048x2048_S256x2048_1_1_0_0_n_n]; rfl

/-- The product into a zero accumulator at (r, f): the sum over k of a(r, k) · w(f, k). -/
theorem matmul_at (a : FVec Ideal S256x2048 .bf16) (w : FVec Ideal S2048x2048 .bf16) (r : Fin 256) (f : Fin 2048) :
    matmul dot_S256x2048_S2048x2048_S256x2048_1_1_0_0_n_n none a w (constant S256x2048 .f32 0x00000000#32) (ix2 r f)
      = ∑ k : Fin 2048, a (ix2 r k) * w (ix2 f k) := by
  refine (Ideal.matmul_constant_zero_apply dot_S256x2048_S2048x2048_S256x2048_1_1_0_0_n_n none a w (ix2 r f)).trans ?_
  rw [← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  refine congrArg₂ (· * ·) (congrArg a ?_) (congrArg w ?_)
  · funext c
    match c with
    | ⟨0, _⟩ => exact Fin.ext (lhs_pay_0 _ _)
    | ⟨1, _⟩ => exact Fin.ext ((lhs_pay_1 _ _).trans hk)
  · funext c
    match c with
    | ⟨0, _⟩ => exact Fin.ext (rhs_pay_0 _ _)
    | ⟨1, _⟩ => exact Fin.ext ((rhs_pay_1 _ _).trans hk)

/-- The same on the loaded blocks: the weight block's leading unit axis dropped, so w is read at (0, f, k). -/
theorem proj_at (x : FVec Ideal S256x2048 .bf16) (w : FVec Ideal S1x2048x2048 .bf16) (r : Fin 256) (f : Fin 2048) :
    matmul dot_S256x2048_S2048x2048_S256x2048_1_1_0_0_n_n none (shapeCast S256x2048 x shapeCasts_S256x2048_S256x2048)
        (shapeCast S2048x2048 w shapeCasts_S1x2048x2048_S2048x2048) (constant S256x2048 .f32 0x00000000#32) (ix2 r f)
      = ∑ k : Fin 2048, x (ix2 r k) * w (ix3 0 f k) := by
  refine (matmul_at _ _ r f).trans ?_
  refine Finset.sum_congr rfl fun k _ => ?_
  rw [shapeCast_self, shapeCast_1ab_ab_apply]

/-- At the extended reals that arithmetic at row r, column d is the gated unit of row r. -/
theorem pay_apply (x0 : Vec Ideal S256x2048 .bf16) (x1 x2 x3 : Vec Ideal S1x2048x2048 .bf16) (r : Fin 256) (d : Fin 2048) :
    k0_pay1 (F := Ideal) x0 x1 x2 x3 (ix2 r d)
      = Cert.Moe.mlp (fun k => x0 (ix2 r k)) (fun f k => x1 (ix3 0 f k)) (fun f k => x2 (ix3 0 f k)) (fun f k => x3 (ix3 0 f k)) d := by
  unfold k0_pay1 Cert.Moe.mlp
  refine (matmul_at _ _ r d).trans ?_
  refine Finset.sum_congr rfl fun f _ => ?_
  refine congrArg₂ (· * ·) ?_ (shapeCast_1ab_ab_apply x3 _ d f)
  exact congrArg₂ (· * ·) (congrArg₂ (· * ·) (proj_at x0 x1 r f) (congrArg Ideal.logistic (proj_at x0 x1 r f))) (proj_at x0 x2 r f)

end Cert.Moe.KBody

end
-- ==== Proof.KBlocks.lean ====
/-
  From blocks to the padded array: tile t writes rows 256 t ... 256 t + 255, computed from the same rows of the padded token array and from the weight slices its table word names; the tiles cover the array.
-/
import proofs.«400137_j63582695850549_3_alg».proof.Proof.Gen.KernelIdeal.Frame
import proofs.«400137_j63582695850549_3_alg».proof.Proof.Spec
import proofs.«400137_j63582695850549_3_alg».proof.Proof.KBody
import Idealize.ShloMosaic.Lib.Pipeline.Value

noncomputable section

namespace Cert.Moe.KBlocks

open Idealize.ShloMosaic Idealize.ShloMosaic.ValueIdx Idealize.SL.Sem Cert.KernelIdeal Cert.KernelIdeal.Gen
open scoped BigOperators

/-- The printed index maps over the grid: windows 0 and 4 move one tile per point, and the table is read at the point's own position. -/
theorem idx_facts : ∀ t : Fin grid0.N, cc0_transform_0 (grid0.coords t) (0 : Fin 2) = t.val
    ∧ cc0_transform_0 (grid0.coords t) (1 : Fin 2) = 0
    ∧ cc0_transform_4 (grid0.coords t) (0 : Fin 2) = t.val
    ∧ cc0_transform_4 (grid0.coords t) (1 : Fin 2) = 0
    ∧ k0_off1 (grid0.coords t) (0 : Fin 1) = t.val := by decide +kernel

/-- The weight windows' leading block index at point t is the table's word t, for any contents of the table. -/
theorem tab_index (pf : pre0.Contents (Elt Ideal)) (t : Fin grid0.N) (ht : t.val < 68) :
    cc0_transform_1 k0_off1_inb numel1_S1 pf (grid0.coords t) (0 : Fin 3) = ((pf 0 : S68.Idx → BitVec 32) (ix1 ⟨t.val, ht⟩)).toNat := by
  show ((pf 0 : S68.Idx → BitVec 32) _).toNat = _
  refine congrArg (fun i => ((pf 0 : S68.Idx → BitVec 32) i).toNat) ?_
  funext b
  apply Fin.ext
  match b with
  | ⟨0, _⟩ =>
    show k0_off1 (grid0.coords t) (0 : Fin 1) + 1 * 0 = t.val
    rw [(idx_facts t).2.2.2.2]; omega

/-- Window 0's block at point t is rows 256 t ... of its array. -/
theorem read0 (a : (pcfg0 (F := Ideal)).Adm) (t : Fin (cfg0 a).N) (A : Vec Ideal S17408x2048 .bf16) (y : S256x2048.Idx) (p : S17408x2048.Idx)
    (h0 : (p 0).val = 256 * t.val + (y 0).val) (h1 : (p 1).val = (y 1).val) :
    ((((cfg0 a).win 0).blk t).view.read (Elt Ideal) A : Vec Ideal S256x2048 .bf16) y = A p := by
  show A ((((cfg0 a).win 0).blk t).view.emb y) = A p
  refine congrArg A ?_
  funext b
  apply Fin.ext
  match b with
  | ⟨0, _⟩ =>
    show cc0_transform_0 (grid0.coords t) (0 : Fin 2) * 256 + 1 * (y 0).val = (p 0).val
    rw [(idx_facts t).1, h0]; omega
  | ⟨1, _⟩ =>
    show cc0_transform_0 (grid0.coords t) (1 : Fin 2) * 2048 + 1 * (y 1).val = (p 1).val
    rw [(idx_facts t).2.1, h1]; omega

/-- Window 1's block at point t is the slice of its array the table's word names. -/
theorem read1 (a : (pcfg0 (F := Ideal)).Adm) (t : Fin (cfg0 a).N) (A : Vec Ideal S4x2048x2048 .bf16) (y : S1x2048x2048.Idx) (p : S4x2048x2048.Idx)
    (h0 : (p 0).val = cc0_transform_1 k0_off1_inb numel1_S1 a.1 (grid0.coords t) (0 : Fin 3)) (h1 : (p 1).val = (y 1).val) (h2 : (p 2).val = (y 2).val) :
    ((((cfg0 a).win 1).blk t).view.read (Elt Ideal) A : Vec Ideal S1x2048x2048 .bf16) y = A p := by
  show A ((((cfg0 a).win 1).blk t).view.emb y) = A p
  refine congrArg A ?_
  funext b
  apply Fin.ext
  have hy : (y 0).val = 0 := by have := (y 0).isLt; simp only [Matrix.cons_val_zero] at this; omega
  match b with
  | ⟨0, _⟩ =>
    show cc0_transform_1 k0_off1_inb numel1_S1 a.1 (grid0.coords t) (0 : Fin 3) * 1 + 1 * (y 0).val = (p 0).val
    rw [h0, hy]; omega
  | ⟨1, _⟩ =>
    show cc0_transform_1 k0_off1_inb numel1_S1 a.1 (grid0.coords t) (1 : Fin 3) * 2048 + 1 * (y 1).val = (p 1).val
    rw [h1]; show 0 * 2048 + 1 * (y 1).val = (y 1).val; omega
  | ⟨2, _⟩ =>
    show cc0_transform_1 k0_off1_inb numel1_S1 a.1 (grid0.coords t) (2 : Fin 3) * 2048 + 1 * (y 2).val = (p 2).val
    rw [h2]; show 0 * 2048 + 1 * (y 2).val = (y 2).val; omega

/-- Window 2's block likewise. -/
theorem read2 (a : (pcfg0 (F := Ideal)).Adm) (t : Fin (cfg0 a).N) (A : Vec Ideal S4x2048x2048 .bf16) (y : S1x2048x2048.Idx) (p : S4x2048x2048.Idx)
    (h0 : (p 0).val = cc0_transform_1 k0_off1_inb numel1_S1 a.1 (grid0.coords t) (0 : Fin 3)) (h1 : (p 1).val = (y 1).val) (h2 : (p 2).val = (y 2).val) :
    ((((cfg0 a).win 2).blk t).view.read (Elt Ideal) A : Vec Ideal S1x2048x2048 .bf16) y = A p := by
  show A ((((cfg0 a).win 2).blk t).view.emb y) = A p
  refine congrArg A ?_
  funext b
  apply Fin.ext
  have hy : (y 0).val = 0 := by have := (y 0).isLt; simp only [Matrix.cons_val_zero] at this; omega
  match b with
  | ⟨0, _⟩ =>
    show cc0_transform_2 k0_off1_inb numel1_S1 a.1 (grid0.coords t) (0 : Fin 3) * 1 + 1 * (y 0).val = (p 0).val
    rw [h0, hy]; show cc0_transform_1 k0_off1_inb numel1_S1 a.1 (grid0.coords t) (0 : Fin 3) * 1 + 1 * 0 = _; omega
  | ⟨1, _⟩ =>
    show cc0_transform_2 k0_off1_inb numel1_S1 a.1 (grid0.coords t) (1 : Fin 3) * 2048 + 1 * (y 1).val = (p 1).val
    rw [h1]; show 0 * 2048 + 1 * (y 1).val = (y 1).val; omega
  | ⟨2, _⟩ =>
    show cc0_transform_2 k0_off1_inb numel1_S1 a.1 (grid0.coords t) (2 : Fin 3) * 2048 + 1 * (y 2).val = (p 2).val
    rw [h2]; show 0 * 2048 + 1 * (y 2).val = (y 2).val; omega

/-- Window 3's block likewise. -/
theorem read3 (a : (pcfg0 (F := Ideal)).Adm) (t : Fin (cfg0 a).N) (A : Vec Ideal S4x2048x2048 .bf16) (y : S1x2048x2048.Idx) (p : S4x2048x2048.Idx)
    (h0 : (p 0).val = cc0_transform_1 k0_off1_inb numel1_S1 a.1 (grid0.coords t) (0 : Fin 3)) (h1 : (p 1).val = (y 1).val) (h2 : (p 2).val = (y 2).val) :
    ((((cfg0 a).win 3).blk t).view.read (Elt Ideal) A : Vec Ideal S1x2048x2048 .bf16) y = A p := by
  show A ((((cfg0 a).win 3).blk t).view.emb y) = A p
  refine congrArg A ?_
  funext b
  apply Fin.ext
  have hy : (y 0).val = 0 := by have := (y 0).isLt; simp only [Matrix.cons_val_zero] at this; omega
  match b with
  | ⟨0, _⟩ =>
    show cc0_transform_3 k0_off1_inb numel1_S1 a.1 (grid0.coords t) (0 : Fin 3) * 1 + 1 * (y 0).val = (p 0).val
    rw [h0, hy]; show cc0_transform_1 k0_off1_inb numel1_S1 a.1 (grid0.coords t) (0 : Fin 3) * 1 + 1 * 0 = _; omega
  | ⟨1, _⟩ =>
    show cc0_transform_3 k0_off1_inb numel1_S1 a.1 (grid0.coords t) (1 : Fin 3) * 2048 + 1 * (y 1).val = (p 1).val
    rw [h1]; show 0 * 2048 + 1 * (y 1).val = (y 1).val; omega
  | ⟨2, _⟩ =>
    show cc0_transform_3 k0_off1_inb numel1_S1 a.1 (grid0.coords t) (2 : Fin 3) * 2048 + 1 * (y 2).val = (p 2).val
    rw [h2]; show 0 * 2048 + 1 * (y 2).val = (y 2).val; omega

/-- Window 4's block at point t sits at rows 256 t ... of its array. -/
theorem emb4 (a : (pcfg0 (F := Ideal)).Adm) (t : Fin (cfg0 a).N) (y : S256x2048.Idx) :
    (((((cfg0 a).win 4).blk t).view.emb y : S17408x2048.Idx) (0 : Fin 2)).val = 256 * t.val + (y 0).val
    ∧ (((((cfg0 a).win 4).blk t).view.emb y : S17408x2048.Idx) (1 : Fin 2)).val = (y 1).val := by
  constructor
  · show cc0_transform_4 (grid0.coords t) (0 : Fin 2) * 256 + 1 * (y 0).val = _
    rw [(idx_facts t).2.2.1]; omega
  · show cc0_transform_4 (grid0.coords t) (1 : Fin 2) * 2048 + 1 * (y 1).val = _
    rw [(idx_facts t).2.2.2.1]; omega

/-- Every point of the grid is one of the 68 tiles. -/
theorem point_lt (a : (pcfg0 (F := Ideal)).Adm) (t : Fin (cfg0 a).N) : t.val < 68 := by
  exact lt_of_lt_of_eq (b := grid0.N) t.isLt N_0

/-- Under the pipeline's side condition the table's word t names one of the four experts. -/
theorem word_lt (pf : pre0.Contents (Elt Ideal)) (h : ok0 pf) (t : Fin grid0.N) (ht : t.val < 68) :
    ((pf 0 : S68.Idx → BitVec 32) (ix1 ⟨t.val, ht⟩)).toNat < 4 := by
  unfold ok0 at h
  obtain ⟨h0, -⟩ := h.1 (grid0.coords t)
  have h00 := h0 (0 : Fin 3)
  rw [tab_index pf t ht] at h00
  have e1 : S1x2048x2048.size (0 : Fin 3) = 1 := rfl
  have e4 : S4x2048x2048.size (0 : Fin 3) = 4 := rfl
  rw [e1, e4] at h00
  omega

/-- The padded array at row p, with the tile p / 256 named. -/
theorem outPadded_apply (xp : SP.Idx → EReal) (gid : (⟨1, ![68]⟩ : Shape).Idx → BitVec 32) (wg wu wd : SW.Idx → EReal)
    (p : SP.Idx) (q : Fin 68) (hq : q.val = (p 0).val / 256) :
    outPadded xp gid wg wu wd p = mlp (fun k => xp (ix2 (p 0) k))
      (fun f k => wg (ix3 (expertOf (gid (ix1 q))) f k))
      (fun f k => wu (ix3 (expertOf (gid (ix1 q))) f k))
      (fun f k => wd (ix3 (expertOf (gid (ix1 q))) f k)) (p 1) := by
  obtain ⟨qv, hqv⟩ := q
  have hq' : qv = (p 0).val / 256 := hq
  subst hq'
  rfl

/-- Entry (r, d) of tile t's gated unit, its four blocks read off the arrays, is the padded array at (256 t + r, d). -/
theorem pay_eq_outPadded (xp : SP.Idx → EReal) (gid : (⟨1, ![68]⟩ : Shape).Idx → BitVec 32) (wg wu wd : SW.Idx → EReal)
    (x0 : Vec Ideal S256x2048 .bf16) (x1 x2 x3 : Vec Ideal S1x2048x2048 .bf16) (t : Fin 68)
    (hlt : (gid (ix1 t)).toNat < 4)
    (h0 : ∀ (r : Fin 256) (k : Fin 2048) (p : SP.Idx), (p 0).val = 256 * t.val + r.val → (p 1).val = k.val → x0 (ix2 r k) = xp p)
    (h1 : ∀ (f k : Fin 2048) (p : SW.Idx), (p 0).val = (gid (ix1 t)).toNat → (p 1).val = f.val → (p 2).val = k.val → x1 (ix3 0 f k) = wg p)
    (h2 : ∀ (f k : Fin 2048) (p : SW.Idx), (p 0).val = (gid (ix1 t)).toNat → (p 1).val = f.val → (p 2).val = k.val → x2 (ix3 0 f k) = wu p)
    (h3 : ∀ (f k : Fin 2048) (p : SW.Idx), (p 0).val = (gid (ix1 t)).toNat → (p 1).val = f.val → (p 2).val = k.val → x3 (ix3 0 f k) = wd p)
    (r : Fin 256) (d : Fin 2048) (p : SP.Idx) (hp0 : (p 0).val = 256 * t.val + r.val) (hp1 : (p 1).val = d.val) :
    k0_pay1 (F := Ideal) x0 x1 x2 x3 (ix2 r d) = outPadded xp gid wg wu wd p := by
  rw [KBody.pay_apply, outPadded_apply xp gid wg wu wd p t (by have := r.isLt; omega)]
  have he : (expertOf (gid (ix1 t))).val = (gid (ix1 t)).toNat := by
    show (gid (ix1 t)).toNat % 4 = _
    omega
  have e0 : (fun k => x0 (ix2 r k)) = (fun k => xp (ix2 (p 0) k)) := funext fun k => h0 r k _ hp0 rfl
  have e1 : (fun f k => x1 (ix3 0 f k)) = (fun f k => wg (ix3 (expertOf (gid (ix1 t))) f k)) :=
    funext fun f => funext fun k => h1 f k _ he rfl rfl
  have e2 : (fun f k => x2 (ix3 0 f k)) = (fun f k => wu (ix3 (expertOf (gid (ix1 t))) f k)) :=
    funext fun f => funext fun k => h2 f k _ he rfl rfl
  have e3 : (fun f k => x3 (ix3 0 f k)) = (fun f k => wd (ix3 (expertOf (gid (ix1 t))) f k)) :=
    funext fun f => funext fun k => h3 f k _ he rfl rfl
  have ed : d = p 1 := Fin.ext hp1.symm
  rw [e0, e1, e2, e3, ed]

/-- What tile t writes back, against any whole-array function it agrees with on rows 256 t ... 256 t + 255. -/
theorem cut_eq_read (a : (pcfg0 (F := Ideal)).Adm) (t : Fin (cfg0 a).N) (X : Vec Ideal S256x2048 .f32) (G : Vec Ideal S17408x2048 .f32)
    (h : ∀ (r : Fin 256) (d : Fin 2048) (p : S17408x2048.Idx), (p 0).val = 256 * t.val + r.val → (p 1).val = d.val → X (ix2 r d) = G p) :
    ((cfg0 a).win 4).cut ((cfg0 a).grid.coords t) X = (((cfg0 a).win 4).blk t).view.read (Elt Ideal) G := by
  refine funext fun (j : S256x2048.Idx) => ?_
  have hj : (((cfg0 a).win 4).xinj ((cfg0 a).grid.coords t) j : S256x2048.Idx) = ix2 (j 0) (j 1) := by
    funext b; match b with | ⟨0, _⟩ => rfl | ⟨1, _⟩ => rfl
  show X (((cfg0 a).win 4).xinj ((cfg0 a).grid.coords t) j) = G ((((cfg0 a).win 4).blk t).view.emb j)
  rw [hj]
  exact h (j 0) (j 1) _ (emb4 a t j).1 (emb4 a t j).2

variable (m : (ℓ : Loc nD τ sig) → Buf (Elt Ideal) ℓ)

/-- What tile t writes back is tile t of the padded array. -/
theorem flushed_eq (hO : Ok (F := Ideal) m) (c : Dev nD) (t : Fin (cfgM m hO).N) :
    (dats (F := Ideal) m hO 0 c).flushed 4 t = (((cfgM m hO).win 4).blk t).view.read (Elt Ideal)
      (Cert.Moe.outPadded (V m c main_v69) (tbl m 0) (V m c main_v81) (V m c main_v82) (V m c main_v83)) := by
  show ((cfgM m hO).win 4).cut ((cfgM m hO).grid.coords t) ((dats (F := Ideal) m hO 0 c).after 4 t) = _
  rw [after0_4]
  unfold outsAt0
  refine (congrArg (((cfgM m hO).win 4).cut ((cfgM m hO).grid.coords t))
    (KBody.out_eq_pay (F := Ideal) c (grid0.coords t) (ms0_0 m hO t) (hs0_0 m hO t) (ms0_1 m hO t) (hs0_1 m hO t)
      (ms0_2 m hO t) (hs0_2 m hO t) (ms0_3 m hO t) (hs0_3 m hO t) (ms0_4 m hO t) (hs0_4 m hO t)
      (iblk m hO c 0 t) (iblk m hO c 1 t) (iblk m hO c 2 t) (iblk m hO c 3 t) (tbl m 0))).trans ?_
  have ht : t.val < 68 := point_lt (adm m hO) t
  have hw : ((tbl m 0 : S68.Idx → BitVec 32) (ix1 ⟨t.val, ht⟩)).toNat < 4 := word_lt (tbl m) hO t ht
  have hix := tab_index (tbl m) t ht
  refine cut_eq_read (adm m hO) t
    (k0_pay1 (F := Ideal) (iblk m hO c 0 t) (iblk m hO c 1 t) (iblk m hO c 2 t) (iblk m hO c 3 t))
    (Cert.Moe.outPadded (V m c main_v69) (tbl m 0) (V m c main_v81) (V m c main_v82) (V m c main_v83))
    (fun r d p hp0 hp1 => pay_eq_outPadded (V m c main_v69) (tbl m 0) (V m c main_v81) (V m c main_v82) (V m c main_v83)
      (iblk m hO c 0 t) (iblk m hO c 1 t) (iblk m hO c 2 t) (iblk m hO c 3 t) ⟨t.val, ht⟩ hw
      (fun r k p h0 h1 => read0 (adm m hO) t (V m c main_v69) (ix2 r k) p h0 h1)
      (fun f k p h0 h1 h2 => read1 (adm m hO) t (V m c main_v81) (ix3 0 f k) p (h0.trans hix.symm) h1 h2)
      (fun f k p h0 h1 h2 => read2 (adm m hO) t (V m c main_v82) (ix3 0 f k) p (h0.trans hix.symm) h1 h2)
      (fun f k p h0 h1 h2 => read3 (adm m hO) t (V m c main_v83) (ix3 0 f k) p (h0.trans hix.symm) h1 h2)
      r d p hp0 hp1)

/-- An index inside a unit-stride rectangle of the output array is under the view of that rectangle. -/
theorem mem_tile (off size : Fin 2 → Nat) (inb : ∀ a, off a + size a ≤ S17408x2048.size a) (i : S17408x2048.Idx)
    (h : ∀ a, off a ≤ (i a).val ∧ (i a).val < off a + size a) :
    i ∈ ((View.whole main_v84).slice (Rect.unit (s := S17408x2048) off size inb)).set := by
  rw [View.set_slice_whole, Rect.mem_set_unit]
  exact h

/-- Row p of the padded array lies in tile p / 256's block, and every tile is written back. -/
theorem cover (a : (pcfg0 (F := Ideal)).Adm) (i : S17408x2048.Idx) :
    ∃ t : Fin (cfg0 a).N, ((cfg0 a).win 4).flush t = true ∧ i ∈ (((cfg0 a).win 4).blk t).view.set := by
  have h0 : (i 0).val < 17408 := (i 0).isLt
  have h1 : (i 1).val < 2048 := (i 1).isLt
  have hN : (cfg0 a).N = 68 := N_0
  have hq : (i 0).val / 256 < (cfg0 a).N := by rw [hN]; omega
  refine ⟨⟨(i 0).val / 256, hq⟩, flush0_4 a _, ?_⟩
  refine mem_tile _ _ _ i fun b => ?_
  match b with
  | ⟨0, _⟩ =>
    show cc0_transform_4 (grid0.coords ⟨(i 0).val / 256, hq⟩) (0 : Fin 2) * 256 ≤ (i 0).val
      ∧ (i 0).val < cc0_transform_4 (grid0.coords ⟨(i 0).val / 256, hq⟩) (0 : Fin 2) * 256 + 256
    rw [(idx_facts ⟨(i 0).val / 256, hq⟩).2.2.1]
    show (i 0).val / 256 * 256 ≤ (i 0).val ∧ (i 0).val < (i 0).val / 256 * 256 + 256
    omega
  | ⟨1, _⟩ =>
    show cc0_transform_4 (grid0.coords ⟨(i 0).val / 256, hq⟩) (1 : Fin 2) * 2048 ≤ (i 1).val
      ∧ (i 1).val < cc0_transform_4 (grid0.coords ⟨(i 0).val / 256, hq⟩) (1 : Fin 2) * 2048 + 2048
    rw [(idx_facts ⟨(i 0).val / 256, hq⟩).2.2.2.1]
    omega

/-- The padded output array after the grid has run. -/
theorem final (hO : Ok (F := Ideal) m) (c : Dev nD) :
    (dats (F := Ideal) m hO 0 c).arrAt 4 (cfgM m hO).N
      = Cert.Moe.outPadded (V m c main_v69) (tbl m 0) (V m c main_v81) (V m c main_v82) (V m c main_v83) :=
  (dats (F := Ideal) m hO 0 c).arrAt_eq_of_cover 4
    (Cert.Moe.outPadded (V m c main_v69) (tbl m 0) (V m c main_v81) (V m c main_v82) (V m c main_v83))
    (fun t _ => flushed_eq m hO c t) (cover (adm m hO))

end Cert.Moe.KBlocks

end
-- ==== Proof.RouteDefs.lean ====
/-
  The routing arithmetic over the natural numbers: each token's expert, how many tokens each expert
  has, the running sums of these counts (plain, and rounded up to whole tiles of 256 rows), the sorting
  order, and the padded row the k-th sorted token is sent to.
-/
import proofs.«400137_j63582695850549_3_alg».proof.Proof.Spec
import proofs.«400137_j63582695850549_3_alg».proof.Proof.Tables

noncomputable section

namespace Cert.Moe.Route

open Idealize.ShloMosaic Idealize.ShloMosaic.ValueIdx Cert.KernelIdeal
open scoped BigOperators

variable [Cert.KernelIdeal.Facts₀]

/-- Token `i`'s expert. -/
def ex (e : IVec S16384 32) (i : Fin 16384) : Fin 4 := Cert.Moe.expertOf (e (ix1 i))

/-- Every expert word is one of 0, 1, 2, 3. -/
def InRange (e : IVec S16384 32) : Prop := ∀ i : Fin 16384, (e (ix1 i)).toNat < 4

/-- How many tokens expert `j` has. -/
def cnt (e : IVec S16384 32) (j : Fin 4) : ℕ := (Finset.univ.filter (fun i : Fin 16384 => ex e i = j)).card

/-- How many tokens the experts before `j` have. -/
def off (e : IVec S16384 32) (j : Fin 4) : ℕ := ∑ j' ∈ Finset.univ.filter (fun j' : Fin 4 => j' < j), cnt e j'

/-- Expert `j`'s count rounded up to a multiple of 256. -/
def pc (e : IVec S16384 32) (j : Fin 4) : ℕ := (cnt e j + 255) / 256 * 256

/-- The rounded counts of the experts before `j`, summed: where expert `j`'s padded rows start. -/
def poff (e : IVec S16384 32) (j : Fin 4) : ℕ := ∑ j' ∈ Finset.univ.filter (fun j' : Fin 4 => j' < j), pc e j'

/-- Where expert `j`'s padded rows end. -/
def pcum (e : IVec S16384 32) (j : Fin 4) : ℕ := poff e j + pc e j

/-- The padded row of the k-th token in the order `σ`. -/
def destOf (e : IVec S16384 32) (σ : Fin 16384 → Fin 16384) (k : Fin 16384) : ℕ :=
  poff e (ex e (σ k)) + (k.val - off e (ex e (σ k)))

/-- The sorting order: the token that sorts k-th. -/
def sigma (e : IVec S16384 32) (k : Fin 16384) : Fin 16384 :=
  ⟨(Tab.sortIdx e (ix1 k)).toNat % 16384, Nat.mod_lt _ (by norm_num)⟩

/-- The padded row of the k-th sorted token. -/
def dest (e : IVec S16384 32) (k : Fin 16384) : ℕ := destOf e (sigma e) k

end Cert.Moe.Route

end
-- ==== Proof.LibSortIota.lean ====
import Idealize.ShloMosaic.Lib.SortFacts
import Idealize.ShloMosaic.Lib.ValueIdx

/-!
# An argsort's result holds positions

A two-operand stable sort along the one axis of a vector of `n` elements, whose second operand is the
iota `0, 1, …, n − 1` (jnp's `argsort`), returns as its second result the iota read through ONE self-map of
the positions. So every word of that result is the number of a position: as a natural it is below `n`,
whatever the keys and the comparator are. The consequences used downstream: the word is not negative when
read signed, it survives a clamp into `[0, n − 1]`, and "add `n` if negative" leaves it alone.
-/

namespace Cert.LibSortIota

open Idealize.ShloMosaic

/-- Every word of an argsort's result, as a natural, is below the number of elements: the word is the iota
    at the position the sort reads, and the iota at position `k` is `k`. -/
theorem sort2_iota_snd_toNat_lt {n : Nat} {α : Type} (cmp : α × BitVec 32 → α × BitVec 32 → BitVec 1)
    (x : (⟨1, ![n]⟩ : Shape).Idx → α) (j : (⟨1, ![n]⟩ : Shape).Idx) :
    ((Host.sort2 ⟨1, ![n]⟩ 0 cmp x (iotaInDim ⟨1, ![n]⟩ 32 0)).2 j).toNat < n := by
  unfold Host.sort2
  rw [dif_pos (show 0 < (⟨1, ![n]⟩ : Shape).rank from Nat.one_pos)]
  show (iotaInDim ⟨1, ![n]⟩ 32 0 (Shape.Idx.along j _ _)).toNat < n
  unfold iotaInDim Shape.Idx.along
  rw [BitVec.toNat_ofNat]
  exact lt_of_le_of_lt (Nat.mod_le _ _) (Fin.isLt _)

end Cert.LibSortIota
-- ==== Proof.LibGatherStacked.lean ====
import Idealize.ShloMosaic.Lib.ValueIdx
import Idealize.ShloMosaic.PureOps.Contract

/-!
# Gathers by an index column or by a stack of index columns, read at an index

A table's leading axis has N entries. An index word is read as a SIGNED integer and CLAMPED into [0, N − 1] (a
negative word reads entry 0, a word past the end the last entry).

* `gather_vec`: a vector of N elements gathered by a column of n words: element e is the table at word e.
* `gather_rows_stacked`: an N × D table gathered by a stack of a columns of n words each (an a × n × 1 array):
  result element (j, e, k) is the table's row named by word (j, e), column k.
* `gather_vec_stacked`: the same for a vector of N elements: result element (j, e) is the table at word (j, e).

Every statement is for arbitrary extents and any record of dimension numbers whose lists are the ones named by the
hypotheses, so each applies to a concrete record with rfl for every list.
-/

namespace Cert.LibGatherStacked

open Idealize.ShloMosaic Idealize.ShloMosaic.ValueIdx

theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e) = x (ix1 ⟨min (idx (ix2 e 0)).toInt.toNat (N - 1), by omega⟩) := by
  -- the one table axis is collapsed, so its slice size is 1 and the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext ax
  apply Fin.ext
  match ax with
  | ⟨0, _⟩ =>
    -- the start index of result element e is read at (e, 0) of the index column
    have hsi : ∀ c, (GatherDims.siIdx ⟨[], [0], [], sb, [0], 1, ss, wf⟩ (ix1 e) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl

theorem gather_rows_stacked {α : Type} {N D a n w : Nat} (d : GatherDims ⟨2, ![N, D]⟩ ⟨3, ![a, n, 1]⟩ ⟨3, ![a, n, D]⟩)
    (hoff : d.offsetDims = [2]) (hcoll : d.collapsedSliceDims = [0]) (hob : d.operandBatchingDims = [])
    (hsim : d.startIndexMap = [0]) (hivd : d.indexVectorDim = 2)
    (x : (⟨2, ![N, D]⟩ : Shape).Idx → α) (idx : IVec ⟨3, ![a, n, 1]⟩ w) (j : Fin a) (e : Fin n) (k : Fin D) (hN : 0 < N) :
    Host.gather d x idx (ix3 j e k) = x (ix2 ⟨min (idx (ix3 j e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext ax
  apply Fin.ext
  match ax with
  | ⟨0, _⟩ =>
    -- the start index of result element (j, e, k) is read at (j, e, 0) of the index stack: the two batch
    -- coordinates are the result's first two, the index vector's axis carries the one component 0
    have hsi : ∀ c, (GatherDims.siIdx ⟨[2], [0], [], sb, [0], 2, ss, wf⟩ (ix3 j e k) c : (⟨3, ![a, n, 1]⟩ : Shape).Idx)
        = ix3 j e 0 := by
      intro c
      funext b
      apply Fin.ext
      match b with
      | ⟨0, _⟩ => rfl
      | ⟨1, _⟩ => rfl
      | ⟨2, _⟩ =>
        have := c.isLt
        simp only [List.length_singleton] at this
        show c.val = 0
        omega
    show min (idx (GatherDims.siIdx _ _ _)).toInt.toNat (N - ss 0) + 0 + 0 = min (idx (ix3 j e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

theorem gather_vec_stacked {α : Type} {N a n w : Nat} (d : GatherDims ⟨1, ![N]⟩ ⟨3, ![a, n, 1]⟩ ⟨2, ![a, n]⟩)
    (hoff : d.offsetDims = []) (hcoll : d.collapsedSliceDims = [0]) (hob : d.operandBatchingDims = [])
    (hsim : d.startIndexMap = [0]) (hivd : d.indexVectorDim = 2)
    (x : (⟨1, ![N]⟩ : Shape).Idx → α) (idx : IVec ⟨3, ![a, n, 1]⟩ w) (j : Fin a) (e : Fin n) (hN : 0 < N) :
    Host.gather d x idx (ix2 j e) = x (ix1 ⟨min (idx (ix3 j e 0)).toInt.toNat (N - 1), by omega⟩) := by
  -- the one table axis is collapsed, so its slice size is 1 and the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext ax
  apply Fin.ext
  match ax with
  | ⟨0, _⟩ =>
    -- the start index of result element (j, e) is read at (j, e, 0) of the index stack
    have hsi : ∀ c, (GatherDims.siIdx ⟨[], [0], [], sb, [0], 2, ss, wf⟩ (ix2 j e) c : (⟨3, ![a, n, 1]⟩ : Shape).Idx)
        = ix3 j e 0 := by
      intro c
      funext b
      apply Fin.ext
      match b with
      | ⟨0, _⟩ => rfl
      | ⟨1, _⟩ => rfl
      | ⟨2, _⟩ =>
        have := c.isLt
        simp only [List.length_singleton] at this
        show c.val = 0
        omega
    show min (idx (GatherDims.siIdx _ _ _)).toInt.toNat (N - ss 0) + 0 + 0 = min (idx (ix3 j e 0)).toInt.toNat (N - 1)
    rw [hsi, hsl]
    rfl

end Cert.LibGatherStacked
-- ==== Proof.LibIndexWords.lean ====
import Idealize.ShloMosaic.PureOps.Vector
import Idealize.ShloMosaic.Lib.StableHlo.Predicate

/-!
# Index words: 32-bit words whose signed value is a small natural number

An index into a table of `N` rows travels as a 32-bit two's-complement word `x`. When its signed value
`x.toInt` is already a row number `k < N`, the arithmetic a program wraps around it does nothing:

* clipping into a range that holds it, `minimum(hi, maximum(lo, x))`, gives `x` back (`clip_of_mem`);
* the wrap of a negative index, `select(x < 0, x + n, x)`, takes the second branch (`wrap_of_nonneg`);
* the clamp of a start index into the table, `min x.toInt.toNat (N - 1)`, is `k` (`clamp_of_eq`,
  `clamp_fin_of_eq`).

Each is stated at one element, for the operations on words (`IntOp.maxsi`, `IntOp.minsi`, `IntOp.cmpi`,
`IntOp.addi`, `Scalar.select`) that the elementwise operations on arrays apply at every index; the
array forms follow by function extensionality (`clip_vec_of_mem`, `wrap_vec_of_nonneg`). The last
section moves between a word and its value: the word of a small natural number has that value, and a
word is determined by its signed value.
-/

namespace Cert.LibIndexWords

open Idealize.ShloMosaic

/-! ## The signed order, read on the signed values -/

/-- `a` is not strictly below `b` in the signed order exactly when `b.toInt ≤ a.toInt`. -/
theorem slt_eq_false_of_le {a b : BitVec 32} (h : b.toInt ≤ a.toInt) : a.slt b = false := by
  simp only [BitVec.slt, decide_eq_false_iff_not, not_lt]
  exact h

/-! ## Clipping -/

/-- Clipping into a range leaves a word of that range alone. With `lo ≤ x ≤ hi` as signed values,
    `maximum(lo, x)` keeps `x` (it would take `lo` only if `x` were strictly below it) and then
    `minimum(hi, x)` keeps `x` (it would take `hi` only if `hi` were strictly below `x`). -/
theorem clip_of_mem (x lo hi : BitVec 32) (hlo : lo.toInt ≤ x.toInt) (hhi : x.toInt ≤ hi.toInt) :
    IntOp.minsi hi (IntOp.maxsi lo x) = x := by
  have hmax : IntOp.maxsi lo x = x := by
    unfold IntOp.maxsi
    rw [slt_eq_false_of_le hlo]
    rfl
  rw [hmax]
  unfold IntOp.minsi
  rw [slt_eq_false_of_le hhi]
  rfl

/-- The same with the range given by a row count: a word whose value is a row number `k < N` is left
    alone by the clip to `[0, N - 1]`, whatever word `hi` carries the value `N - 1`. -/
theorem clip_of_fin {N : Nat} (x hi : BitVec 32) (k : Fin N) (hx : x.toInt = (k.val : ℤ))
    (hhi : hi.toInt = ((N - 1 : ℕ) : ℤ)) : IntOp.minsi hi (IntOp.maxsi 0#32 x) = x := by
  have h0 : (0#32 : BitVec 32).toInt = 0 := by decide
  have hk := k.isLt
  exact clip_of_mem x 0#32 hi (by rw [h0, hx]; omega) (by rw [hx, hhi]; omega)

/-- Clipping a whole array of words, each within the bounds at its own position, gives the array back. -/
theorem clip_vec_of_mem {s : Shape} (x lo hi : IVec s 32)
    (h : ∀ i, (lo i).toInt ≤ (x i).toInt ∧ (x i).toInt ≤ (hi i).toInt) : minsi hi (maxsi lo x) = x :=
  funext fun i => clip_of_mem (x i) (lo i) (hi i) (h i).1 (h i).2

/-! ## Wrapping a negative index -/

/-- The wrap `select(x < 0, x + n, x)` of a word that is not negative is the word: the signed comparison
    with zero answers the bit `0`, and the selection on bit `0` takes its second branch. -/
theorem wrap_of_nonneg (x n : BitVec 32) (hx : 0 ≤ x.toInt) :
    Scalar.select (IntOp.cmpi .slt x 0#32) (IntOp.addi x n) x = x := by
  have h0 : (0#32 : BitVec 32).toInt = 0 := by decide
  have hlt : x.slt 0#32 = false := slt_eq_false_of_le (by rw [h0]; exact hx)
  unfold IntOp.cmpi Scalar.select
  rw [hlt]
  rfl

/-- Wrapping a whole array of words, none of them negative, gives the array back; `zero` is any array
    that holds the word `0` everywhere (a broadcast constant) and `n` any array of offsets. -/
theorem wrap_vec_of_nonneg {s : Shape} (x zero n : IVec s 32) (hz : ∀ i, zero i = 0#32)
    (hx : ∀ i, 0 ≤ (x i).toInt) : select (cmpi .slt x zero) (addi x n) x = x :=
  funext fun i => by
    show Scalar.select (IntOp.cmpi .slt (x i) (zero i)) (IntOp.addi (x i) (n i)) (x i) = x i
    rw [hz i]
    exact wrap_of_nonneg (x i) (n i) (hx i)

/-! ## Clamping a start index into a table -/

/-- A start index whose signed value is a row number `k` of a table of `N` rows is clamped to `k`: read
    as a natural number it is `k`, and `k ≤ N - 1`. -/
theorem clamp_of_eq (x : BitVec 32) (N : Nat) (k : Fin N) (hx : x.toInt = (k.val : ℤ)) :
    min x.toInt.toNat (N - 1) = k.val := by
  have hk := k.isLt
  rw [hx, Int.toNat_natCast]
  exact Nat.min_eq_left (by omega)

/-- The clamped start index, as a row of the table, is `k` (whatever the proof that it is a row). -/
theorem clamp_fin_of_eq (x : BitVec 32) (N : Nat) (k : Fin N) (hx : x.toInt = (k.val : ℤ))
    (h : min x.toInt.toNat (N - 1) < N) : (⟨min x.toInt.toNat (N - 1), h⟩ : Fin N) = k :=
  Fin.ext (clamp_of_eq x N k hx)

/-! ## Between a word and its value -/

/-- The word of a natural number below `2 ^ 31` has that number as its signed value
    (`StableHlo.Predicate.toInt_ofNat_small`). -/
theorem toInt_ofNat_of_lt (n : ℕ) (hn : n < 2 ^ 31) : (BitVec.ofNat 32 n).toInt = (n : ℤ) :=
  StableHlo.Predicate.toInt_ofNat_small n hn

/-- The word of a row number of a table of at most `2 ^ 31` rows has that row number as its signed value. -/
theorem toInt_ofNat_fin {N : Nat} (hN : N ≤ 2 ^ 31) (k : Fin N) : (BitVec.ofNat 32 k.val).toInt = (k.val : ℤ) :=
  toInt_ofNat_of_lt k.val (lt_of_lt_of_le k.isLt hN)

/-- At ten thousand rows. -/
theorem toInt_ofNat_fin10000 (k : Fin 10000) : (BitVec.ofNat 32 k.val).toInt = (k.val : ℤ) :=
  toInt_ofNat_fin (by decide) k

/-- A word is determined by its signed value. -/
theorem eq_of_toInt_eq {x y : BitVec 32} (h : x.toInt = y.toInt) : x = y := BitVec.eq_of_toInt_eq h

/-- A word whose signed value is a natural number below `2 ^ 31` is the word of that number. -/
theorem eq_ofNat_of_toInt_eq {x : BitVec 32} {n : ℕ} (hn : n < 2 ^ 31) (hx : x.toInt = (n : ℤ)) :
    x = BitVec.ofNat 32 n :=
  eq_of_toInt_eq (by rw [hx, toInt_ofNat_of_lt n hn])

/-- A word whose signed value lies in `[0, N)` names a row of a table of `N` rows: its value read as a
    natural number is below `N`, and is the signed value again. -/
theorem toInt_eq_fin_of_mem {x : BitVec 32} {N : Nat} (h0 : 0 ≤ x.toInt) (hN : x.toInt < (N : ℤ)) :
    ∃ k : Fin N, x.toInt = (k.val : ℤ) :=
  ⟨⟨x.toInt.toNat, by omega⟩, by simp only [Int.toNat_of_nonneg h0]⟩

end Cert.LibIndexWords
-- ==== Proof.Sort.lean ====
/-
  The argsort of the expert words is a bijection of the positions that puts the expert words in nondecreasing order.
-/
import proofs.«400137_j63582695850549_3_alg».proof.Proof.RouteDefs
import proofs.«400137_j63582695850549_3_alg».proof.Proof.LibSortIota
import proofs.«400137_j63582695850549_3_alg».proof.Proof.LibGatherStacked
import proofs.«400137_j63582695850549_3_alg».proof.Proof.LibIndexWords
import Idealize.ShloMosaic.Lib.SortFacts
import Idealize.ShloMosaic.Lib.IdealHost
import Idealize.ShloMosaic.Lib.Pipeline.Value

noncomputable section

namespace Cert.Moe.Route

open Idealize.ShloMosaic Idealize.ShloMosaic.ValueIdx Cert.KernelIdeal Cert.Moe.Route
open scoped BigOperators

variable [Cert.KernelIdeal.Facts₀]

namespace SortAux

/-- The rank-1 index at coordinate `k`, in the two spellings in use. -/
theorem ofFin_eq_ix1 {n : Nat} (k : Fin n) : Shape.Idx.ofFin k = ix1 k := by
  funext d; match d with | ⟨0, _⟩ => rfl

/-- Position `k` of the one fiber of a vector is the index at `k`. -/
theorem along_eq_ix1 {n : Nat} (j : (⟨1, ![n]⟩ : Shape).Idx) (k : Fin ((⟨1, ![n]⟩ : Shape).size 0)) :
    j.along (0 : Fin 1) k = ix1 (n := n) k := (Shape.Idx.along_rank1 j k).trans (ofFin_eq_ix1 k)

/-- An argsort (a two-operand stable sort of a vector whose second operand is the iota) returns at `j` the
    word of the position the sorting permutation reads there; the permutation is the stable sort of the
    positions under the comparator applied to the pairs (key, position word). -/
theorem sort2_iota_snd {n : Nat} {α : Type} (cmp : α × BitVec 32 → α × BitVec 32 → BitVec 1)
    (x : (⟨1, ![n]⟩ : Shape).Idx → α) (j : (⟨1, ![n]⟩ : Shape).Idx) :
    (Host.sort2 ⟨1, ![n]⟩ 0 cmp x (iotaInDim ⟨1, ![n]⟩ 32 0)).2 j
      = BitVec.ofNat 32 (sortedFrom (fun k k' : Fin n => cmp (x (ix1 k), BitVec.ofNat 32 k.val) (x (ix1 k'), BitVec.ofNat 32 k'.val) == 1#1) (j 0)).val := by
  unfold Host.sort2
  rw [dif_pos (show 0 < (⟨1, ![n]⟩ : Shape).rank from Nat.one_pos)]
  show iotaInDim ⟨1, ![n]⟩ 32 0 (Shape.Idx.along j (0 : Fin 1) (sortedFrom (fun k k' => cmp (x (j.along (0 : Fin 1) k), iotaInDim ⟨1, ![n]⟩ 32 0 (j.along (0 : Fin 1) k)) (x (j.along (0 : Fin 1) k'), iotaInDim ⟨1, ![n]⟩ 32 0 (j.along (0 : Fin 1) k')) == 1#1) (j 0))) = _
  simp only [along_eq_ix1]
  rfl

/-- "Sorts strictly before": the comparator on the pairs (expert word, position word) of two positions. -/
def bef (e : IVec S16384 32) : Fin 16384 → Fin 16384 → Bool :=
  fun k k' => comparator_i32_i32_d0 (e (ix1 k), BitVec.ofNat 32 k.val) (e (ix1 k'), BitVec.ofNat 32 k'.val) == 1#1

/-- The comparator is the signed strict order of the expert words. -/
theorem bef_eq (e : IVec S16384 32) (a b : Fin 16384) : bef e a b = (e (ix1 a)).slt (e (ix1 b)) := by
  show (BitVec.ofBool ((e (ix1 a)).slt (e (ix1 b))) == 1#1) = _
  cases (e (ix1 a)).slt (e (ix1 b)) <;> rfl

theorem bef_true_iff (e : IVec S16384 32) (a b : Fin 16384) :
    bef e a b = true ↔ (e (ix1 a)).toInt < (e (ix1 b)).toInt := by
  rw [bef_eq, BitVec.slt, decide_eq_true_eq]

theorem bef_false_iff (e : IVec S16384 32) (a b : Fin 16384) :
    bef e a b = false ↔ (e (ix1 b)).toInt ≤ (e (ix1 a)).toInt := by
  rw [bef_eq, BitVec.slt, decide_eq_false_iff_not, not_lt]

/-- The argsort's word at `j` is the word of the position the stable sort reads there. -/
theorem sortIdx_apply (e : IVec S16384 32) (j : S16384.Idx) :
    Tab.sortIdx e j = BitVec.ofNat 32 (sortedFrom (bef e) (j 0)).val := by
  unfold Tab.sortIdx bef
  exact sort2_iota_snd comparator_i32_i32_d0 e j

theorem sortIdx_ix1 (e : IVec S16384 32) (k : Fin 16384) :
    Tab.sortIdx e (ix1 k) = BitVec.ofNat 32 (sortedFrom (bef e) k).val := sortIdx_apply e (ix1 k)

/-- The sorting order is the stable sort's permutation. -/
theorem sigma_eq (e : IVec S16384 32) (k : Fin 16384) : sigma e k = sortedFrom (bef e) k := by
  apply Fin.ext
  show (Tab.sortIdx e (ix1 k)).toNat % 16384 = _
  have h := (sortedFrom (bef e) k).isLt
  rw [sortIdx_ix1, BitVec.toNat_ofNat, Nat.mod_eq_of_lt (lt_trans h (by norm_num)), Nat.mod_eq_of_lt h]

theorem sigma_fun (e : IVec S16384 32) : sigma e = sortedFrom (bef e) := funext (sigma_eq e)

/-- A word below 4 has its unsigned value as its signed value. -/
theorem toInt_of_lt4 (w : BitVec 32) (h : w.toNat < 4) : w.toInt = (w.toNat : ℤ) := by
  rw [BitVec.toInt_eq_toNat_cond, if_pos (by omega)]

/-- The index column of a vector of index words reads the vector at the row. -/
theorem col16384_apply (idx : IVec S16384 32) (k : Fin 16384) : Tab.col16384 idx (ix2 k 0) = idx (ix1 k) := by
  unfold Tab.col16384
  refine broadcastInDim_apply _ _ idx (ix2 k 0) (ix1 k) fun a => ?_
  match a with
  | ⟨0, _⟩ =>
    show k.val = if (16384 : ℕ) = 1 then 0 else k.val
    rw [if_neg (by norm_num)]

/-- No word of the argsort is negative, so the negative-index wrap leaves it alone. -/
theorem wrap_sortIdx (e : IVec S16384 32) (n : BitVec 32) : Tab.wrap16384 n (Tab.sortIdx e) = Tab.sortIdx e := by
  unfold Tab.wrap16384
  refine Cert.LibIndexWords.wrap_vec_of_nonneg (Tab.sortIdx e) _ _ (fun i => ?_) (fun i => ?_)
  · rw [broadcastInDim_scalar_apply]; rfl
  · rw [sortIdx_apply, Cert.LibIndexWords.toInt_ofNat_fin (by norm_num) _]
    exact Int.natCast_nonneg _

end SortAux

open SortAux

/-- The argsort's word at `k` is the word of the token that sorts `k`-th. -/
theorem sortIdx_eq (e : IVec S16384 32) (k : Fin 16384) : Tab.sortIdx e (ix1 k) = BitVec.ofNat 32 (sigma e k).val := by
  rw [sigma_eq, sortIdx_ix1]

/-- The sorting order is a bijection of the positions: the stable sort permutes them. -/
theorem sigma_bij (e : IVec S16384 32) : Function.Bijective (sigma e) := by
  rw [sigma_fun]
  exact ⟨sortedFrom_injective _, sortedFrom_surjective _⟩

/-- Along the sorting order the experts do not decrease: the stable sort leaves no inversion of the signed
    order of the words, and on words 0, 1, 2, 3 that order is the order of the experts. -/
theorem sigma_mono (e : IVec S16384 32) (hE : InRange e) (k k' : Fin 16384) (h : k ≤ k') : ex e (sigma e k) ≤ ex e (sigma e k') := by
  rcases eq_or_lt_of_le h with rfl | hlt
  · exact le_refl _
  · have hno := sortedFrom_noInversion (bef e) (bef e)
      (fun a b hab => (bef_false_iff e b a).mpr (le_of_lt ((bef_true_iff e a b).mp hab)))
      (fun _ _ hab => hab)
      (fun a b c hab hbc => (bef_false_iff e a c).mpr (le_trans ((bef_false_iff e b c).mp hbc) ((bef_false_iff e a b).mp hab)))
      k k' hlt
    rw [bef_false_iff, ← sigma_eq, ← sigma_eq] at hno
    have h1 := hE (sigma e k)
    have h2 := hE (sigma e k')
    rw [toInt_of_lt4 _ h1, toInt_of_lt4 _ h2] at hno
    show (e (ix1 (sigma e k))).toNat % 4 ≤ (e (ix1 (sigma e k'))).toNat % 4
    omega

/-- The expert words in sorted order: at `k`, the word of the token that sorts `k`-th (its index word is a
    position, so neither the negative-index wrap nor the clamp of the gather changes it). -/
theorem sortedExpert_apply (e : IVec S16384 32) (k : Fin 16384) : Tab.sortedExpert e (ix1 k) = e (ix1 (sigma e k)) := by
  unfold Tab.sortedExpert
  rw [Cert.LibGatherStacked.gather_vec gather_S16384_S16384x1_S16384_n_0_n_n_0_1_1 rfl rfl rfl rfl rfl e _ k (by norm_num)]
  refine congrArg e (congrArg ix1 (Fin.ext ?_))
  show min (Tab.col16384 (Tab.wrap16384 16384#32 (Tab.sortIdx e)) (ix2 k 0)).toInt.toNat (16384 - 1) = (sigma e k).val
  rw [col16384_apply, wrap_sortIdx, sortIdx_eq]
  exact Cert.LibIndexWords.clamp_of_eq _ 16384 (sigma e k) (Cert.LibIndexWords.toInt_ofNat_fin (by norm_num) _)

end Cert.Moe.Route

end
-- ==== Proof.LibIntScatterCount.lean ====
/-
  An integer `stablehlo.scatter` whose body is a wrapping add, read at an index, for any sizes.

  The scatter is a left fold over the update indices in row-major order, each step adding its update
  to the element its result index names and dropping an update whose index leaves the operand. Since
  the wrapping sum is commutative, the fold's value at `i` is the operand's element plus the sum of
  the updates that land on `i` (`scatter_addi_apply`). With every update the same word `c` that sum is
  `c` taken as many times as there are updates landing on `i` (`scatter_addi_const`), and with a zero
  operand and `c = 1` the word read signed is that count itself, as long as twice the number of updates
  fits in the word (`toInt_scatter_addi_ones`). At the extended reals a float scatter-add of ones into
  zeros is the same count (`hostScatterAdd_ones`): `jnp.bincount` and a `segment_sum` of ones agree
  wherever their index words agree (`sitofp_count_eq_hostScatterAdd_ones`).
-/
import Idealize.ShloMosaic.PureOps
import Idealize.ShloMosaic.PureOps.Ideal
import Mathlib.Data.BitVec
import Mathlib.Algebra.BigOperators.Fin

noncomputable section

namespace ScatterCount

open Idealize.ShloMosaic

variable {s si u : Shape} {w w' : Nat}

/-- The fold at an index: the operand there plus every update whose result index is that index. -/
theorem scatter_addi_apply (d : ScatterDims s si u) (x : s.Idx → BitVec w) (idx : IVec si w')
    (upd : u.Idx → BitVec w) (i : s.Idx) :
    Host.scatter d IntOp.addi x idx upd i
      = x i + ∑ j ∈ Finset.univ.filter (fun j => d.resultIdx? j idx = some i), upd j := by
  rw [Finset.sum_filter, ← Equiv.sum_comp u.rowMajor.symm, Fin.sum_univ_def]
  unfold Host.scatter
  generalize List.finRange u.numel = l
  induction l generalizing x with
  | nil => simp
  | cons a l ih =>
    rw [List.foldl_cons, ih, List.map_cons, List.sum_cons, ← add_assoc]
    congr 1
    cases h : d.resultIdx? (u.rowMajor.symm a) idx with
    | none => simp
    | some i0 =>
      by_cases hi : i = i0
      · subst hi; simp [IntOp.addi]
      · have hne : ¬ (some i0 = some i) := fun h => hi (Option.some.inj h).symm
        simp [hi, hne]

/-- How many updates land on `i`. -/
def hits (d : ScatterDims s si u) (idx : IVec si w') (i : s.Idx) : ℕ :=
  (Finset.univ.filter (fun j : u.Idx => d.resultIdx? j idx = some i)).card

theorem hits_le (d : ScatterDims s si u) (idx : IVec si w') (i : s.Idx) : hits d idx i ≤ u.numel := by
  unfold hits
  refine (Finset.card_le_univ _).trans (le_of_eq ?_)
  rw [Fintype.card_congr u.rowMajor, Fintype.card_fin]

/-- Equal updates: the operand plus the update taken once per landing. -/
theorem scatter_addi_const (d : ScatterDims s si u) (x : s.Idx → BitVec w) (idx : IVec si w') (c : BitVec w)
    (i : s.Idx) :
    Host.scatter d IntOp.addi x idx (fun _ => c) i = x i + hits d idx i • c := by
  rw [scatter_addi_apply, Finset.sum_const]; rfl

/-- Ones into zeros, read signed: the count, when twice the number of updates fits in the word. -/
theorem toInt_scatter_addi_ones (d : ScatterDims s si u) (idx : IVec si w') (hN : 2 * u.numel < 2 ^ w) (i : s.Idx) :
    (Host.scatter d IntOp.addi (fun _ => (0 : BitVec w)) idx (fun _ => (1 : BitVec w)) i).toInt = (hits d idx i : ℤ) := by
  have hle := hits_le d idx i
  rw [scatter_addi_const, zero_add, nsmul_eq_mul, mul_one, BitVec.natCast_eq_ofNat]
  have hlt : hits d idx i < 2 ^ w := by omega
  rw [BitVec.toInt_eq_toNat_of_lt (by rw [BitVec.toNat_ofNat, Nat.mod_eq_of_lt hlt]; omega), BitVec.toNat_ofNat,
    Nat.mod_eq_of_lt hlt]

/-- At the extended reals a float scatter-add of ones into zeros is the same count. -/
theorem hostScatterAdd_ones (d : ScatterDims s si u) (idx : IVec si w') (i : s.Idx) :
    Ideal.hostScatterAdd d (fun _ => (0 : EReal)) idx (fun _ => (1 : EReal)) i = (hits d idx i : EReal) := by
  unfold Ideal.hostScatterAdd hits
  rw [zero_add, Finset.sum_const, nsmul_one]

/-- The integer count converted to a float is the float count. -/
theorem sitofp_count_eq_hostScatterAdd_ones (d : ScatterDims s si u) (idx : IVec si w') (hN : 2 * u.numel < 2 ^ w)
    (i : s.Idx) :
    (((Host.scatter d IntOp.addi (fun _ => (0 : BitVec w)) idx (fun _ => (1 : BitVec w)) i).toInt : ℝ) : EReal)
      = Ideal.hostScatterAdd d (fun _ => (0 : EReal)) idx (fun _ => (1 : EReal)) i := by
  rw [toInt_scatter_addi_ones d idx hN, hostScatterAdd_ones, Int.cast_natCast]; rfl

end ScatterCount

end
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.Counts.lean ====
/-
  The count words and their running sums are the natural-number counts: bincount as a scatter-add of ones, rounding up to a multiple of 256 by jnp's floor division, and the running sum of four words as a padded window sum.
-/
import proofs.«400137_j63582695850549_3_alg».proof.Proof.RouteDefs
import proofs.«400137_j63582695850549_3_alg».proof.Proof.LibIntScatterCount
import proofs.«400137_j63582695850549_3_alg».proof.Proof.LibIndexWords
import proofs.«400137_j63582695850549_3_alg».proof.Proof.LibScatterGatherRows

noncomputable section

namespace Cert.Moe.Route

open Idealize.ShloMosaic Idealize.ShloMosaic.ValueIdx Cert.KernelIdeal Cert.Moe.Route
open scoped BigOperators

variable [Cert.KernelIdeal.Facts₀]

namespace CountsAux

/-! ## The window sum of width 4, stride 1, left padding 3 over four words -/

/-- A left fold over the four positions 0, 1, 2, 3, written out. -/
theorem foldl4 {β : Type} (m : ℕ) (hm : m = 4) (f : β → Fin m → β) (v : β) :
    (List.finRange m).foldl f v = f (f (f (f v ⟨0, by omega⟩) ⟨1, by omega⟩) ⟨2, by omega⟩) ⟨3, by omega⟩ := by
  subst hm
  rfl

/-- The n-th position of a window of one axis has coordinate n. -/
theorem symm_val (n : Fin (⟨1, ![4]⟩ : Shape).numel) (a : Fin 1) :
    (((⟨1, ![4]⟩ : Shape).rowMajor.symm n) a).val = n.val := by
  have h := Shape.rowMajor_val_one ((⟨1, ![4]⟩ : Shape).rowMajor.symm n)
  rw [Equiv.apply_symm_apply] at h
  match a with
  | ⟨0, _⟩ => exact h.symm

/-- One term of the window sum: the padded position q reads the word at q - 3 when 3 ≤ q < 7, and the
    initial value otherwise. -/
theorem win_term (x : IVec S4 32) (v : BitVec 32) (q : Fin 1 → ℕ)
    [Decidable (∀ a : Fin 1, (![3] : Fin 1 → ℕ) a ≤ q a ∧ q a - (![3] : Fin 1 → ℕ) a < S4.size a)] :
    (if h : ∀ a : Fin 1, (![3] : Fin 1 → ℕ) a ≤ q a ∧ q a - (![3] : Fin 1 → ℕ) a < S4.size a
      then x (fun a => ⟨q a - (![3] : Fin 1 → ℕ) a, (h a).2⟩) else v)
      = if h : 3 ≤ q 0 ∧ q 0 - 3 < 4 then x (ix1 ⟨q 0 - 3, h.2⟩) else v := by
  by_cases h : 3 ≤ q 0 ∧ q 0 - 3 < 4
  · have h' : ∀ a : Fin 1, (![3] : Fin 1 → ℕ) a ≤ q a ∧ q a - (![3] : Fin 1 → ℕ) a < S4.size a := by
      intro a
      match a with
      | ⟨0, _⟩ => exact h
    rw [dif_pos h, dif_pos h']
    congr 1
    funext a
    match a with
    | ⟨0, _⟩ => rfl
  · have h' : ¬ ∀ a : Fin 1, (![3] : Fin 1 → ℕ) a ≤ q a ∧ q a - (![3] : Fin 1 → ℕ) a < S4.size a :=
      fun hh => h (hh 0)
    rw [dif_neg h, dif_neg h']

/-- The window sum at j: zero plus, for each of the four window positions n, the word at j + n - 3 when that
    is one of 0, 1, 2, 3 and zero otherwise. -/
theorem cumsum4_raw (x : IVec S4 32) (j : Fin 4) :
    Tab.cumsum4 x (ix1 j) =
      0#32 + (if h : 3 ≤ j.val + 0 ∧ j.val + 0 - 3 < 4 then x (ix1 ⟨j.val + 0 - 3, h.2⟩) else 0#32)
        + (if h : 3 ≤ j.val + 1 ∧ j.val + 1 - 3 < 4 then x (ix1 ⟨j.val + 1 - 3, h.2⟩) else 0#32)
        + (if h : 3 ≤ j.val + 2 ∧ j.val + 2 - 3 < 4 then x (ix1 ⟨j.val + 2 - 3, h.2⟩) else 0#32)
        + (if h : 3 ≤ j.val + 3 ∧ j.val + 3 - 3 < 4 then x (ix1 ⟨j.val + 3 - 3, h.2⟩) else 0#32) := by
  unfold Tab.cumsum4 Host.reduceWindow
  simp only []
  rw [foldl4 _ (by decide)]
  simp only [symm_val]
  simp only [win_term]
  simp only [Matrix.cons_val_zero, mul_one]
  rfl

/-- The running sum at 0, 1, 2, 3 as wrapping sums of words. -/
theorem cumsum4_0 (x : IVec S4 32) : Tab.cumsum4 x (ix1 0) = x (ix1 0) := by
  rw [cumsum4_raw]; simp
theorem cumsum4_1 (x : IVec S4 32) : Tab.cumsum4 x (ix1 1) = x (ix1 0) + x (ix1 1) := by
  rw [cumsum4_raw]; simp
theorem cumsum4_2 (x : IVec S4 32) : Tab.cumsum4 x (ix1 2) = x (ix1 0) + x (ix1 1) + x (ix1 2) := by
  rw [cumsum4_raw]; simp
theorem cumsum4_3 (x : IVec S4 32) : Tab.cumsum4 x (ix1 3) = x (ix1 0) + x (ix1 1) + x (ix1 2) + x (ix1 3) := by
  rw [cumsum4_raw]; simp

/-! ## The counts: ones scattered into zeros -/

/-- The one-column index array read at row i is the vector's word i. -/
theorem col16384_apply (v : IVec S16384 32) (i : Fin 16384) : Tab.col16384 v (ix2 i 0) = v (ix1 i) := by
  unfold Tab.col16384 broadcastInDim
  congr 1
  funext a
  match a with
  | ⟨0, _⟩ => rfl

/-- A word below 4 read signed is its value. -/
theorem toInt_of_inRange (e : IVec S16384 32) (hE : InRange e) (i : Fin 16384) :
    (e (ix1 i)).toInt = ((e (ix1 i)).toNat : ℤ) := by
  have h := hE i
  exact BitVec.toInt_eq_toNat_of_lt (by omega)

/-- The maximum with zero of a word that is not negative is the word. -/
theorem maxsi_zero_of_nonneg (x : BitVec 32) (hx : 0 ≤ x.toInt) : IntOp.maxsi 0#32 x = x := by
  have h0 : (0#32 : BitVec 32).toInt = 0 := by decide
  unfold IntOp.maxsi
  rw [Cert.LibIndexWords.slt_eq_false_of_le (by rw [h0]; exact hx)]
  rfl

/-- The index word of update i is the expert word i: the maximum with zero and the wrap by 4 do nothing
    to a word in 0..3. -/
theorem counts_idx (e : IVec S16384 32) (hE : InRange e) (i : Fin 16384) :
    Tab.col16384 (Tab.wrap16384 4#32
      (maxsi (broadcastInDim S16384 ![] Facts₀.bcast_S_S16384 (id (constantI S_ 32 0#32))) e)) (ix2 i 0)
      = e (ix1 i) := by
  rw [col16384_apply]
  have hnn : 0 ≤ (e (ix1 i)).toInt := by rw [toInt_of_inRange e hE i]; exact Int.natCast_nonneg _
  show Scalar.select (IntOp.cmpi .slt (IntOp.maxsi 0#32 (e (ix1 i))) 0#32)
      (IntOp.addi (IntOp.maxsi 0#32 (e (ix1 i))) 4#32) (IntOp.maxsi 0#32 (e (ix1 i))) = e (ix1 i)
  rw [maxsi_zero_of_nonneg _ hnn]
  exact Cert.LibIndexWords.wrap_of_nonneg _ _ hnn

/-- The number of updates landing on j is the number of tokens of expert j. -/
theorem hits_eq_cnt (e : IVec S16384 32) (hE : InRange e) (j : Fin 4) :
    ScatterCount.hits scatter_S4_S16384x1_S16384_n_0_0_1
      (Tab.col16384 (Tab.wrap16384 4#32
        (maxsi (broadcastInDim S16384 ![] Facts₀.bcast_S_S16384 (id (constantI S_ 32 0#32))) e))) (ix1 j)
      = cnt e j := by
  unfold ScatterCount.hits cnt
  rw [Finset.card_filter, Finset.card_filter, Cert.LibScatterGatherRows.sum_idx1]
  refine Finset.sum_congr rfl (fun i _ => ?_)
  have hiff : (scatter_S4_S16384x1_S16384_n_0_0_1.resultIdx? (ix1 i)
      (Tab.col16384 (Tab.wrap16384 4#32
        (maxsi (broadcastInDim S16384 ![] Facts₀.bcast_S_S16384 (id (constantI S_ 32 0#32))) e))) = some (ix1 j))
      ↔ ex e i = j := by
    rw [Cert.LibScatterGatherRows.resultIdx_vec _ rfl rfl rfl rfl, counts_idx e hE i, toInt_of_inRange e hE i]
    have h := hE i
    unfold ex Cert.Moe.expertOf
    rw [Fin.ext_iff]
    simp only []
    omega
  simp only [hiff]

/-- No expert has more than all 16384 tokens. -/
theorem cnt_le (e : IVec S16384 32) (j : Fin 4) : cnt e j ≤ 16384 := by
  unfold cnt
  refine (Finset.card_le_univ _).trans (le_of_eq ?_)
  rw [Fintype.card_fin]

/-- The count word is the word of the count. -/
theorem counts_eq (e : IVec S16384 32) (hE : InRange e) (j : Fin 4) :
    Tab.counts e (ix1 j) = BitVec.ofNat 32 (cnt e j) := by
  unfold Tab.counts
  show Host.scatter scatter_S4_S16384x1_S16384_n_0_0_1 IntOp.addi (fun _ => (0 : BitVec 32)) _
    (fun _ => (1 : BitVec 32)) (ix1 j) = _
  rw [ScatterCount.scatter_addi_const, zero_add, nsmul_eq_mul, mul_one, BitVec.natCast_eq_ofNat, hits_eq_cnt e hE j]

/-! ## Floor division by 256 of a positive word -/

/-- On a word a with 0 < a < 2^31 the floor division by 256 (the truncating quotient, lowered by one where
    the signs differ and the remainder is not zero) is the quotient of the values: the sign of a
    is the sign of 256, so the lowering branch is not taken, and the truncating signed quotient of two
    nonnegative words is the unsigned one. -/
theorem floorDiv256_toNat (a : IVec S4 32) (k : S4.Idx) (h1 : 0 < (a k).toNat) (h2 : (a k).toNat < 2 ^ 31) :
    (Tab.floorDiv256 a k).toNat = (a k).toNat / 256 := by
  have hne : a k ≠ 0 := by
    intro h0
    rw [h0] at h1
    simp at h1
  have hmsb : (a k).msb = false := by
    rw [BitVec.msb_eq_decide]
    simp only [decide_eq_false_iff_not, not_le]
    omega
  have hs : signi a k = 1 := by
    unfold signi
    rw [if_neg hne, hmsb]
    rfl
  have hcorner : ¬ IntOp.SDivCorner (a k) 256#32 := by
    unfold IntOp.SDivCorner
    intro h
    rcases h with h | ⟨_, h⟩
    · exact absurd h (by decide)
    · exact absurd h (by decide)
  have hdiv : IntOp.divsi .host (a k) 256#32 = (a k) / 256#32 := by
    unfold IntOp.divsi
    rw [if_neg hcorner, BitVec.sdiv_eq, hmsb]
    rfl
  have hs2 : ∀ i0 : S_.Idx, signi (id (constantI S_ 32 256#32)) i0 = 1 := by
    intro i0
    show (if (256#32 : BitVec 32) = 0 then (0 : BitVec 32) else if (256#32 : BitVec 32).msb then -1 else 1) = 1
    decide
  show (Scalar.select (IntOp.andi (IntOp.cmpi .ne (signi a k) (signi (id (constantI S_ 32 256#32)) _))
        (IntOp.cmpi .ne (IntOp.remsi .host (a k) 256#32) 0#32))
      (IntOp.subi (IntOp.divsi .host (a k) 256#32) 1#32) (IntOp.divsi .host (a k) 256#32)).toNat = _
  rw [hs, hs2]
  have hc : IntOp.cmpi .ne (1 : BitVec 32) 1 = 0#1 := by decide
  rw [hc]
  have hand : ∀ c : BitVec 1, IntOp.andi 0#1 c = 0#1 := by decide
  rw [hand]
  show (IntOp.divsi .host (a k) 256#32).toNat = _
  rw [hdiv, BitVec.toNat_udiv]
  rfl

/-- A rounded count is at most 16384 + 256. -/
theorem pc_le (e : IVec S16384 32) (j : Fin 4) : pc e j ≤ 16640 := by
  have := cnt_le e j
  unfold pc
  omega

/-! ## Sums over the experts before j, and the running sums read as natural numbers -/

theorem sum_lt_0 (f : Fin 4 → ℕ) : ∑ j' ∈ Finset.univ.filter (fun j' : Fin 4 => j' < 0), f j' = 0 := by
  rw [Finset.sum_filter, Fin.sum_univ_four]; simp
theorem sum_lt_1 (f : Fin 4 → ℕ) : ∑ j' ∈ Finset.univ.filter (fun j' : Fin 4 => j' < 1), f j' = f 0 := by
  rw [Finset.sum_filter, Fin.sum_univ_four]; simp
theorem sum_lt_2 (f : Fin 4 → ℕ) : ∑ j' ∈ Finset.univ.filter (fun j' : Fin 4 => j' < 2), f j' = f 0 + f 1 := by
  rw [Finset.sum_filter, Fin.sum_univ_four]; simp
theorem sum_lt_3 (f : Fin 4 → ℕ) : ∑ j' ∈ Finset.univ.filter (fun j' : Fin 4 => j' < 3), f j' = f 0 + f 1 + f 2 := by
  rw [Finset.sum_filter, Fin.sum_univ_four]; simp

/-- Four words with values f k ≤ 16640: their running sum at j has value (the sum of f before j) + f j;
    no sum reaches 2^32. -/
theorem cumsum4_toNat (x : IVec S4 32) (f : Fin 4 → ℕ) (hx : ∀ k, (x (ix1 k)).toNat = f k) (hb : ∀ k, f k ≤ 16640)
    (j : Fin 4) :
    (Tab.cumsum4 x (ix1 j)).toNat = ∑ j' ∈ Finset.univ.filter (fun j' : Fin 4 => j' < j), f j' + f j := by
  have h0 := hx 0
  have h1 := hx 1
  have h2 := hx 2
  have h3 := hx 3
  have b0 := hb 0
  have b1 := hb 1
  have b2 := hb 2
  have b3 := hb 3
  fin_cases j
  · show (Tab.cumsum4 x (ix1 0)).toNat = ∑ j' ∈ Finset.univ.filter (fun j' : Fin 4 => j' < 0), f j' + f 0
    rw [sum_lt_0, cumsum4_0, h0, zero_add]
  · show (Tab.cumsum4 x (ix1 1)).toNat = ∑ j' ∈ Finset.univ.filter (fun j' : Fin 4 => j' < 1), f j' + f 1
    rw [sum_lt_1, cumsum4_1, BitVec.toNat_add, h0, h1]
    omega
  · show (Tab.cumsum4 x (ix1 2)).toNat = ∑ j' ∈ Finset.univ.filter (fun j' : Fin 4 => j' < 2), f j' + f 2
    rw [sum_lt_2, cumsum4_2, BitVec.toNat_add, BitVec.toNat_add, h0, h1, h2]
    omega
  · show (Tab.cumsum4 x (ix1 3)).toNat = ∑ j' ∈ Finset.univ.filter (fun j' : Fin 4 => j' < 3), f j' + f 3
    rw [sum_lt_3, cumsum4_3, BitVec.toNat_add, BitVec.toNat_add, BitVec.toNat_add, h0, h1, h2, h3]
    omega

/-- The sum of f over the experts before j is at most three times 16640. -/
theorem sum_lt_le (f : Fin 4 → ℕ) (hb : ∀ k, f k ≤ 16640) (j : Fin 4) :
    ∑ j' ∈ Finset.univ.filter (fun j' : Fin 4 => j' < j), f j' ≤ 49920 := by
  have b0 := hb 0
  have b1 := hb 1
  have b2 := hb 2
  fin_cases j
  · show ∑ j' ∈ Finset.univ.filter (fun j' : Fin 4 => j' < 0), f j' ≤ _
    rw [sum_lt_0]; omega
  · show ∑ j' ∈ Finset.univ.filter (fun j' : Fin 4 => j' < 1), f j' ≤ _
    rw [sum_lt_1]; omega
  · show ∑ j' ∈ Finset.univ.filter (fun j' : Fin 4 => j' < 2), f j' ≤ _
    rw [sum_lt_2]; omega
  · show ∑ j' ∈ Finset.univ.filter (fun j' : Fin 4 => j' < 3), f j' ≤ _
    rw [sum_lt_3]; omega

/-- The running sum minus the word itself has value the sum of f before j: the subtraction does not
    underflow. -/
theorem off4_toNat (x : IVec S4 32) (f : Fin 4 → ℕ) (hx : ∀ k, (x (ix1 k)).toNat = f k) (hb : ∀ k, f k ≤ 16640)
    (j : Fin 4) :
    (subi (Tab.cumsum4 x) x (ix1 j)).toNat = ∑ j' ∈ Finset.univ.filter (fun j' : Fin 4 => j' < j), f j' := by
  have hc := cumsum4_toNat x f hx hb j
  have hs := sum_lt_le f hb j
  have hj := hb j
  show (Tab.cumsum4 x (ix1 j) - x (ix1 j)).toNat = _
  rw [BitVec.toNat_sub, hc, hx j]
  omega

end CountsAux

open CountsAux

theorem counts_toNat (e : IVec S16384 32) (hE : InRange e) (j : Fin 4) : (Tab.counts e (ix1 j)).toNat = cnt e j := by
  rw [counts_eq e hE j, BitVec.toNat_ofNat]
  have := cnt_le e j
  omega

theorem paddedCounts_toNat (e : IVec S16384 32) (hE : InRange e) (j : Fin 4) : (Tab.paddedCounts e (ix1 j)).toNat = pc e j := by
  have hc := counts_toNat e hE j
  have hle := cnt_le e j
  have ha : (subi (addi (Tab.counts e) (broadcastInDim S4 ![] Facts₀.bcast_S_S4 (constantI S_ 32 256#32)))
      (broadcastInDim S4 ![] Facts₀.bcast_S_S4 (constantI S_ 32 1#32)) (ix1 j)).toNat = cnt e j + 255 := by
    show (Tab.counts e (ix1 j) + 256#32 - 1#32).toNat = _
    rw [BitVec.toNat_sub, BitVec.toNat_add, hc]
    simp only [BitVec.toNat_ofNat]
    omega
  have hq := floorDiv256_toNat _ (ix1 j) (by rw [ha]; omega) (by rw [ha]; omega)
  rw [ha] at hq
  unfold Tab.paddedCounts
  show (Tab.floorDiv256 _ (ix1 j) * 256#32).toNat = _
  rw [BitVec.toNat_mul, hq]
  simp only [BitVec.toNat_ofNat]
  unfold pc
  omega

theorem paddedCum_toNat (e : IVec S16384 32) (hE : InRange e) (j : Fin 4) : (Tab.paddedCum e (ix1 j)).toNat = pcum e j :=
  cumsum4_toNat (Tab.paddedCounts e) (pc e) (paddedCounts_toNat e hE) (pc_le e) j

theorem paddedOff_toNat (e : IVec S16384 32) (hE : InRange e) (j : Fin 4) : (Tab.paddedOff e (ix1 j)).toNat = poff e j :=
  off4_toNat (Tab.paddedCounts e) (pc e) (paddedCounts_toNat e hE) (pc_le e) j

theorem origOff_toNat (e : IVec S16384 32) (hE : InRange e) (j : Fin 4) : (Tab.origOff e (ix1 j)).toNat = off e j :=
  off4_toNat (Tab.counts e) (cnt e) (counts_toNat e hE) (fun k => (cnt_le e k).trans (by norm_num)) j

end Cert.Moe.Route

end
-- ==== Proof.Group.lean ====
/-
  Counting over the sorted order: in an order that is a bijection and keeps the experts nondecreasing, expert a's tokens sit at positions off a ... off a + cnt a - 1; so the padded rows are distinct, stay inside their expert's padded segment, and every row's tile lies inside that segment.
-/
import proofs.«400137_j63582695850549_3_alg».proof.Proof.RouteDefs
import Mathlib.Algebra.BigOperators.Fin
import Mathlib.Algebra.BigOperators.Group.Finset.Basic
import Mathlib.Data.Finset.Card
import Mathlib.Order.Interval.Finset.Fin

noncomputable section

namespace Cert.Moe.Route

open Idealize.ShloMosaic Idealize.ShloMosaic.ValueIdx Cert.KernelIdeal Cert.Moe.Route
open scoped BigOperators

variable [Cert.KernelIdeal.Facts₀]

/-- The four elements of `Fin 4`. -/
private theorem fin4 : ∀ j : Fin 4, j = 0 ∨ j = 1 ∨ j = 2 ∨ j = 3 := by decide

/-- The sum of a function over the elements of `Fin 4` below a given one, written out. -/
private theorem sum_lt4 (c : Fin 4 → ℕ) :
    (∑ j' ∈ Finset.univ.filter (fun j' : Fin 4 => j' < 0), c j') = 0 ∧
    (∑ j' ∈ Finset.univ.filter (fun j' : Fin 4 => j' < 1), c j') = c 0 ∧
    (∑ j' ∈ Finset.univ.filter (fun j' : Fin 4 => j' < 2), c j') = c 0 + c 1 ∧
    (∑ j' ∈ Finset.univ.filter (fun j' : Fin 4 => j' < 3), c j') = c 0 + c 1 + c 2 := by
  have h0 : Finset.univ.filter (fun j' : Fin 4 => j' < 0) = ∅ := by decide
  have h1 : Finset.univ.filter (fun j' : Fin 4 => j' < 1) = {0} := by decide
  have h2 : Finset.univ.filter (fun j' : Fin 4 => j' < 2) = {0, 1} := by decide
  have h3 : Finset.univ.filter (fun j' : Fin 4 => j' < 3) = {0, 1, 2} := by decide
  rw [h0, h1, h2, h3]
  refine ⟨by simp, by simp, ?_, ?_⟩
  · rw [Finset.sum_insert (by decide), Finset.sum_singleton]
  · rw [Finset.sum_insert (by decide), Finset.sum_insert (by decide), Finset.sum_singleton, Nat.add_assoc]

/-- The number of points whose image under `f` is below `a` is the sum of the fibre sizes over the values below `a`. -/
private theorem card_lt_eq_sum {n : ℕ} (f : Fin n → Fin 4) (a : Fin 4) :
    (Finset.univ.filter (fun i : Fin n => f i < a)).card
      = ∑ j' ∈ Finset.univ.filter (fun j' : Fin 4 => j' < a),
          (Finset.univ.filter (fun i : Fin n => f i = j')).card := by
  rw [Finset.card_eq_sum_card_fiberwise (f := f) (s := Finset.univ.filter (fun i : Fin n => f i < a))
    (t := Finset.univ.filter (fun j' : Fin 4 => j' < a))]
  · apply Finset.sum_congr rfl
    intro b hb
    congr 1
    ext i
    simp only [Finset.mem_filter, Finset.mem_univ, true_and]
    constructor
    · rintro ⟨_, h⟩
      exact h
    · intro h
      refine ⟨?_, h⟩
      rw [h]
      exact (Finset.mem_filter.1 hb).2
  · intro i hi
    have hi' : f i < a := by simpa using hi
    simpa using hi'

/-- The number of points whose image under `f` is at most `a`: those below `a` plus the fibre of `a`. -/
private theorem card_le_eq_add {n : ℕ} (f : Fin n → Fin 4) (a : Fin 4) :
    (Finset.univ.filter (fun i : Fin n => f i ≤ a)).card
      = (Finset.univ.filter (fun i : Fin n => f i < a)).card
        + (Finset.univ.filter (fun i : Fin n => f i = a)).card := by
  have hd : Disjoint (Finset.univ.filter (fun i : Fin n => f i < a))
      (Finset.univ.filter (fun i : Fin n => f i = a)) := by
    rw [Finset.disjoint_filter]
    intro i _ h1 h2
    exact absurd h2 (ne_of_lt h1)
  rw [← Finset.card_union_of_disjoint hd, ← Finset.filter_or]
  congr 1
  ext i
  simp only [Finset.mem_filter, Finset.mem_univ, true_and]
  exact le_iff_lt_or_eq

/-- Pulling a filtered set back along a bijection keeps its size. -/
private theorem card_filter_comp_bij {n : ℕ} (σ : Fin n → Fin n) (hb : Function.Bijective σ)
    (p : Fin n → Prop) [DecidablePred p] :
    (Finset.univ.filter (fun k : Fin n => p (σ k))).card = (Finset.univ.filter (fun i : Fin n => p i)).card := by
  apply Finset.card_bij (fun k _ => σ k)
  · intro k hk
    simpa using hk
  · intro k₁ _ k₂ _ h
    exact hb.1 h
  · intro i hi
    obtain ⟨k, rfl⟩ := hb.2 i
    exact ⟨k, by simpa using hi, rfl⟩

/-- In an order that is a bijection and keeps `f` nondecreasing, the position `k` lies between the number of points with a smaller value and the number with a value at most that of the `k`-th point. -/
private theorem pos_bounds {n : ℕ} (f : Fin n → Fin 4) (σ : Fin n → Fin n) (hb : Function.Bijective σ)
    (hm : ∀ k k' : Fin n, k ≤ k' → f (σ k) ≤ f (σ k')) (k : Fin n) :
    (Finset.univ.filter (fun i : Fin n => f i < f (σ k))).card ≤ k.val ∧
    k.val + 1 ≤ (Finset.univ.filter (fun i : Fin n => f i ≤ f (σ k))).card := by
  constructor
  · rw [← card_filter_comp_bij σ hb (fun i => f i < f (σ k)), ← Fin.card_Iio k]
    apply Finset.card_le_card
    intro k' hk'
    have h : f (σ k') < f (σ k) := by simpa using hk'
    rw [Finset.mem_Iio]
    by_contra hc
    exact absurd (hm k k' (not_lt.1 hc)) (not_le.2 h)
  · rw [← card_filter_comp_bij σ hb (fun i => f i ≤ f (σ k)), ← Fin.card_Iic k]
    apply Finset.card_le_card
    intro k' hk'
    rw [Finset.mem_Iic] at hk'
    simpa using hm k' k hk'

theorem cnt_sum (e : IVec S16384 32) : ∑ j : Fin 4, cnt e j = 16384 := by
  have h := Finset.card_eq_sum_card_fiberwise (f := ex e) (s := (Finset.univ : Finset (Fin 16384)))
    (t := (Finset.univ : Finset (Fin 4))) (fun _ _ => by simp)
  rw [Finset.card_univ, Fintype.card_fin] at h
  exact h.symm

/-- The plain running sums, written out. -/
private theorem off_vals (e : IVec S16384 32) :
    off e 0 = 0 ∧ off e 1 = cnt e 0 ∧ off e 2 = cnt e 0 + cnt e 1 ∧ off e 3 = cnt e 0 + cnt e 1 + cnt e 2 :=
  sum_lt4 (cnt e)

/-- The rounded running sums, written out. -/
private theorem poff_vals (e : IVec S16384 32) :
    poff e 0 = 0 ∧ poff e 1 = pc e 0 ∧ poff e 2 = pc e 0 + pc e 1 ∧ poff e 3 = pc e 0 + pc e 1 + pc e 2 :=
  sum_lt4 (pc e)

/-- The four counts add up to the number of tokens. -/
private theorem cnt_sum4 (e : IVec S16384 32) : cnt e 0 + cnt e 1 + cnt e 2 + cnt e 3 = 16384 := by
  rw [← cnt_sum e, Fin.sum_univ_four]

theorem pc_dvd (e : IVec S16384 32) (j : Fin 4) : 256 ∣ pc e j := by
  unfold pc
  exact Dvd.intro_left _ rfl

theorem poff_dvd (e : IVec S16384 32) (j : Fin 4) : 256 ∣ poff e j := by
  unfold poff
  apply Finset.dvd_sum
  intro j' _
  exact pc_dvd e j'

theorem cnt_le_pc (e : IVec S16384 32) (j : Fin 4) : cnt e j ≤ pc e j := by
  unfold pc
  omega

theorem pcum_le_poff (e : IVec S16384 32) (j j' : Fin 4) (h : j' < j) : pcum e j' ≤ poff e j := by
  obtain ⟨p0, p1, p2, p3⟩ := poff_vals e
  unfold pcum
  rcases fin4 j with rfl | rfl | rfl | rfl <;> rcases fin4 j' with rfl | rfl | rfl | rfl <;>
    first
      | exact absurd h (by decide)
      | (rw [p0] at *; omega)

theorem pcum_mono (e : IVec S16384 32) (j j' : Fin 4) (h : j' ≤ j) : pcum e j' ≤ pcum e j := by
  rcases lt_or_eq_of_le h with h | rfl
  · exact le_trans (pcum_le_poff e j j' h) (by unfold pcum; omega)
  · exact le_refl _

theorem pcum_le (e : IVec S16384 32) (j : Fin 4) : pcum e j ≤ 17404 := by
  have h3 : pcum e j ≤ pcum e 3 := pcum_mono e 3 j (by rcases fin4 j with rfl | rfl | rfl | rfl <;> decide)
  obtain ⟨_, _, _, p3⟩ := poff_vals e
  have hs := cnt_sum4 e
  refine le_trans h3 ?_
  unfold pcum
  rw [p3]
  unfold pc
  omega

theorem off_add_cnt_le (e : IVec S16384 32) (j : Fin 4) : off e j + cnt e j ≤ 16384 := by
  obtain ⟨o0, o1, o2, o3⟩ := off_vals e
  have hs := cnt_sum4 e
  rcases fin4 j with rfl | rfl | rfl | rfl <;> omega

theorem group_bounds (e : IVec S16384 32) (σ : Fin 16384 → Fin 16384) (hb : Function.Bijective σ)
    (hm : ∀ k k' : Fin 16384, k ≤ k' → ex e (σ k) ≤ ex e (σ k')) (k : Fin 16384) :
    off e (ex e (σ k)) ≤ k.val ∧ k.val < off e (ex e (σ k)) + cnt e (ex e (σ k)) := by
  obtain ⟨h1, h2⟩ := pos_bounds (ex e) σ hb hm k
  rw [card_le_eq_add, card_lt_eq_sum] at h2
  rw [card_lt_eq_sum] at h1
  unfold off cnt
  constructor
  · exact h1
  · omega

theorem destOf_lt_pcum (e : IVec S16384 32) (σ : Fin 16384 → Fin 16384) (hb : Function.Bijective σ)
    (hm : ∀ k k' : Fin 16384, k ≤ k' → ex e (σ k) ≤ ex e (σ k')) (k : Fin 16384) :
    poff e (ex e (σ k)) ≤ destOf e σ k ∧ destOf e σ k < pcum e (ex e (σ k)) := by
  obtain ⟨h1, h2⟩ := group_bounds e σ hb hm k
  have h3 := cnt_le_pc e (ex e (σ k))
  unfold destOf pcum
  omega

theorem destOf_inj (e : IVec S16384 32) (σ : Fin 16384 → Fin 16384) (hb : Function.Bijective σ)
    (hm : ∀ k k' : Fin 16384, k ≤ k' → ex e (σ k) ≤ ex e (σ k')) : Function.Injective (destOf e σ) := by
  intro k₁ k₂ h
  obtain ⟨a1, a2⟩ := destOf_lt_pcum e σ hb hm k₁
  obtain ⟨b1, b2⟩ := destOf_lt_pcum e σ hb hm k₂
  rcases lt_trichotomy (ex e (σ k₁)) (ex e (σ k₂)) with hlt | heq | hgt
  · have := pcum_le_poff e _ _ hlt
    omega
  · obtain ⟨g1, _⟩ := group_bounds e σ hb hm k₁
    obtain ⟨g2, _⟩ := group_bounds e σ hb hm k₂
    unfold destOf at h
    rw [heq] at h g1
    apply Fin.ext
    omega
  · have := pcum_le_poff e _ _ hgt
    omega

theorem destOf_tile (e : IVec S16384 32) (σ : Fin 16384 → Fin 16384) (hb : Function.Bijective σ)
    (hm : ∀ k k' : Fin 16384, k ≤ k' → ex e (σ k) ≤ ex e (σ k')) (k : Fin 16384) :
    poff e (ex e (σ k)) ≤ 256 * (destOf e σ k / 256) ∧ 256 * (destOf e σ k / 256) < pcum e (ex e (σ k)) := by
  obtain ⟨h1, h2⟩ := destOf_lt_pcum e σ hb hm k
  obtain ⟨c, hc⟩ := poff_dvd e (ex e (σ k))
  omega

end Cert.Moe.Route

end
-- ==== Proof.LibScatterSet.lean ====
/-
  A scatter whose body keeps the update (jnp's .at[idx].set), from a vector of n updates into a vector of N elements by an n x 1 column of index words: when the index words are distinct positions, position p j holds update j afterwards.
-/
import proofs.«400137_j63582695850549_3_alg».proof.Proof.LibScatterGatherRows
import proofs.«400137_j63582695850549_3_alg».proof.Proof.LibIndexWords
import Idealize.ShloMosaic.Lib.ValueIdx

noncomputable section

namespace Cert.Moe.Route

open Idealize.ShloMosaic Idealize.ShloMosaic.ValueIdx
open scoped BigOperators

/-- THE FOLD AT ONE TARGET: a left fold of "overwrite the landing point by the update" over any list of update
    numbers, read at a point `i0` on which exactly one update number `n0` lands: the value there is update `n0`
    when `n0` is on the list (the step at `n0` writes it, and no other step touches `i0`), and the starting value
    otherwise. -/
theorem foldl_set_hit {s si u : Shape} {α : Type} {w : Nat} (d : ScatterDims s si u) (idx : IVec si w)
    (upd : u.Idx → α) (i0 : s.Idx) (n0 : Fin u.numel)
    (h0 : d.resultIdx? (u.rowMajor.symm n0) idx = some i0)
    (hother : ∀ n : Fin u.numel, n ≠ n0 → d.resultIdx? (u.rowMajor.symm n) idx ≠ some i0)
    (l : List (Fin u.numel)) (x : s.Idx → α) :
    l.foldl (fun r n =>
        match d.resultIdx? (u.rowMajor.symm n) idx with
        | some i => fun i' => if i' = i then (fun (_ : α) (b : α) => b) (r i) (upd (u.rowMajor.symm n)) else r i'
        | none => r) x i0
      = if n0 ∈ l then upd (u.rowMajor.symm n0) else x i0 := by
  induction l generalizing x with
  | nil => simp
  | cons a l ih =>
    rw [List.foldl_cons, ih]
    by_cases ha : a = n0
    · -- the step at n0 writes update n0 at i0; a later visit of n0 writes the same
      subst ha
      rw [h0]
      simp
    · -- a step at another number lands elsewhere or nowhere, so it leaves i0 alone
      have hne : n0 ≠ a := fun h => ha h.symm
      have hm : (n0 ∈ a :: l) ↔ n0 ∈ l := by simp [hne]
      have hstep : (match d.resultIdx? (u.rowMajor.symm a) idx with
          | some i => fun i' => if i' = i then (fun (_ : α) (b : α) => b) (x i) (upd (u.rowMajor.symm a)) else x i'
          | none => x) i0 = x i0 := by
        cases h : d.resultIdx? (u.rowMajor.symm a) idx with
        | none => rfl
        | some i =>
          have hi : i0 ≠ i := fun hh => hother a ha (by rw [h, hh])
          simp [hi]
      rw [hstep]
      simp only [hm]

theorem scatter_set_hit {N n : Nat} (d : ScatterDims ⟨1, ![N]⟩ ⟨2, ![n, 1]⟩ ⟨1, ![n]⟩)
    (hd1 : d.updateWindowDims = []) (hd2 : d.insertedWindowDims = [0]) (hd3 : d.scatterDimsToOperandDims = [0]) (hd4 : d.indexVectorDim = 1)
    (x : IVec ⟨1, ![N]⟩ 32) (idx : IVec ⟨2, ![n, 1]⟩ 32) (upd : IVec ⟨1, ![n]⟩ 32)
    (p : Fin n → Fin N) (hp : ∀ j : Fin n, (idx (ix2 j 0)).toInt = ((p j).val : ℤ)) (hinj : Function.Injective p) (j : Fin n) :
    Host.scatter d (fun _ b => b) x idx upd (ix1 (p j)) = upd (ix1 j) := by
  -- the one update number that lands on position p j is j's row-major number
  have h0 : d.resultIdx? ((⟨1, ![n]⟩ : Shape).rowMajor.symm ((⟨1, ![n]⟩ : Shape).rowMajor (ix1 j))) idx = some (ix1 (p j)) := by
    rw [Equiv.symm_apply_apply]
    exact (Cert.LibScatterGatherRows.resultIdx_vec d hd1 hd2 hd3 hd4 idx j (p j)).mpr (hp j)
  have hother : ∀ m : Fin (⟨1, ![n]⟩ : Shape).numel, m ≠ (⟨1, ![n]⟩ : Shape).rowMajor (ix1 j) →
      d.resultIdx? ((⟨1, ![n]⟩ : Shape).rowMajor.symm m) idx ≠ some (ix1 (p j)) := by
    intro m hm hland
    apply hm
    -- update number m is some update position e; landing on p j makes its word p j, so e = j since p is injective
    obtain ⟨e, he⟩ : ∃ e : Fin n, (⟨1, ![n]⟩ : Shape).rowMajor.symm m = ix1 e := ⟨_, eq_ix1 _⟩
    rw [he] at hland
    have hw := (Cert.LibScatterGatherRows.resultIdx_vec d hd1 hd2 hd3 hd4 idx e (p j)).mp hland
    rw [hp e] at hw
    have hej : e = j := hinj (Fin.ext (by exact_mod_cast hw))
    rw [← hej, ← he, Equiv.apply_symm_apply]
  have key := foldl_set_hit d idx upd (ix1 (p j)) ((⟨1, ![n]⟩ : Shape).rowMajor (ix1 j)) h0 hother
    (List.finRange (⟨1, ![n]⟩ : Shape).numel) x
  rw [if_pos (List.mem_finRange _), Equiv.symm_apply_apply] at key
  exact key

end Cert.Moe.Route

end
-- ==== Proof.Gid.lean ====
/-
  The tile table: tile t's word counts how many of the first three rounded running sums 256 t has reached; it is always one of 0, 1, 2, 3, and it is a when 256 t lies in expert a's padded segment.
-/
import proofs.«400137_j63582695850549_3_alg».proof.Proof.RouteDefs
import proofs.«400137_j63582695850549_3_alg».proof.Proof.Counts
import proofs.«400137_j63582695850549_3_alg».proof.Proof.Group
import proofs.«400137_j63582695850549_3_alg».proof.Proof.LibIndexWords
import Idealize.ShloMosaic.Lib.StableHlo.Predicate
import Idealize.ShloMosaic.Lib.Pipeline.Value

noncomputable section

namespace Cert.Moe.Route

open Idealize.ShloMosaic Idealize.ShloMosaic.ValueIdx Cert.KernelIdeal Cert.Moe.Route
open scoped BigOperators

variable [Cert.KernelIdeal.Facts₀]

/-- The first three of four positions, as positions of the four. -/
private def up (q : Fin 3) : Fin 4 := ⟨q.val, by omega⟩

/-- Tile t's word is the number of j among 0, 1, 2 whose rounded running sum is at most 256 t in the signed order. -/
private theorem gid_toNat (e : IVec S16384 32) (t : Fin 68) :
    (Tab.gid e (ix1 t)).toNat
      = (Finset.univ.filter (fun q : Fin 3 =>
          IntOp.cmpi .sge (IntOp.muli (BitVec.ofNat 32 t.val) 256#32) (Tab.paddedCum e (ix1 (up q))) = 1#1)).card := by
  unfold Tab.gid
  rw [StableHlo.Predicate.toNat_reduce_count_cols (by norm_num)]
  refine congrArg Finset.card (Finset.filter_congr fun q _ => ?_)
  show IntOp.cmpi .sge
      (broadcastInDim S68x3 ![0, 1] Facts₀.bcast_S68x1_S68x3_0_1
        (broadcastInDim S68x1 ![0] Facts₀.bcast_S68_S68x1_0
          (muli (iotaInDim S68 32 0) (broadcastInDim S68 ![] Facts₀.bcast_S_S68 (constantI S_ 32 256#32))))
        (StableHlo.Predicate.ij t q))
      (broadcastInDim S68x3 ![0, 1] Facts₀.bcast_S1x3_S68x3_0_1
        (broadcastInDim S1x3 ![1] Facts₀.bcast_S3_S1x3_1 (extractStridedSlice S3 ![0] (Tab.paddedCum e) Facts₀.slices_S4_S3_0))
        (StableHlo.Predicate.ij t q)) = 1#1 ↔ _
  rw [StableHlo.Predicate.bcast_rows, StableHlo.Predicate.bcast_cols]
  have hA : muli (iotaInDim S68 32 0) (broadcastInDim S68 ![] Facts₀.bcast_S_S68 (constantI S_ 32 256#32)) (Shape.Idx.ofFin t)
      = IntOp.muli (BitVec.ofNat 32 t.val) 256#32 := rfl
  have hB : extractStridedSlice S3 ![0] (Tab.paddedCum e) Facts₀.slices_S4_S3_0 (Shape.Idx.ofFin q) = Tab.paddedCum e (ix1 (up q)) :=
    extractStridedSlice_apply _ _ _ _ _ (fun a => by
      match a with
      | ⟨0, _⟩ => show q.val = 0 + q.val; omega)
  rw [hA, hB]

theorem gid_lt (e : IVec S16384 32) (t : Fin 68) : (Tab.gid e (ix1 t)).toNat < 4 := by
  rw [gid_toNat]
  refine lt_of_le_of_lt (Finset.card_filter_le _ _) ?_
  rw [Finset.card_univ, Fintype.card_fin]
  norm_num

theorem gid_eq (e : IVec S16384 32) (hE : InRange e) (t : Fin 68) (a : Fin 4) (h1 : poff e a ≤ 256 * t.val) (h2 : 256 * t.val < pcum e a) :
    Tab.gid e (ix1 t) = BitVec.ofNat 32 a.val := by
  apply BitVec.eq_of_toNat_eq
  have ha := a.isLt
  have ht := t.isLt
  rw [gid_toNat, BitVec.toNat_ofNat, Nat.mod_eq_of_lt (by omega)]
  have hX : (IntOp.muli (BitVec.ofNat 32 t.val) 256#32).toNat = 256 * t.val := by
    show (BitVec.ofNat 32 t.val * 256#32).toNat = _
    rw [BitVec.toNat_mul, BitVec.toNat_ofNat, BitVec.toNat_ofNat]
    omega
  have hset : (Finset.univ.filter (fun q : Fin 3 =>
        IntOp.cmpi .sge (IntOp.muli (BitVec.ofNat 32 t.val) 256#32) (Tab.paddedCum e (ix1 (up q))) = 1#1))
      = Finset.univ.filter (fun q : Fin 3 => q.val < a.val) := by
    refine Finset.filter_congr fun q _ => ?_
    have hY : (Tab.paddedCum e (ix1 (up q))).toNat = pcum e (up q) := paddedCum_toNat e hE (up q)
    have hYle := pcum_le e (up q)
    rw [StableHlo.Predicate.sge_iff_toNat (by rw [hX]; omega) (by rw [hY]; omega), hX, hY]
    constructor
    · intro h
      by_contra hn
      have hle : a ≤ up q := Fin.le_def.mpr (by show a.val ≤ q.val; omega)
      have := pcum_mono e (up q) a hle
      omega
    · intro h
      have := pcum_le_poff e a (up q) (Fin.lt_def.mpr (by show q.val < a.val; exact h))
      omega
  rw [hset]
  fin_cases a <;> rfl

end Cert.Moe.Route

end
-- ==== Proof.RouteMain.lean ====
/-
  The routing tables are right: every token's padded row is inside the padded buffer, the source table sends that row back to the token, and the row's tile carries the token's expert.
-/
import proofs.«400137_j63582695850549_3_alg».proof.Proof.RouteDefs
import proofs.«400137_j63582695850549_3_alg».proof.Proof.Sort
import proofs.«400137_j63582695850549_3_alg».proof.Proof.Counts
import proofs.«400137_j63582695850549_3_alg».proof.Proof.Group
import proofs.«400137_j63582695850549_3_alg».proof.Proof.LibScatterSet
import proofs.«400137_j63582695850549_3_alg».proof.Proof.Gid
import proofs.«400137_j63582695850549_3_alg».proof.Proof.LibGatherStacked
import proofs.«400137_j63582695850549_3_alg».proof.Proof.LibIndexWords

noncomputable section

namespace Cert.Moe.Route

open Idealize.ShloMosaic Idealize.ShloMosaic.ValueIdx Cert.KernelIdeal Cert.Moe.Route
open scoped BigOperators

variable [Cert.KernelIdeal.Facts₀]

/-- A word whose unsigned value is a number below 2^31 has that number as its signed value. -/
theorem toInt_of_toNat_lt (x : BitVec 32) (n : ℕ) (hx : x.toNat = n) (hn : n < 2 ^ 31) : x.toInt = (n : ℤ) := by
  rw [BitVec.toInt_eq_toNat_of_lt (by omega), hx]

/-- Under the range hypothesis a token's expert is the value of its expert word. -/
theorem ex_val (e : IVec S16384 32) (hE : InRange e) (i : Fin 16384) : (ex e i).val = (e (ix1 i)).toNat :=
  Nat.mod_eq_of_lt (hE i)

/-- The expert named by the word of an expert number is that expert. -/
theorem expertOf_ofNat (a : Fin 4) : Cert.Moe.expertOf (BitVec.ofNat 32 a.val) = a := by
  apply Fin.ext
  show (BitVec.ofNat 32 a.val).toNat % 4 = a.val
  rw [BitVec.toNat_ofNat]
  have := a.isLt
  omega

/-- An index column read at row `k` is the index vector at `k`. -/
theorem col16384_apply (idx : IVec S16384 32) (k : Fin 16384) : Tab.col16384 idx (ix2 k 0) = idx (ix1 k) := by
  unfold Tab.col16384 broadcastInDim
  refine congrArg idx (funext fun a => ?_)
  match a with
  | ⟨0, _⟩ => rfl

/-- The wrap of negative index words leaves a vector of nonnegative words alone. -/
theorem wrap16384_of_nonneg (n : BitVec 32) (idx : IVec S16384 32) (h : ∀ k : Fin 16384, 0 ≤ (idx (ix1 k)).toInt) :
    Tab.wrap16384 n idx = idx := by
  unfold Tab.wrap16384
  exact Cert.LibIndexWords.wrap_vec_of_nonneg idx _ _ (fun _ => rfl) (fun i => by rw [eq_ix1 i]; exact h _)

/-- The k-th sorted expert word, as a signed value, is the expert of the token that sorts k-th. -/
theorem sortedExpert_toInt (e : IVec S16384 32) (hE : InRange e) (k : Fin 16384) :
    (Tab.sortedExpert e (ix1 k)).toInt = ((ex e (sigma e k)).val : ℤ) := by
  rw [sortedExpert_apply, ex_val e hE]
  exact toInt_of_toNat_lt _ _ rfl (by have := hE (sigma e k); omega)

/-- A table of four words gathered by the sorted expert words: entry k is the table at the expert of the token that sorts k-th. -/
theorem gather4_sorted (x : IVec S4 32) (e : IVec S16384 32) (hE : InRange e) (k : Fin 16384) :
    Host.gather gather_S4_S16384x1_S16384_n_0_n_n_0_1_1 x (Tab.col16384 (Tab.wrap16384 4#32 (Tab.sortedExpert e))) (ix1 k)
      = x (ix1 (ex e (sigma e k))) := by
  have hw : Tab.wrap16384 4#32 (Tab.sortedExpert e) = Tab.sortedExpert e :=
    wrap16384_of_nonneg _ _ (fun k' => by rw [sortedExpert_toInt e hE k']; exact Int.natCast_nonneg _)
  rw [Cert.LibGatherStacked.gather_vec gather_S4_S16384x1_S16384_n_0_n_n_0_1_1 rfl rfl rfl rfl rfl x _ k (by norm_num)]
  refine congrArg (fun q => x (ix1 q)) ?_
  exact Cert.LibIndexWords.clamp_fin_of_eq _ 4 _ (by rw [col16384_apply, hw, sortedExpert_toInt e hE k]) _

theorem destPos_toNat (e : IVec S16384 32) (hE : InRange e) (k : Fin 16384) : (Tab.destPos e (ix1 k)).toNat = dest e k := by
  have hb := group_bounds e (sigma e) (sigma_bij e) (sigma_mono e hE) k
  have hP := paddedOff_toNat e hE (ex e (sigma e k))
  have hO := origOff_toNat e hE (ex e (sigma e k))
  have hpc := pcum_le e (ex e (sigma e k))
  have hk := k.isLt
  -- the word: the padded offset of the expert, plus the position k less the expert's plain offset
  have hval : Tab.destPos e (ix1 k) = Tab.paddedOff e (ix1 (ex e (sigma e k)))
      + (BitVec.ofNat 32 k.val - Tab.origOff e (ix1 (ex e (sigma e k)))) := by
    show IntOp.addi (Host.gather _ _ _ (ix1 k)) (IntOp.subi (iotaInDim S16384 32 0 (ix1 k)) (Host.gather _ _ _ (ix1 k))) = _
    rw [gather4_sorted _ e hE k, gather4_sorted _ e hE k]
    rfl
  rw [hval]
  unfold dest destOf
  unfold pcum at hpc
  generalize ex e (sigma e k) = a at *
  -- off a ≤ k < 16384 and poff a ≤ 17404, so neither the subtraction nor the sum leaves the word range
  rw [BitVec.toNat_add, BitVec.toNat_sub, BitVec.toNat_ofNat, hP, hO]
  omega

/-- The padded row of the k-th sorted token is inside the padded buffer. -/
theorem dest_lt (e : IVec S16384 32) (hE : InRange e) (k : Fin 16384) : dest e k < 17408 := by
  have h1 := (destOf_lt_pcum e (sigma e) (sigma_bij e) (sigma_mono e hE) k).2
  have h2 := pcum_le e (ex e (sigma e k))
  unfold dest
  omega

/-- The k-th sorting index word, as a signed value, is the token that sorts k-th. -/
theorem sortIdx_toInt (e : IVec S16384 32) (k : Fin 16384) : (Tab.sortIdx e (ix1 k)).toInt = ((sigma e k).val : ℤ) := by
  rw [sortIdx_eq]
  exact Cert.LibIndexWords.toInt_ofNat_fin (by norm_num) (sigma e k)

/-- The k-th padded-row word, as a signed value, is the padded row of the k-th sorted token. -/
theorem destPos_toInt (e : IVec S16384 32) (hE : InRange e) (k : Fin 16384) : (Tab.destPos e (ix1 k)).toInt = (dest e k : ℤ) :=
  toInt_of_toNat_lt _ _ (destPos_toNat e hE k) (by have := dest_lt e hE k; omega)

/-- The token that sorts k-th is sent to the k-th padded-row word: the scatter by the sorting order sets distinct positions. -/
theorem posOfToken_sigma (e : IVec S16384 32) (hE : InRange e) (k : Fin 16384) :
    Tab.posOfToken e (ix1 (sigma e k)) = Tab.destPos e (ix1 k) := by
  unfold Tab.posOfToken
  refine scatter_set_hit scatter_S16384_S16384x1_S16384_n_0_0_1 rfl rfl rfl rfl _ _ (Tab.destPos e) (sigma e) (fun j => ?_)
    (sigma_bij e).injective k
  rw [col16384_apply, wrap16384_of_nonneg _ _ (fun k' => by rw [sortIdx_toInt]; exact Int.natCast_nonneg _), sortIdx_toInt]

/-- The padded row of the k-th sorted token holds that token's number: the scatter by the padded rows sets distinct positions. -/
theorem srcRow_dest (e : IVec S16384 32) (hE : InRange e) (k : Fin 16384) (n : ℕ) (h : n < 17408) (hn : n = dest e k) :
    Tab.srcRow e (ix1 ⟨n, h⟩) = BitVec.ofNat 32 (sigma e k).val := by
  subst hn
  have hq' : (⟨dest e k, h⟩ : Fin 17408) = (fun k' : Fin 16384 => (⟨dest e k', dest_lt e hE k'⟩ : Fin 17408)) k := rfl
  rw [hq', ← sortIdx_eq]
  unfold Tab.srcRow
  refine scatter_set_hit scatter_S17408_S16384x1_S16384_n_0_0_1 rfl rfl rfl rfl _ _ (Tab.sortIdx e)
    (fun k' : Fin 16384 => (⟨dest e k', dest_lt e hE k'⟩ : Fin 17408)) (fun j => ?_) ?_ k
  · rw [col16384_apply, wrap16384_of_nonneg _ _ (fun k' => by rw [destPos_toInt e hE k']; exact Int.natCast_nonneg _),
      destPos_toInt e hE j]
  · intro k1 k2 h
    exact destOf_inj e (sigma e) (sigma_bij e) (sigma_mono e hE) (congrArg Fin.val h)

theorem pos_lt (e : IVec S16384 32) (hE : InRange e) (i : Fin 16384) : (Tab.posOfToken e (ix1 i)).toNat < 17408 := by
  obtain ⟨k, rfl⟩ := (sigma_bij e).surjective i
  rw [posOfToken_sigma e hE k, destPos_toNat e hE k]
  exact dest_lt e hE k

theorem src_pos (e : IVec S16384 32) (hE : InRange e) (i : Fin 16384) (h : (Tab.posOfToken e (ix1 i)).toNat < 17408) :
    Tab.srcRow e (ix1 ⟨(Tab.posOfToken e (ix1 i)).toNat, h⟩) = BitVec.ofNat 32 i.val := by
  obtain ⟨k, rfl⟩ := (sigma_bij e).surjective i
  exact srcRow_dest e hE k _ h (by rw [posOfToken_sigma e hE k, destPos_toNat e hE k])

theorem gid_pos (e : IVec S16384 32) (hE : InRange e) (i : Fin 16384) (h : (Tab.posOfToken e (ix1 i)).toNat / 256 < 68) :
    Cert.Moe.expertOf (Tab.gid e (ix1 ⟨(Tab.posOfToken e (ix1 i)).toNat / 256, h⟩)) = ex e i := by
  obtain ⟨k, rfl⟩ := (sigma_bij e).surjective i
  have ht := destOf_tile e (sigma e) (sigma_bij e) (sigma_mono e hE) k
  have hp : (Tab.posOfToken e (ix1 (sigma e k))).toNat = destOf e (sigma e) k := by
    rw [posOfToken_sigma e hE k, destPos_toNat e hE k]
    rfl
  -- the row's tile starts inside the padded segment of the token's expert
  have h1 : poff e (ex e (sigma e k)) ≤ 256 * (⟨(Tab.posOfToken e (ix1 (sigma e k))).toNat / 256, h⟩ : Fin 68).val := by
    show _ ≤ 256 * ((Tab.posOfToken e (ix1 (sigma e k))).toNat / 256)
    rw [hp]
    exact ht.1
  have h2 : 256 * (⟨(Tab.posOfToken e (ix1 (sigma e k))).toNat / 256, h⟩ : Fin 68).val < pcum e (ex e (sigma e k)) := by
    show 256 * ((Tab.posOfToken e (ix1 (sigma e k))).toNat / 256) < _
    rw [hp]
    exact ht.2
  rw [gid_eq e hE _ (ex e (sigma e k)) h1 h2]
  exact expertOf_ofNat _

end Cert.Moe.Route

end
-- ==== Proof.RefTerm.lean ====
/-
  The reference's result as one function of its arguments: for each of the four experts in turn the gated
  unit on every token (three matrix products against that expert's slices), kept where the token's expert
  word equals the expert's number and the previous value elsewhere, starting from zeros.
-/
import proofs.«400137_j63582695850549_3_alg».proof.ReferenceIdeal

noncomputable section

namespace Cert.ReferenceIdeal.Term

open Idealize.ShloMosaic Cert.ReferenceIdeal

variable {F : FTy → Type} [FloatOps F] [Facts₀]
open Facts₀

def clipped (tok : IVec S4x4096 32) : IVec S4x4096 32 :=
  minsi (broadcastInDim S4x4096 ![] bcast_S_S4x4096 (id (constantI S_ 32 99999#32)))
    (maxsi (broadcastInDim S4x4096 ![] bcast_S_S4x4096 (id (constantI S_ 32 0#32))) tok)

def floorDiv25000 (a : IVec S4x4096 32) : IVec S4x4096 32 :=
  select (andi (cmpi .ne (signi a) (broadcastInDim S4x4096 ![] bcast_S_S4x4096 (signi (id (constantI S_ 32 25000#32)))))
      (cmpi .ne (Host.remsi a (broadcastInDim S4x4096 ![] bcast_S_S4x4096 (id (constantI S_ 32 25000#32))))
        (broadcastInDim S4x4096 ![] bcast_S_S4x4096 (constantI S_ 32 0#32))))
    (subi (Host.divsi a (broadcastInDim S4x4096 ![] bcast_S_S4x4096 (id (constantI S_ 32 25000#32))))
      (broadcastInDim S4x4096 ![] bcast_S_S4x4096 (constantI S_ 32 1#32)))
    (Host.divsi a (broadcastInDim S4x4096 ![] bcast_S_S4x4096 (id (constantI S_ 32 25000#32))))

/-- The expert word of every token: min(clip(id) // 25000, 3). -/
def expertIds (tok : IVec S4x4096 32) : IVec S4x4096 32 :=
  minsi (floorDiv25000 (clipped tok)) (broadcastInDim S4x4096 ![] bcast_S_S4x4096 (constantI S_ 32 3#32))

/-- jax.nn.silu as jax expands it on the host: a * (1 / (1 + exp(-a))). -/
def silu (a : FVec F S4x4096x2048 .f32) : FVec F S4x4096x2048 .f32 :=
  mulf a (Host.divf (broadcastInDim S4x4096x2048 ![] bcast_S_S4x4096x2048 (constant S_ .f32 0x3F800000#32))
    (addf (broadcastInDim S4x4096x2048 ![] bcast_S_S4x4096x2048 (constant S_ .f32 0x3F800000#32)) (Host.exp (Host.negf a))))

/-- One expert's gated unit on every token, over that expert's three matrices. -/
def expertOut (x : FVec F S4x4096x2048 .f32) (g u d : FVec F S2048x2048 .f32) : FVec F S4x4096x2048 .f32 :=
  Host.dotGeneral dot_S4x4096x2048_S2048x2048_S4x4096x2048_2_1_01_0_n_n none
    (mulf (silu (Host.dotGeneral dot_S4x4096x2048_S2048x2048_S4x4096x2048_2_1_01_0_n_n none x g))
      (Host.dotGeneral dot_S4x4096x2048_S2048x2048_S4x4096x2048_2_1_01_0_n_n none x u)) d

/-- Keep `y` where the expert word equals `j`, `prev` elsewhere. -/
def keepWhere (e : IVec S4x4096 32) (j : BitVec 32) (y prev : FVec F S4x4096x2048 .f32) : FVec F S4x4096x2048 .f32 :=
  select (broadcastInDim S4x4096x2048 ![0, 1, 2] bcast_S4x4096x1_S4x4096x2048_0_1_2
      (broadcastInDim S4x4096x1 ![0, 1] bcast_S4x4096_S4x4096x1_0_1
        (cmpi .eq e (broadcastInDim S4x4096 ![] bcast_S_S4x4096 (constantI S_ 32 j))))) y prev

def slice0 (w : FVec F S4x2048x2048 .f32) : FVec F S2048x2048 .f32 :=
  shapeCast S2048x2048 (extractStridedSlice S1x2048x2048 ![0, 0, 0] w slices_S4x2048x2048_S1x2048x2048_0_0_0) shapeCasts_S1x2048x2048_S2048x2048
def slice1 (w : FVec F S4x2048x2048 .f32) : FVec F S2048x2048 .f32 :=
  shapeCast S2048x2048 (extractStridedSlice S1x2048x2048 ![1, 0, 0] w slices_S4x2048x2048_S1x2048x2048_1_0_0) shapeCasts_S1x2048x2048_S2048x2048
def slice2 (w : FVec F S4x2048x2048 .f32) : FVec F S2048x2048 .f32 :=
  shapeCast S2048x2048 (extractStridedSlice S1x2048x2048 ![2, 0, 0] w slices_S4x2048x2048_S1x2048x2048_2_0_0) shapeCasts_S1x2048x2048_S2048x2048
def slice3 (w : FVec F S4x2048x2048 .f32) : FVec F S2048x2048 .f32 :=
  shapeCast S2048x2048 (extractStridedSlice S1x2048x2048 ![3, 0, 0] w slices_S4x2048x2048_S1x2048x2048_3_0_0) shapeCasts_S1x2048x2048_S2048x2048

/-- The reference's result. -/
def refOut (x : FVec F S4x4096x2048 .f32) (tok : IVec S4x4096 32) (wg wu wd : FVec F S4x2048x2048 .f32) :
    FVec F S4x4096x2048 .f32 :=
  keepWhere (expertIds tok) 3#32 (expertOut x (slice3 wg) (slice3 wu) (slice3 wd))
    (keepWhere (expertIds tok) 2#32 (expertOut x (slice2 wg) (slice2 wu) (slice2 wd))
      (keepWhere (expertIds tok) 1#32 (expertOut x (slice1 wg) (slice1 wu) (slice1 wd))
        (keepWhere (expertIds tok) 0#32 (expertOut x (slice0 wg) (slice0 wu) (slice0 wd))
          (broadcastInDim S4x4096x2048 ![] bcast_S_S4x4096x2048 (constant S_ .f32 0x00000000#32)))))

end Cert.ReferenceIdeal.Term

end
-- ==== Proof.ExpertRange.lean ====
/-
  The expert word min(clip(id, 0, 99999) // 25000, 3) is one of 0, 1, 2, 3 for every 32-bit token id; the two programs compute it by the same operations; and the flattened vector of expert words reads the [4, 4096] array in row-major order.
-/
import proofs.«400137_j63582695850549_3_alg».proof.Proof.Tables
import proofs.«400137_j63582695850549_3_alg».proof.Proof.RefTerm
import proofs.«400137_j63582695850549_3_alg».proof.Proof.RouteDefs
import proofs.«400137_j63582695850549_3_alg».proof.Proof.LibIndexWords
import Idealize.ShloMosaic.Lib.Pipeline.Value
import Idealize.ShloMosaic.Lib.Affine

noncomputable section

namespace Cert.Moe.ExpertRange

open Idealize.ShloMosaic Idealize.ShloMosaic.ValueIdx
open scoped BigOperators

/-! ## The expert word of one token id

Every operation that builds the array of expert words acts at each position on its own, so the array at a
position is one function of the token id there. That function is written out here on a single word. -/

/-- The sign of a word as a two's-complement integer: 0, -1 or 1. -/
def sgn (x : BitVec 32) : BitVec 32 := if x = 0 then 0 else if x.msb then -1 else 1

/-- A word clamped into [0, 99999]: minimum(99999, maximum(0, t)). -/
def clipW (t : BitVec 32) : BitVec 32 := IntOp.minsi 99999#32 (IntOp.maxsi 0#32 t)

/-- Floor division by 25000: the truncating quotient, lowered by one where the sign of the dividend is
    not the sign of 25000 and the remainder is not zero. -/
def fdivW (c : BitVec 32) : BitVec 32 :=
  Scalar.select (IntOp.andi (IntOp.cmpi .ne (sgn c) (sgn 25000#32)) (IntOp.cmpi .ne (IntOp.remsi .host c 25000#32) 0#32))
    (IntOp.subi (IntOp.divsi .host c 25000#32) 1#32) (IntOp.divsi .host c 25000#32)

/-- The expert word of a token id: min(clip(t) // 25000, 3). -/
def expertW (t : BitVec 32) : BitVec 32 := IntOp.minsi (fdivW (clipW t)) 3#32

/-- The clamped word has a signed value in [0, 99999]: maximum(0, t) is 0 or a word not below 0, and
    the minimum of 99999 and that is 99999 or a word not above 99999. -/
theorem clipW_bounds (t : BitVec 32) : 0 ≤ (clipW t).toInt ∧ (clipW t).toInt ≤ 99999 := by
  have h0 : (0#32 : BitVec 32).toInt = 0 := by decide
  have h9 : (99999#32 : BitVec 32).toInt = 99999 := by decide
  have hm : 0 ≤ (IntOp.maxsi 0#32 t).toInt := by
    unfold IntOp.maxsi
    by_cases h : t.slt 0#32 = true
    · rw [if_pos h, h0]
    · rw [if_neg h]
      rw [BitVec.slt_iff_toInt_lt, h0] at h
      omega
  unfold clipW IntOp.minsi
  by_cases h : (99999#32 : BitVec 32).slt (IntOp.maxsi 0#32 t) = true
  · rw [if_pos h, h9]; omega
  · rw [if_neg h]
    rw [BitVec.slt_iff_toInt_lt, h9] at h
    omega

/-- Floor division by 25000 of a word c with 0 ≤ c ≤ 99999 is at most 3. Such a word has its top bit
    clear, as has 25000, so the signed quotient and remainder are the unsigned ones, c / 25000 ≤ 3 and
    c % 25000. The correction is off: for c ≠ 0 the sign of c is 1, the sign of 25000; for c = 0 the
    remainder is 0. -/
theorem fdivW_le (c : BitVec 32) (h0 : 0 ≤ c.toInt) (h1 : c.toInt ≤ 99999) : (fdivW c).toNat ≤ 3 := by
  have hlt := c.isLt
  have hcN : c.toNat ≤ 99999 := by
    rw [BitVec.toInt_eq_toNat_cond] at h0 h1
    split at h0 <;> omega
  have hmsb : c.msb = false := by rw [BitVec.msb_eq_false_iff_two_mul_lt]; omega
  have hkm : (25000#32 : BitVec 32).msb = false := by decide
  have hkN : (25000#32 : BitVec 32).toNat = 25000 := by decide
  have hkpos : 0 < (25000#32 : BitVec 32).toInt := by decide
  have hq : IntOp.divsi .host c 25000#32 = c / 25000#32 := by
    unfold IntOp.divsi
    rw [if_neg (IntOp.not_corner_of_pos hkpos), BitVec.sdiv_eq, hmsb, hkm]
    rfl
  have hr : IntOp.remsi .host c 25000#32 = c % 25000#32 := by
    rw [IntOp.remsi_of_pos .host hkpos, BitVec.srem_eq, hmsb, hkm]
  have hqN : (c / 25000#32).toNat ≤ 3 := by
    rw [BitVec.toNat_udiv, hkN]; omega
  have hoff : ¬ (IntOp.andi (IntOp.cmpi .ne (sgn c) (sgn 25000#32)) (IntOp.cmpi .ne (IntOp.remsi .host c 25000#32) 0#32) = 1#1) := by
    rw [IntOp.andi_eq_one, IntOp.cmpi_ne, IntOp.cmpi_ne]
    rintro ⟨hs, hrem⟩
    by_cases hc : c = 0
    · subst hc
      exact hrem (by rw [hr]; decide)
    · exact hs (by unfold sgn; rw [if_neg hc, hmsb]; decide)
  unfold fdivW Scalar.select
  split
  · rename_i h
    exact absurd h hoff
  · rw [hq]
    exact hqN

/-- The expert word of any token id is one of 0, 1, 2, 3: the minimum of a word q with 0 ≤ q ≤ 3 and
    the word 3 is q or 3. -/
theorem expertW_lt (t : BitVec 32) : (expertW t).toNat < 4 := by
  have hb := clipW_bounds t
  have hq := fdivW_le (clipW t) hb.1 hb.2
  unfold expertW IntOp.minsi
  by_cases h : (fdivW (clipW t)).slt 3#32 = true
  · rw [if_pos h]; omega
  · rw [if_neg h]; decide

variable [Cert.KernelIdeal.Facts₀] [Cert.ReferenceIdeal.Facts₀]

/-- The array of expert words at a position is the expert word of the token id at that position: the
    elementwise operations act at the position, and a broadcast constant reads its constant there. -/
theorem tab_eq_expertW (tok : IVec Cert.KernelIdeal.S4x4096 32) (i : Cert.KernelIdeal.S4x4096.Idx) :
    Cert.KernelIdeal.Tab.expertIds tok i = expertW (tok i) := rfl

theorem tab_range (tok : IVec Cert.KernelIdeal.S4x4096 32) (i : Cert.KernelIdeal.S4x4096.Idx) :
    (Cert.KernelIdeal.Tab.expertIds tok i).toNat < 4 := by
  rw [tab_eq_expertW]; exact expertW_lt (tok i)

theorem term_eq_tab (tok : IVec Cert.KernelIdeal.S4x4096 32) :
    Cert.ReferenceIdeal.Term.expertIds tok = Cert.KernelIdeal.Tab.expertIds tok := rfl

theorem eflat_apply (tok : IVec Cert.KernelIdeal.S4x4096 32) (b : Fin 4) (s : Fin 4096) :
    Cert.KernelIdeal.Tab.eflat tok (ix1 ⟨b.val * 4096 + s.val, by have := b.isLt; have := s.isLt; omega⟩)
      = Cert.KernelIdeal.Tab.expertIds tok (ix2 b s) := by
  unfold Cert.KernelIdeal.Tab.eflat
  refine shapeCast_apply _ _ _ _ ?_
  rw [Shape.rowMajor_val_two, Shape.rowMajor_val_one]
  rfl

theorem eflat_inRange (tok : IVec Cert.KernelIdeal.S4x4096 32) : Cert.Moe.Route.InRange (Cert.KernelIdeal.Tab.eflat tok) := by
  intro i
  unfold Cert.KernelIdeal.Tab.eflat shapeCast
  exact tab_range tok _

end Cert.Moe.ExpertRange

end
-- ==== Proof.KValue.lean ====
/-
  The kernel program's result is the common form: token (b, s)'s row is gathered from the padded output at the token's padded row, which holds the gated unit of the padded token row (the token's own row, by the source table) over the weight slices of the row's tile (the token's own expert, by the tile table).
-/
import proofs.«400137_j63582695850549_3_alg».proof.Proof.Gen.KernelIdeal.Frame
import proofs.«400137_j63582695850549_3_alg».proof.Proof.Gen.ReferenceIdeal
import proofs.«400137_j63582695850549_3_alg».proof.Proof.Spec
import proofs.«400137_j63582695850549_3_alg».proof.Proof.Tables
import proofs.«400137_j63582695850549_3_alg».proof.Proof.KHost
import proofs.«400137_j63582695850549_3_alg».proof.Proof.KBlocks
import proofs.«400137_j63582695850549_3_alg».proof.Proof.KTail
import proofs.«400137_j63582695850549_3_alg».proof.Proof.RouteDefs
import proofs.«400137_j63582695850549_3_alg».proof.Proof.RouteMain
import proofs.«400137_j63582695850549_3_alg».proof.Proof.ExpertRange
import proofs.«400137_j63582695850549_3_alg».proof.Proof.LibScatterGatherRows
import proofs.«400137_j63582695850549_3_alg».proof.Proof.LibIndexWords
import Idealize.ShloMosaic.Lib.Pipeline.Value
import Idealize.ShloMosaic.Lib.ValueLayout

noncomputable section

namespace Cert.Moe.KValue

open Idealize.ShloMosaic Idealize.ShloMosaic.ValueIdx Idealize.SL.Sem Cert.KernelIdeal Cert.KernelIdeal.Gen
open scoped BigOperators

/-! ## Index words of the two row gathers -/

/-- The wrap of a negative index word, at one position where the word is not negative, is the word. -/
theorem wrap_at_of_nonneg {s : Shape} (x zero n : IVec s 32) (i : s.Idx) (hz : zero i = 0#32)
    (hx : 0 ≤ (x i).toInt) : select (cmpi .slt x zero) (addi x n) x i = x i := by
  show Scalar.select (IntOp.cmpi .slt (x i) (zero i)) (IntOp.addi (x i) (n i)) (x i) = x i
  rw [hz]
  exact Cert.LibIndexWords.wrap_of_nonneg (x i) (n i) hx

/-- An index column of 16384 rows read at row `k` is the index vector at `k`. -/
theorem col16384_apply (idx : IVec S16384 32) (k : Fin 16384) : Tab.col16384 idx (ix2 k 0) = idx (ix1 k) := by
  unfold Tab.col16384
  refine broadcastInDim_apply _ _ idx (ix2 k 0) (ix1 k) (fun a => ?_)
  match a with
  | ⟨0, _⟩ => rfl

/-- An index column of 17408 rows read at row `k` is the index vector at `k`. -/
theorem col17408_apply (idx : IVec S17408 32) (k : Fin 17408) : Tab.col17408 idx (ix2 k 0) = idx (ix1 k) := by
  unfold Tab.col17408
  refine broadcastInDim_apply _ _ idx (ix2 k 0) (ix1 k) (fun a => ?_)
  match a with
  | ⟨0, _⟩ => rfl

/-- The final gather's index column at token `i` is the token's padded-row word: the word is below 17408, so
    it is not negative and the wrap leaves it alone. -/
theorem posCol_apply (e : IVec S16384 32) (hE : Route.InRange e) (i : Fin 16384) :
    Tab.posCol e (ix2 i 0) = Tab.posOfToken e (ix1 i) := by
  have hlt := Route.pos_lt e hE i
  unfold Tab.posCol
  rw [col16384_apply]
  unfold Tab.wrap16384
  refine wrap_at_of_nonneg _ _ _ _ rfl ?_
  generalize Tab.posOfToken e (ix1 i) = w at hlt
  rw [BitVec.toInt_eq_toNat_of_lt (by omega)]
  exact Int.natCast_nonneg _

/-- The source gather's index column at a padded row whose source word is not negative is that word. -/
theorem srcCol_apply (e : IVec S16384 32) (P : Fin 17408) (h0 : 0 ≤ (Tab.srcRow e (ix1 P)).toInt) :
    Tab.srcCol e (ix2 P 0) = Tab.srcRow e (ix1 P) := by
  unfold Tab.srcCol
  rw [col17408_apply]
  unfold Tab.wrap17408
  exact wrap_at_of_nonneg _ _ _ _ rfl h0

/-! ## The padded token array, row by row -/

/-- Row `4096 b + s` of the extended token table is token (b, s)'s row: the row lies in the first piece of the
    concatenation, narrowing extended reals changes nothing, and the reshape keeps the row-major position. -/
theorem xExt_apply (x : FVec Ideal S4x4096x2048 .f32) (b : Fin 4) (s : Fin 4096) (k : Fin 2048)
    (hq : b.val * 4096 + s.val < 16385) :
    KHost.xExt (F := Ideal) x (ix2 (⟨b.val * 4096 + s.val, hq⟩ : Fin 16385) k) = x (ix3 b s k) := by
  have hb := b.isLt
  have hs := s.isLt
  unfold KHost.xExt
  refine (concatenate_pair_apply_left (t := S16385x2048) (s₁ := S16384x2048) (s₂ := S1x2048) (0 : Fin 2) _ _ _
    (ix2 (⟨b.val * 4096 + s.val, hq⟩ : Fin 16385) k) rfl
    (ix2 (⟨b.val * 4096 + s.val, by omega⟩ : Fin 16384) k) (fun a => ?_)).trans ?_
  · match a with
    | ⟨0, _⟩ => rfl
    | ⟨1, _⟩ => rfl
  · show shapeCast S16384x2048 x _ (ix2 (⟨b.val * 4096 + s.val, _⟩ : Fin 16384) k) = x (ix3 b s k)
    exact shapeCast_apply x _ _ _ (by
      rw [Shape.rowMajor_val_three, Shape.rowMajor_val_two]
      rfl)

/-- The row gather of the extended table at a padded row whose index word, read signed, is the row number `q`:
    the clamp leaves `q` alone. -/
theorem gatherExt_apply (t : FVec Ideal S16385x2048 .bf16) (src : IVec S17408x1 32) (P : Fin 17408) (k : Fin 2048)
    (q : ℕ) (hq : q < 16385) (hsrc : (src (ix2 P 0)).toInt = (q : ℤ)) :
    (Host.gather gather_S16385x2048_S17408x1_S17408x2048_1_0_n_n_0_1_12048 t src : FVec Ideal S17408x2048 .bf16) (ix2 P k)
      = t (ix2 (⟨q, hq⟩ : Fin 16385) k) := by
  rw [Cert.LibScatterGatherRows.gather_rows_ideal gather_S16385x2048_S17408x1_S17408x2048_1_0_n_n_0_1_12048
    rfl rfl rfl rfl rfl t src P k (by norm_num)]
  refine congrArg (fun r => t (ix2 r k)) ?_
  exact Cert.LibIndexWords.clamp_fin_of_eq _ 16385 (⟨q, hq⟩ : Fin 16385) hsrc _

/-! ## The kernel's value -/

/-- The padded intermediate read at padded row `n`, column `d`. -/
theorem outPadded_apply (xp : FVec Ideal S17408x2048 .bf16) (gid : IVec S68 32) (wg wu wd : FVec Ideal S4x2048x2048 .f32)
    (n : ℕ) (hn : n < 17408) (d : Fin 2048) (h : n / 256 < 68) :
    Cert.Moe.outPadded xp gid wg wu wd (ix2 (⟨n, hn⟩ : Fin 17408) d)
      = Cert.Moe.mlp (fun k => xp (ix2 (⟨n, hn⟩ : Fin 17408) k))
          (fun f k => wg (ix3 (Cert.Moe.expertOf (gid (ix1 (⟨n / 256, h⟩ : Fin 68)))) f k))
          (fun f k => wu (ix3 (Cert.Moe.expertOf (gid (ix1 (⟨n / 256, h⟩ : Fin 68)))) f k))
          (fun f k => wd (ix3 (Cert.Moe.expertOf (gid (ix1 (⟨n / 256, h⟩ : Fin 68)))) f k)) d := rfl

/-- The whole result read at token (b, s), column `d`. -/
theorem G_apply (x : FVec Ideal S4x4096x2048 .f32) (E : IVec S4x4096 32) (wg wu wd : FVec Ideal S4x2048x2048 .f32)
    (b : Fin 4) (s : Fin 4096) (d : Fin 2048) :
    Cert.Moe.G x E wg wu wd (ix3 b s d)
      = Cert.Moe.mlp (fun k => x (ix3 b s k))
          (fun f k => wg (ix3 (Cert.Moe.expertOf (E (ix2 b s))) f k))
          (fun f k => wu (ix3 (Cert.Moe.expertOf (E (ix2 b s))) f k))
          (fun f k => wd (ix3 (Cert.Moe.expertOf (E (ix2 b s))) f k)) d := rfl

/-- The tail at token (b, s), column d, when the index column's word at the token, read signed, is the row number
    `n`: the padded output at row `n`, column d. The reshape keeps the row-major position and the clamp leaves
    `n` alone. -/
theorem tailOut_apply (op : FVec Ideal S17408x2048 .f32) (col : IVec S16384x1 32)
    (b : Fin 4) (s : Fin 4096) (d : Fin 2048) (hi : b.val * 4096 + s.val < 16384)
    (n : ℕ) (hn : n < 17408) (hcol : (col (ix2 (⟨b.val * 4096 + s.val, hi⟩ : Fin 16384) 0)).toInt = (n : ℤ)) :
    KTail.tailOut (F := Ideal) op col (ix3 b s d) = op (ix2 (⟨n, hn⟩ : Fin 17408) d) := by
  unfold KTail.tailOut
  refine (shapeCast_apply _ _ (ix3 b s d) (ix2 (⟨b.val * 4096 + s.val, hi⟩ : Fin 16384) d) (by
    rw [Shape.rowMajor_val_three, Shape.rowMajor_val_two]
    rfl)).trans ?_
  rw [Cert.LibScatterGatherRows.gather_rows_ideal gather_S17408x2048_S16384x1_S16384x2048_1_0_n_n_0_1_12048
    rfl rfl rfl rfl rfl op col _ d (by norm_num)]
  refine congrArg (fun r => op (ix2 r d)) ?_
  exact Cert.LibIndexWords.clamp_fin_of_eq _ 17408 (⟨n, hn⟩ : Fin 17408) hcol _

/-- The common form, for any expert words `e` in range whose flat vector reads the [4, 4096] array `E` in
    row-major order. -/
theorem core (x : FVec Ideal S4x4096x2048 .f32) (e : IVec S16384 32) (hE : Route.InRange e) (E : IVec S4x4096 32)
    (he : ∀ (b : Fin 4) (s : Fin 4096),
      e (ix1 (⟨b.val * 4096 + s.val, by have := b.isLt; have := s.isLt; omega⟩ : Fin 16384)) = E (ix2 b s))
    (wg wu wd : FVec Ideal S4x2048x2048 .f32) :
    KTail.tailOut (F := Ideal) (Cert.Moe.outPadded (KHost.xPadded (F := Ideal) x e) (Tab.gid e) wg wu wd) (Tab.posCol e)
      = Cert.Moe.G x E wg wu wd := by
  funext j
  obtain ⟨b, s, d, rfl⟩ : ∃ (b : Fin 4) (s : Fin 4096) (d : Fin 2048), j = ix3 b s d := ⟨j 0, j 1, j 2, eq_ix3 j⟩
  have hb := b.isLt
  have hs := s.isLt
  have hi : b.val * 4096 + s.val < 16384 := by omega
  -- the routing facts at this token, with the token's padded-row word named `w`
  have hp := Route.pos_lt e hE ⟨b.val * 4096 + s.val, hi⟩
  have hsrc := fun h => Route.src_pos e hE ⟨b.val * 4096 + s.val, hi⟩ h
  have hgid := fun h => Route.gid_pos e hE ⟨b.val * 4096 + s.val, hi⟩ h
  have hcol := posCol_apply e hE ⟨b.val * 4096 + s.val, hi⟩
  generalize Tab.posOfToken e (ix1 (⟨b.val * 4096 + s.val, hi⟩ : Fin 16384)) = w at hp hsrc hgid hcol
  have hw : w.toInt = (w.toNat : ℤ) := BitVec.toInt_eq_toNat_of_lt (by omega)
  have hP68 : w.toNat / 256 < 68 := by omega
  have hsrc' := hsrc hp
  have hofNat : (BitVec.ofNat 32 (b.val * 4096 + s.val)).toInt = ((b.val * 4096 + s.val : ℕ) : ℤ) :=
    Cert.LibIndexWords.toInt_ofNat_of_lt _ (by omega)
  rw [tailOut_apply _ _ b s d hi w.toNat hp (by rw [hcol, hw]), outPadded_apply _ _ _ _ _ w.toNat hp d hP68, G_apply]
  -- the tile of the token's padded row carries the token's expert
  have hx : Cert.Moe.expertOf (Tab.gid e (ix1 (⟨w.toNat / 256, hP68⟩ : Fin 68))) = Cert.Moe.expertOf (E (ix2 b s)) := by
    rw [hgid hP68]
    unfold Route.ex
    rw [he b s]
  -- the token's padded row of the padded token array is the token's row
  have hA : (fun k : Fin 2048 => KHost.xPadded (F := Ideal) x e (ix2 (⟨w.toNat, hp⟩ : Fin 17408) k))
      = fun k => x (ix3 b s k) := by
    funext k
    unfold KHost.xPadded
    refine (gatherExt_apply _ _ _ k (b.val * 4096 + s.val) (by omega) ?_).trans (xExt_apply x b s k _)
    rw [srcCol_apply e _ (by rw [hsrc']; exact hofNat ▸ Int.natCast_nonneg _), hsrc']
    exact hofNat
  rw [hx, hA]

variable (m : (ℓ : Loc nD τ sig) → Buf (Elt Ideal) ℓ)

theorem kernel_value (hO : Ok (F := Ideal) m) (c : Dev nD) :
    Cert.Moe.KTail.tailOut (F := Ideal) ((dats (F := Ideal) m hO 0 c).arrAt 4 (cfgM m hO).N : FVec Ideal S17408x2048 .f32) (Tab.posCol (Tab.eflat (m ((c.tc : Thread nD τ).loc main_arg1))))
      = Cert.Moe.G (m ((c.tc : Thread nD τ).loc main_arg0)) (Tab.expertIds (m ((c.tc : Thread nD τ).loc main_arg1)))
          (m ((c.tc : Thread nD τ).loc main_arg2)) (m ((c.tc : Thread nD τ).loc main_arg3)) (m ((c.tc : Thread nD τ).loc main_arg4)) := by
  obtain rfl : c = 0 := Subsingleton.elim _ _
  rw [Cert.Moe.KBlocks.final m hO 0, KHost.V_v69, KHost.tbl_eq, KHost.V_v81, KHost.V_v82, KHost.V_v83]
  exact core _ _ (ExpertRange.eflat_inRange _) _ (ExpertRange.eflat_apply _) _ _ _

end Cert.Moe.KValue

end
-- ==== Proof.RefRun.lean ====
/-
  The reference program's run: every weakly fair execution terminates without a fault, its result buffer holding the reference's result term of the arguments, the arguments unchanged.
-/
import proofs.«400137_j63582695850549_3_alg».proof.Proof.Gen.ReferenceIdeal
import proofs.«400137_j63582695850549_3_alg».proof.Proof.RefTerm
import Idealize.ShloMosaic.Lib.StableHlo.Run
import Idealize.ShloMosaic.Lib.ValueIdx

noncomputable section

namespace Cert.Moe.RefRun

open Idealize.ShloMosaic Idealize.ShloMosaic.ValueIdx Idealize.SL.Sem Cert.ReferenceIdeal
open scoped BigOperators

section Line

open Idealize.ShloMosaic.StableHlo Idealize.ShloMosaic.TcCoe Cert.ReferenceIdeal.Facts₀

variable {F : FTy → Type} [FloatOps F]

/-- The first sixty statements of the program as one straight line of operations, each called function's
    operations standing in its call's place over that call's buffers. -/
abbrev ops0 : List (HloOp τ sig (Elt F)) :=
  [ StableHlo.nullary main_c (constantI S_ 32 0#32),
    StableHlo.nullary main_c_0 (constantI S_ 32 99999#32),
    StableHlo.TRef.unary (.of main_c : StableHlo.TRef sig ⟨S_, .i32⟩) main_call0.v0 id,
    StableHlo.TRef.unary main_call0.v0 main_call0.v1 (broadcastInDim S4x4096 ![] bcast_S_S4x4096),
    StableHlo.TRef.binary main_call0.v1 (.of main_arg1 : StableHlo.TRef sig ⟨S4x4096, .i32⟩) main_call0.v2 maxsi,
    StableHlo.TRef.unary (.of main_c_0 : StableHlo.TRef sig ⟨S_, .i32⟩) main_call0.v3 id,
    StableHlo.TRef.unary main_call0.v3 main_call0.v4 (broadcastInDim S4x4096 ![] bcast_S_S4x4096),
    StableHlo.TRef.binary main_call0.v4 main_call0.v2 main_call0.v5 minsi,
    StableHlo.nullary main_c_1 (constantI S_ 32 25000#32),
    StableHlo.TRef.unary (.of main_c_1 : StableHlo.TRef sig ⟨S_, .i32⟩) main_call1.v0 id,
    StableHlo.TRef.unary main_call1.v0 main_call1.v1 (broadcastInDim S4x4096 ![] bcast_S_S4x4096),
    StableHlo.TRef.binary (.of main_v0 : StableHlo.TRef sig ⟨S4x4096, .i32⟩) main_call1.v1 main_call1.v2 Host.divsi,
    StableHlo.TRef.unary (.of main_v0 : StableHlo.TRef sig ⟨S4x4096, .i32⟩) main_call1.v3 signi,
    StableHlo.TRef.unary main_call1.v0 main_call1.v4 signi,
    StableHlo.TRef.unary main_call1.v4 main_call1.v5 (broadcastInDim S4x4096 ![] bcast_S_S4x4096),
    StableHlo.TRef.binary main_call1.v3 main_call1.v5 main_call1.v6 (cmpi .ne),
    StableHlo.TRef.unary main_call1.v0 main_call1.v7 (broadcastInDim S4x4096 ![] bcast_S_S4x4096),
    StableHlo.TRef.binary (.of main_v0 : StableHlo.TRef sig ⟨S4x4096, .i32⟩) main_call1.v7 main_call1.v8 Host.remsi,
    StableHlo.TRef.nullary main_call1.c (constantI S_ 32 0#32),
    StableHlo.TRef.unary main_call1.c main_call1.v9 (broadcastInDim S4x4096 ![] bcast_S_S4x4096),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S4x4096 ![] bcast_S_S4x4096),
    StableHlo.TRef.binary main_call1.v2 main_call1.v12 main_call1.v13 subi,
    StableHlo.TRef.ternary main_call1.v11 main_call1.v13 main_call1.v2 main_call1.call0.v0 select,
    StableHlo.nullary main_c_2 (constantI S_ 32 3#32),
    StableHlo.unary main_c_2 main_v2 (broadcastInDim S4x4096 ![] bcast_S_S4x4096 : (⟨S_, .i32⟩ : BufTy).Contents (Elt F) → (⟨S4x4096, .i32⟩ : BufTy).Contents (Elt F)),
    StableHlo.binary main_v1 main_v2 main_v3 (minsi : (⟨S4x4096, .i32⟩ : BufTy).Contents (Elt F) → (⟨S4x4096, .i32⟩ : BufTy).Contents (Elt F) → (⟨S4x4096, .i32⟩ : BufTy).Contents (Elt F)),
    StableHlo.nullary main_cst (constant S_ .f32 0x00000000#32),
    StableHlo.unary main_cst main_v4 (broadcastInDim S4x4096x2048 ![] bcast_S_S4x4096x2048 : (⟨S_, .f32⟩ : BufTy).Contents (Elt F) → (⟨S4x4096x2048, .f32⟩ : BufTy).Contents (Elt F)),
    StableHlo.unary main_arg2 main_v5 ((extractStridedSlice S1x2048x2048 ![0, 0, 0] · slices_S4x2048x2048_S1x2048x2048_0_0_0) : (⟨S4x2048x2048, .f32⟩ : BufTy).Contents (Elt F) → (⟨S1x2048x2048, .f32⟩ : BufTy).Contents (Elt F)),
    StableHlo.reshape main_v5 main_v6 rfl shapeCasts_S1x2048x2048_S2048x2048,
    StableHlo.binary main_arg0 main_v6 main_v7 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.TRef.unary (.of main_v7 : StableHlo.TRef sig ⟨S4x4096x2048, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S4x4096x2048 ![] bcast_S_S4x4096x2048),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S4x4096x2048 ![] bcast_S_S4x4096x2048),
    StableHlo.TRef.binary main_call2.v4 main_call2.v3 main_call2.v5 Host.divf,
    StableHlo.TRef.binary (.of main_v7 : StableHlo.TRef sig ⟨S4x4096x2048, .f32⟩) main_call2.v5 main_call2.v6 mulf,
    StableHlo.unary main_arg3 main_v9 ((extractStridedSlice S1x2048x2048 ![0, 0, 0] · slices_S4x2048x2048_S1x2048x2048_0_0_0) : (⟨S4x2048x2048, .f32⟩ : BufTy).Contents (Elt F) → (⟨S1x2048x2048, .f32⟩ : BufTy).Contents (Elt F)),
    StableHlo.reshape main_v9 main_v10 rfl shapeCasts_S1x2048x2048_S2048x2048,
    StableHlo.binary main_arg0 main_v10 main_v11 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.binary main_v8 main_v11 main_v12 (mulf : (⟨S4x4096x2048, .f32⟩ : BufTy).Contents (Elt F) → (⟨S4x4096x2048, .f32⟩ : BufTy).Contents (Elt F) → (⟨S4x4096x2048, .f32⟩ : BufTy).Contents (Elt F)),
    StableHlo.unary main_arg4 main_v13 ((extractStridedSlice S1x2048x2048 ![0, 0, 0] · slices_S4x2048x2048_S1x2048x2048_0_0_0) : (⟨S4x2048x2048, .f32⟩ : BufTy).Contents (Elt F) → (⟨S1x2048x2048, .f32⟩ : BufTy).Contents (Elt F)),
    StableHlo.reshape main_v13 main_v14 rfl shapeCasts_S1x2048x2048_S2048x2048,
    StableHlo.binary main_v12 main_v14 main_v15 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.nullary main_c_3 (constantI S_ 32 0#32),
    StableHlo.unary main_c_3 main_v16 (broadcastInDim S4x4096 ![] bcast_S_S4x4096 : (⟨S_, .i32⟩ : BufTy).Contents (Elt F) → (⟨S4x4096, .i32⟩ : BufTy).Contents (Elt F)),
    StableHlo.binary main_v3 main_v16 main_v17 (cmpi .eq : (⟨S4x4096, .i32⟩ : BufTy).Contents (Elt F) → (⟨S4x4096, .i32⟩ : BufTy).Contents (Elt F) → (⟨S4x4096, .i1⟩ : BufTy).Contents (Elt F)),
    StableHlo.unary main_v17 main_v18 (broadcastInDim S4x4096x1 ![0, 1] bcast_S4x4096_S4x4096x1_0_1 : (⟨S4x4096, .i1⟩ : BufTy).Contents (Elt F) → (⟨S4x4096x1, .i1⟩ : BufTy).Contents (Elt F)),
    StableHlo.TRef.unary (.of main_v18 : StableHlo.TRef sig ⟨S4x4096x1, .i1⟩) main_call3.v0 (broadcastInDim S4x4096x2048 ![0, 1, 2] bcast_S4x4096x1_S4x4096x2048_0_1_2),
    StableHlo.TRef.ternary main_call3.v0 (.of main_v15 : StableHlo.TRef sig ⟨S4x4096x2048, .f32⟩) (.of main_v4 : StableHlo.TRef sig ⟨S4x4096x2048, .f32⟩) main_call3.v1 select,
    StableHlo.unary main_arg2 main_v20 ((extractStridedSlice S1x2048x2048 ![1, 0, 0] · slices_S4x2048x2048_S1x2048x2048_1_0_0) : (⟨S4x2048x2048, .f32⟩ : BufTy).Contents (Elt F) → (⟨S1x2048x2048, .f32⟩ : BufTy).Contents (Elt F)),
    StableHlo.reshape main_v20 main_v21 rfl shapeCasts_S1x2048x2048_S2048x2048,
    StableHlo.binary main_arg0 main_v21 main_v22 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.TRef.unary (.of main_v22 : StableHlo.TRef sig ⟨S4x4096x2048, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S4x4096x2048 ![] bcast_S_S4x4096x2048),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S4x4096x2048 ![] bcast_S_S4x4096x2048),
    StableHlo.TRef.binary main_call4.v4 main_call4.v3 main_call4.v5 Host.divf,
    StableHlo.TRef.binary (.of main_v22 : StableHlo.TRef sig ⟨S4x4096x2048, .f32⟩) main_call4.v5 main_call4.v6 mulf,
    StableHlo.unary main_arg3 main_v24 ((extractStridedSlice S1x2048x2048 ![1, 0, 0] · slices_S4x2048x2048_S1x2048x2048_1_0_0) : (⟨S4x2048x2048, .f32⟩ : BufTy).Contents (Elt F) → (⟨S1x2048x2048, .f32⟩ : BufTy).Contents (Elt F)),
    StableHlo.reshape main_v24 main_v25 rfl shapeCasts_S1x2048x2048_S2048x2048,
    StableHlo.binary main_arg0 main_v25 main_v26 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.binary main_v23 main_v26 main_v27 (mulf : (⟨S4x4096x2048, .f32⟩ : BufTy).Contents (Elt F) → (⟨S4x4096x2048, .f32⟩ : BufTy).Contents (Elt F) → (⟨S4x4096x2048, .f32⟩ : BufTy).Contents (Elt F)),
    StableHlo.unary main_arg4 main_v28 ((extractStridedSlice S1x2048x2048 ![1, 0, 0] · slices_S4x2048x2048_S1x2048x2048_1_0_0) : (⟨S4x2048x2048, .f32⟩ : BufTy).Contents (Elt F) → (⟨S1x2048x2048, .f32⟩ : BufTy).Contents (Elt F)),
    StableHlo.reshape main_v28 main_v29 rfl shapeCasts_S1x2048x2048_S2048x2048,
    StableHlo.binary main_v27 main_v29 main_v30 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.nullary main_c_4 (constantI S_ 32 1#32),
    StableHlo.unary main_c_4 main_v31 (broadcastInDim S4x4096 ![] bcast_S_S4x4096 : (⟨S_, .i32⟩ : BufTy).Contents (Elt F) → (⟨S4x4096, .i32⟩ : BufTy).Contents (Elt F)),
    StableHlo.binary main_v3 main_v31 main_v32 (cmpi .eq : (⟨S4x4096, .i32⟩ : BufTy).Contents (Elt F) → (⟨S4x4096, .i32⟩ : BufTy).Contents (Elt F) → (⟨S4x4096, .i1⟩ : BufTy).Contents (Elt F)),
    StableHlo.unary main_v32 main_v33 (broadcastInDim S4x4096x1 ![0, 1] bcast_S4x4096_S4x4096x1_0_1 : (⟨S4x4096, .i1⟩ : BufTy).Contents (Elt F) → (⟨S4x4096x1, .i1⟩ : BufTy).Contents (Elt F)),
    StableHlo.TRef.unary (.of main_v33 : StableHlo.TRef sig ⟨S4x4096x1, .i1⟩) main_call5.v0 (broadcastInDim S4x4096x2048 ![0, 1, 2] bcast_S4x4096x1_S4x4096x2048_0_1_2),
    StableHlo.TRef.ternary main_call5.v0 (.of main_v30 : StableHlo.TRef sig ⟨S4x4096x2048, .f32⟩) (.of main_v19 : StableHlo.TRef sig ⟨S4x4096x2048, .f32⟩) main_call5.v1 select,
    StableHlo.unary main_arg2 main_v35 ((extractStridedSlice S1x2048x2048 ![2, 0, 0] · slices_S4x2048x2048_S1x2048x2048_2_0_0) : (⟨S4x2048x2048, .f32⟩ : BufTy).Contents (Elt F) → (⟨S1x2048x2048, .f32⟩ : BufTy).Contents (Elt F)),
    StableHlo.reshape main_v35 main_v36 rfl shapeCasts_S1x2048x2048_S2048x2048,
    StableHlo.binary main_arg0 main_v36 main_v37 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.TRef.unary (.of main_v37 : StableHlo.TRef sig ⟨S4x4096x2048, .f32⟩) main_call6.v0 Host.negf,
    StableHlo.TRef.unary main_call6.v0 main_call6.v1 Host.exp,
    StableHlo.TRef.nullary main_call6.cst (constant S_ .f32 0x3F800000#32),
    StableHlo.TRef.unary main_call6.cst main_call6.v2 (broadcastInDim S4x4096x2048 ![] bcast_S_S4x4096x2048),
    StableHlo.TRef.binary main_call6.v2 main_call6.v1 main_call6.v3 addf,
    StableHlo.TRef.nullary main_call6.cst_0 (constant S_ .f32 0x3F800000#32),
    StableHlo.TRef.unary main_call6.cst_0 main_call6.v4 (broadcastInDim S4x4096x2048 ![] bcast_S_S4x4096x2048),
    StableHlo.TRef.binary main_call6.v4 main_call6.v3 main_call6.v5 Host.divf,
    StableHlo.TRef.binary (.of main_v37 : StableHlo.TRef sig ⟨S4x4096x2048, .f32⟩) main_call6.v5 main_call6.v6 mulf,
    StableHlo.unary main_arg3 main_v39 ((extractStridedSlice S1x2048x2048 ![2, 0, 0] · slices_S4x2048x2048_S1x2048x2048_2_0_0) : (⟨S4x2048x2048, .f32⟩ : BufTy).Contents (Elt F) → (⟨S1x2048x2048, .f32⟩ : BufTy).Contents (Elt F)),
    StableHlo.reshape main_v39 main_v40 rfl shapeCasts_S1x2048x2048_S2048x2048,
    StableHlo.binary main_arg0 main_v40 main_v41 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.binary main_v38 main_v41 main_v42 (mulf : (⟨S4x4096x2048, .f32⟩ : BufTy).Contents (Elt F) → (⟨S4x4096x2048, .f32⟩ : BufTy).Contents (Elt F) → (⟨S4x4096x2048, .f32⟩ : BufTy).Contents (Elt F)),
    StableHlo.unary main_arg4 main_v43 ((extractStridedSlice S1x2048x2048 ![2, 0, 0] · slices_S4x2048x2048_S1x2048x2048_2_0_0) : (⟨S4x2048x2048, .f32⟩ : BufTy).Contents (Elt F) → (⟨S1x2048x2048, .f32⟩ : BufTy).Contents (Elt F)),
    StableHlo.reshape main_v43 main_v44 rfl shapeCasts_S1x2048x2048_S2048x2048,
    StableHlo.binary main_v42 main_v44 main_v45 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.nullary main_c_5 (constantI S_ 32 2#32),
    StableHlo.unary main_c_5 main_v46 (broadcastInDim S4x4096 ![] bcast_S_S4x4096 : (⟨S_, .i32⟩ : BufTy).Contents (Elt F) → (⟨S4x4096, .i32⟩ : BufTy).Contents (Elt F)),
    StableHlo.binary main_v3 main_v46 main_v47 (cmpi .eq : (⟨S4x4096, .i32⟩ : BufTy).Contents (Elt F) → (⟨S4x4096, .i32⟩ : BufTy).Contents (Elt F) → (⟨S4x4096, .i1⟩ : BufTy).Contents (Elt F)),
    StableHlo.unary main_v47 main_v48 (broadcastInDim S4x4096x1 ![0, 1] bcast_S4x4096_S4x4096x1_0_1 : (⟨S4x4096, .i1⟩ : BufTy).Contents (Elt F) → (⟨S4x4096x1, .i1⟩ : BufTy).Contents (Elt F)),
    StableHlo.TRef.unary (.of main_v48 : StableHlo.TRef sig ⟨S4x4096x1, .i1⟩) main_call7.v0 (broadcastInDim S4x4096x2048 ![0, 1, 2] bcast_S4x4096x1_S4x4096x2048_0_1_2),
    StableHlo.TRef.ternary main_call7.v0 (.of main_v45 : StableHlo.TRef sig ⟨S4x4096x2048, .f32⟩) (.of main_v34 : StableHlo.TRef sig ⟨S4x4096x2048, .f32⟩) main_call7.v1 select,
    StableHlo.unary main_arg2 main_v50 ((extractStridedSlice S1x2048x2048 ![3, 0, 0] · slices_S4x2048x2048_S1x2048x2048_3_0_0) : (⟨S4x2048x2048, .f32⟩ : BufTy).Contents (Elt F) → (⟨S1x2048x2048, .f32⟩ : BufTy).Contents (Elt F)),
    StableHlo.reshape main_v50 main_v51 rfl shapeCasts_S1x2048x2048_S2048x2048 ]

/-- The remaining statements, likewise. -/
abbrev ops1 : List (HloOp τ sig (Elt F)) :=
  [ StableHlo.binary main_arg0 main_v51 main_v52 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.TRef.unary (.of main_v52 : StableHlo.TRef sig ⟨S4x4096x2048, .f32⟩) main_call8.v0 Host.negf,
    StableHlo.TRef.unary main_call8.v0 main_call8.v1 Host.exp,
    StableHlo.TRef.nullary main_call8.cst (constant S_ .f32 0x3F800000#32),
    StableHlo.TRef.unary main_call8.cst main_call8.v2 (broadcastInDim S4x4096x2048 ![] bcast_S_S4x4096x2048),
    StableHlo.TRef.binary main_call8.v2 main_call8.v1 main_call8.v3 addf,
    StableHlo.TRef.nullary main_call8.cst_0 (constant S_ .f32 0x3F800000#32),
    StableHlo.TRef.unary main_call8.cst_0 main_call8.v4 (broadcastInDim S4x4096x2048 ![] bcast_S_S4x4096x2048),
    StableHlo.TRef.binary main_call8.v4 main_call8.v3 main_call8.v5 Host.divf,
    StableHlo.TRef.binary (.of main_v52 : StableHlo.TRef sig ⟨S4x4096x2048, .f32⟩) main_call8.v5 main_call8.v6 mulf,
    StableHlo.unary main_arg3 main_v54 ((extractStridedSlice S1x2048x2048 ![3, 0, 0] · slices_S4x2048x2048_S1x2048x2048_3_0_0) : (⟨S4x2048x2048, .f32⟩ : BufTy).Contents (Elt F) → (⟨S1x2048x2048, .f32⟩ : BufTy).Contents (Elt F)),
    StableHlo.reshape main_v54 main_v55 rfl shapeCasts_S1x2048x2048_S2048x2048,
    StableHlo.binary main_arg0 main_v55 main_v56 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.binary main_v53 main_v56 main_v57 (mulf : (⟨S4x4096x2048, .f32⟩ : BufTy).Contents (Elt F) → (⟨S4x4096x2048, .f32⟩ : BufTy).Contents (Elt F) → (⟨S4x4096x2048, .f32⟩ : BufTy).Contents (Elt F)),
    StableHlo.unary main_arg4 main_v58 ((extractStridedSlice S1x2048x2048 ![3, 0, 0] · slices_S4x2048x2048_S1x2048x2048_3_0_0) : (⟨S4x2048x2048, .f32⟩ : BufTy).Contents (Elt F) → (⟨S1x2048x2048, .f32⟩ : BufTy).Contents (Elt F)),
    StableHlo.reshape main_v58 main_v59 rfl shapeCasts_S1x2048x2048_S2048x2048,
    StableHlo.binary main_v57 main_v59 main_v60 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.nullary main_c_6 (constantI S_ 32 3#32),
    StableHlo.unary main_c_6 main_v61 (broadcastInDim S4x4096 ![] bcast_S_S4x4096 : (⟨S_, .i32⟩ : BufTy).Contents (Elt F) → (⟨S4x4096, .i32⟩ : BufTy).Contents (Elt F)),
    StableHlo.binary main_v3 main_v61 main_v62 (cmpi .eq : (⟨S4x4096, .i32⟩ : BufTy).Contents (Elt F) → (⟨S4x4096, .i32⟩ : BufTy).Contents (Elt F) → (⟨S4x4096, .i1⟩ : BufTy).Contents (Elt F)),
    StableHlo.unary main_v62 main_v63 (broadcastInDim S4x4096x1 ![0, 1] bcast_S4x4096_S4x4096x1_0_1 : (⟨S4x4096, .i1⟩ : BufTy).Contents (Elt F) → (⟨S4x4096x1, .i1⟩ : BufTy).Contents (Elt F)),
    StableHlo.TRef.unary (.of main_v63 : StableHlo.TRef sig ⟨S4x4096x1, .i1⟩) main_call9.v0 (broadcastInDim S4x4096x2048 ![0, 1, 2] bcast_S4x4096x1_S4x4096x2048_0_1_2),
    StableHlo.TRef.ternary main_call9.v0 (.of main_v60 : StableHlo.TRef sig ⟨S4x4096x2048, .f32⟩) (.of main_v49 : StableHlo.TRef sig ⟨S4x4096x2048, .f32⟩) main_call9.v1 select ]

/-- The whole program as one straight line. -/
abbrev ops : List (HloOp τ sig (Elt F)) := ops0 ++ ops1

/-- Two lines in a row: the contents after the second, from the contents after the first. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, after_cons, after_cons, after_app l₁ l₂]

set_option maxRecDepth 8192 in
set_option maxHeartbeats 4000000 in
/-- The first window is its line: the called functions' definitions unfolded at their calls, sequencing reassociated. -/
theorem main_part0_eq (c : Dev nD) : main_part0 (F := F) c = StableHlo.seq ops0 := by
  simp only [main_part0, fn_clip.body, fn_where.body, fn_floor_divide.body, fn_silu.body, fn_where_0.body, StableHlo.seq,
    bind_assoc, pure_bind] <;> rfl

set_option maxRecDepth 8192 in
set_option maxHeartbeats 4000000 in
/-- The second window is its line. -/
theorem main_part1_eq (c : Dev nD) : main_part1 (F := F) c = StableHlo.seq ops1 := by
  simp only [main_part1, fn_silu.body, fn_where_0.body, StableHlo.seq, bind_assoc, pure_bind] <;> rfl

/-- The program is the whole line. -/
theorem main_eq (c : Dev nD) : main (F := F) c = StableHlo.seq ops := by
  rw [show (ops : List (HloOp τ sig (Elt F))) = ops0 ++ ops1 from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.unary_bufs_sub .., StableHlo.reshape_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.unary_bufs_sub .., StableHlo.reshape_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.unary_bufs_sub .., StableHlo.reshape_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub .., StableHlo.unary_bufs_sub .., StableHlo.reshape_bufs_sub ..⟩

set_option maxRecDepth 8192 in
theorem ops1_sub : (ops1 : List (HloOp τ sig (Elt F))).Forall fun op => op.bufs ⊆ tcRefs τ sig :=
  ⟨StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.binary_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.unary_bufs_sub .., StableHlo.ternary_bufs_sub ..⟩

/-- Every operation of the line touches TensorCore buffers only. -/
theorem ops_sub : (ops : List (HloOp τ sig (Elt F))).Forall fun op => op.bufs ⊆ tcRefs τ sig :=
  List.forall_iff_forall_mem.mpr fun op h => by
    rcases List.mem_append.mp h with h | h
    exacts [List.forall_iff_forall_mem.mp ops0_sub op h, List.forall_iff_forall_mem.mp ops1_sub op h]

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Every operation of the line determines its results. -/
theorem ops_fresh : ∀ op ∈ (ops : List (HloOp τ sig (Elt F))), op.fresh = ∅ := fun op h => by
  rcases List.mem_append.mp h with h | h
  exacts [List.forall_iff_forall_mem.mp ops0_fresh op h, List.forall_iff_forall_mem.mp ops1_fresh op h]

/-! ### The line in ten stretches -/

/-- The expert words: the token ids clipped, floor-divided by 25000, capped at 3. -/
abbrev sIds : List (HloOp τ sig (Elt F)) :=
  [ StableHlo.nullary main_c (constantI S_ 32 0#32),
    StableHlo.nullary main_c_0 (constantI S_ 32 99999#32),
    StableHlo.TRef.unary (.of main_c : StableHlo.TRef sig ⟨S_, .i32⟩) main_call0.v0 id,
    StableHlo.TRef.unary main_call0.v0 main_call0.v1 (broadcastInDim S4x4096 ![] bcast_S_S4x4096),
    StableHlo.TRef.binary main_call0.v1 (.of main_arg1 : StableHlo.TRef sig ⟨S4x4096, .i32⟩) main_call0.v2 maxsi,
    StableHlo.TRef.unary (.of main_c_0 : StableHlo.TRef sig ⟨S_, .i32⟩) main_call0.v3 id,
    StableHlo.TRef.unary main_call0.v3 main_call0.v4 (broadcastInDim S4x4096 ![] bcast_S_S4x4096),
    StableHlo.TRef.binary main_call0.v4 main_call0.v2 main_call0.v5 minsi,
    StableHlo.nullary main_c_1 (constantI S_ 32 25000#32),
    StableHlo.TRef.unary (.of main_c_1 : StableHlo.TRef sig ⟨S_, .i32⟩) main_call1.v0 id,
    StableHlo.TRef.unary main_call1.v0 main_call1.v1 (broadcastInDim S4x4096 ![] bcast_S_S4x4096),
    StableHlo.TRef.binary (.of main_v0 : StableHlo.TRef sig ⟨S4x4096, .i32⟩) main_call1.v1 main_call1.v2 Host.divsi,
    StableHlo.TRef.unary (.of main_v0 : StableHlo.TRef sig ⟨S4x4096, .i32⟩) main_call1.v3 signi,
    StableHlo.TRef.unary main_call1.v0 main_call1.v4 signi,
    StableHlo.TRef.unary main_call1.v4 main_call1.v5 (broadcastInDim S4x4096 ![] bcast_S_S4x4096),
    StableHlo.TRef.binary main_call1.v3 main_call1.v5 main_call1.v6 (cmpi .ne),
    StableHlo.TRef.unary main_call1.v0 main_call1.v7 (broadcastInDim S4x4096 ![] bcast_S_S4x4096),
    StableHlo.TRef.binary (.of main_v0 : StableHlo.TRef sig ⟨S4x4096, .i32⟩) main_call1.v7 main_call1.v8 Host.remsi,
    StableHlo.TRef.nullary main_call1.c (constantI S_ 32 0#32),
    StableHlo.TRef.unary main_call1.c main_call1.v9 (broadcastInDim S4x4096 ![] bcast_S_S4x4096),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S4x4096 ![] bcast_S_S4x4096),
    StableHlo.TRef.binary main_call1.v2 main_call1.v12 main_call1.v13 subi,
    StableHlo.TRef.ternary main_call1.v11 main_call1.v13 main_call1.v2 main_call1.call0.v0 select,
    StableHlo.nullary main_c_2 (constantI S_ 32 3#32),
    StableHlo.unary main_c_2 main_v2 (broadcastInDim S4x4096 ![] bcast_S_S4x4096 : (⟨S_, .i32⟩ : BufTy).Contents (Elt F) → (⟨S4x4096, .i32⟩ : BufTy).Contents (Elt F)),
    StableHlo.binary main_v1 main_v2 main_v3 (minsi : (⟨S4x4096, .i32⟩ : BufTy).Contents (Elt F) → (⟨S4x4096, .i32⟩ : BufTy).Contents (Elt F) → (⟨S4x4096, .i32⟩ : BufTy).Contents (Elt F)) ]

/-- The zeros the selection starts from. -/
abbrev sZero : List (HloOp τ sig (Elt F)) :=
  [ StableHlo.nullary main_cst (constant S_ .f32 0x00000000#32),
    StableHlo.unary main_cst main_v4 (broadcastInDim S4x4096x2048 ![] bcast_S_S4x4096x2048 : (⟨S_, .f32⟩ : BufTy).Contents (Elt F) → (⟨S4x4096x2048, .f32⟩ : BufTy).Contents (Elt F)) ]

/-- Expert 0's gated unit on every token. -/
abbrev e0 : List (HloOp τ sig (Elt F)) :=
  [ StableHlo.unary main_arg2 main_v5 ((extractStridedSlice S1x2048x2048 ![0, 0, 0] · slices_S4x2048x2048_S1x2048x2048_0_0_0) : (⟨S4x2048x2048, .f32⟩ : BufTy).Contents (Elt F) → (⟨S1x2048x2048, .f32⟩ : BufTy).Contents (Elt F)),
    StableHlo.reshape main_v5 main_v6 rfl shapeCasts_S1x2048x2048_S2048x2048,
    StableHlo.binary main_arg0 main_v6 main_v7 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.TRef.unary (.of main_v7 : StableHlo.TRef sig ⟨S4x4096x2048, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S4x4096x2048 ![] bcast_S_S4x4096x2048),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S4x4096x2048 ![] bcast_S_S4x4096x2048),
    StableHlo.TRef.binary main_call2.v4 main_call2.v3 main_call2.v5 Host.divf,
    StableHlo.TRef.binary (.of main_v7 : StableHlo.TRef sig ⟨S4x4096x2048, .f32⟩) main_call2.v5 main_call2.v6 mulf,
    StableHlo.unary main_arg3 main_v9 ((extractStridedSlice S1x2048x2048 ![0, 0, 0] · slices_S4x2048x2048_S1x2048x2048_0_0_0) : (⟨S4x2048x2048, .f32⟩ : BufTy).Contents (Elt F) → (⟨S1x2048x2048, .f32⟩ : BufTy).Contents (Elt F)),
    StableHlo.reshape main_v9 main_v10 rfl shapeCasts_S1x2048x2048_S2048x2048,
    StableHlo.binary main_arg0 main_v10 main_v11 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.binary main_v8 main_v11 main_v12 (mulf : (⟨S4x4096x2048, .f32⟩ : BufTy).Contents (Elt F) → (⟨S4x4096x2048, .f32⟩ : BufTy).Contents (Elt F) → (⟨S4x4096x2048, .f32⟩ : BufTy).Contents (Elt F)),
    StableHlo.unary main_arg4 main_v13 ((extractStridedSlice S1x2048x2048 ![0, 0, 0] · slices_S4x2048x2048_S1x2048x2048_0_0_0) : (⟨S4x2048x2048, .f32⟩ : BufTy).Contents (Elt F) → (⟨S1x2048x2048, .f32⟩ : BufTy).Contents (Elt F)),
    StableHlo.reshape main_v13 main_v14 rfl shapeCasts_S1x2048x2048_S2048x2048,
    StableHlo.binary main_v12 main_v14 main_v15 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)) ]

/-- Expert 0's rows kept where the expert word is 0. -/
abbrev k0 : List (HloOp τ sig (Elt F)) :=
  [ StableHlo.nullary main_c_3 (constantI S_ 32 0#32),
    StableHlo.unary main_c_3 main_v16 (broadcastInDim S4x4096 ![] bcast_S_S4x4096 : (⟨S_, .i32⟩ : BufTy).Contents (Elt F) → (⟨S4x4096, .i32⟩ : BufTy).Contents (Elt F)),
    StableHlo.binary main_v3 main_v16 main_v17 (cmpi .eq : (⟨S4x4096, .i32⟩ : BufTy).Contents (Elt F) → (⟨S4x4096, .i32⟩ : BufTy).Contents (Elt F) → (⟨S4x4096, .i1⟩ : BufTy).Contents (Elt F)),
    StableHlo.unary main_v17 main_v18 (broadcastInDim S4x4096x1 ![0, 1] bcast_S4x4096_S4x4096x1_0_1 : (⟨S4x4096, .i1⟩ : BufTy).Contents (Elt F) → (⟨S4x4096x1, .i1⟩ : BufTy).Contents (Elt F)),
    StableHlo.TRef.unary (.of main_v18 : StableHlo.TRef sig ⟨S4x4096x1, .i1⟩) main_call3.v0 (broadcastInDim S4x4096x2048 ![0, 1, 2] bcast_S4x4096x1_S4x4096x2048_0_1_2),
    StableHlo.TRef.ternary main_call3.v0 (.of main_v15 : StableHlo.TRef sig ⟨S4x4096x2048, .f32⟩) (.of main_v4 : StableHlo.TRef sig ⟨S4x4096x2048, .f32⟩) main_call3.v1 select ]

/-- Expert 1's gated unit on every token. -/
abbrev e1 : List (HloOp τ sig (Elt F)) :=
  [ StableHlo.unary main_arg2 main_v20 ((extractStridedSlice S1x2048x2048 ![1, 0, 0] · slices_S4x2048x2048_S1x2048x2048_1_0_0) : (⟨S4x2048x2048, .f32⟩ : BufTy).Contents (Elt F) → (⟨S1x2048x2048, .f32⟩ : BufTy).Contents (Elt F)),
    StableHlo.reshape main_v20 main_v21 rfl shapeCasts_S1x2048x2048_S2048x2048,
    StableHlo.binary main_arg0 main_v21 main_v22 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.TRef.unary (.of main_v22 : StableHlo.TRef sig ⟨S4x4096x2048, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S4x4096x2048 ![] bcast_S_S4x4096x2048),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S4x4096x2048 ![] bcast_S_S4x4096x2048),
    StableHlo.TRef.binary main_call4.v4 main_call4.v3 main_call4.v5 Host.divf,
    StableHlo.TRef.binary (.of main_v22 : StableHlo.TRef sig ⟨S4x4096x2048, .f32⟩) main_call4.v5 main_call4.v6 mulf,
    StableHlo.unary main_arg3 main_v24 ((extractStridedSlice S1x2048x2048 ![1, 0, 0] · slices_S4x2048x2048_S1x2048x2048_1_0_0) : (⟨S4x2048x2048, .f32⟩ : BufTy).Contents (Elt F) → (⟨S1x2048x2048, .f32⟩ : BufTy).Contents (Elt F)),
    StableHlo.reshape main_v24 main_v25 rfl shapeCasts_S1x2048x2048_S2048x2048,
    StableHlo.binary main_arg0 main_v25 main_v26 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.binary main_v23 main_v26 main_v27 (mulf : (⟨S4x4096x2048, .f32⟩ : BufTy).Contents (Elt F) → (⟨S4x4096x2048, .f32⟩ : BufTy).Contents (Elt F) → (⟨S4x4096x2048, .f32⟩ : BufTy).Contents (Elt F)),
    StableHlo.unary main_arg4 main_v28 ((extractStridedSlice S1x2048x2048 ![1, 0, 0] · slices_S4x2048x2048_S1x2048x2048_1_0_0) : (⟨S4x2048x2048, .f32⟩ : BufTy).Contents (Elt F) → (⟨S1x2048x2048, .f32⟩ : BufTy).Contents (Elt F)),
    StableHlo.reshape main_v28 main_v29 rfl shapeCasts_S1x2048x2048_S2048x2048,
    StableHlo.binary main_v27 main_v29 main_v30 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)) ]

/-- Expert 1's rows kept where the expert word is 1. -/
abbrev k1 : List (HloOp τ sig (Elt F)) :=
  [ StableHlo.nullary main_c_4 (constantI S_ 32 1#32),
    StableHlo.unary main_c_4 main_v31 (broadcastInDim S4x4096 ![] bcast_S_S4x4096 : (⟨S_, .i32⟩ : BufTy).Contents (Elt F) → (⟨S4x4096, .i32⟩ : BufTy).Contents (Elt F)),
    StableHlo.binary main_v3 main_v31 main_v32 (cmpi .eq : (⟨S4x4096, .i32⟩ : BufTy).Contents (Elt F) → (⟨S4x4096, .i32⟩ : BufTy).Contents (Elt F) → (⟨S4x4096, .i1⟩ : BufTy).Contents (Elt F)),
    StableHlo.unary main_v32 main_v33 (broadcastInDim S4x4096x1 ![0, 1] bcast_S4x4096_S4x4096x1_0_1 : (⟨S4x4096, .i1⟩ : BufTy).Contents (Elt F) → (⟨S4x4096x1, .i1⟩ : BufTy).Contents (Elt F)),
    StableHlo.TRef.unary (.of main_v33 : StableHlo.TRef sig ⟨S4x4096x1, .i1⟩) main_call5.v0 (broadcastInDim S4x4096x2048 ![0, 1, 2] bcast_S4x4096x1_S4x4096x2048_0_1_2),
    StableHlo.TRef.ternary main_call5.v0 (.of main_v30 : StableHlo.TRef sig ⟨S4x4096x2048, .f32⟩) (.of main_v19 : StableHlo.TRef sig ⟨S4x4096x2048, .f32⟩) main_call5.v1 select ]

/-- Expert 2's gated unit on every token. -/
abbrev e2 : List (HloOp τ sig (Elt F)) :=
  [ StableHlo.unary main_arg2 main_v35 ((extractStridedSlice S1x2048x2048 ![2, 0, 0] · slices_S4x2048x2048_S1x2048x2048_2_0_0) : (⟨S4x2048x2048, .f32⟩ : BufTy).Contents (Elt F) → (⟨S1x2048x2048, .f32⟩ : BufTy).Contents (Elt F)),
    StableHlo.reshape main_v35 main_v36 rfl shapeCasts_S1x2048x2048_S2048x2048,
    StableHlo.binary main_arg0 main_v36 main_v37 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.TRef.unary (.of main_v37 : StableHlo.TRef sig ⟨S4x4096x2048, .f32⟩) main_call6.v0 Host.negf,
    StableHlo.TRef.unary main_call6.v0 main_call6.v1 Host.exp,
    StableHlo.TRef.nullary main_call6.cst (constant S_ .f32 0x3F800000#32),
    StableHlo.TRef.unary main_call6.cst main_call6.v2 (broadcastInDim S4x4096x2048 ![] bcast_S_S4x4096x2048),
    StableHlo.TRef.binary main_call6.v2 main_call6.v1 main_call6.v3 addf,
    StableHlo.TRef.nullary main_call6.cst_0 (constant S_ .f32 0x3F800000#32),
    StableHlo.TRef.unary main_call6.cst_0 main_call6.v4 (broadcastInDim S4x4096x2048 ![] bcast_S_S4x4096x2048),
    StableHlo.TRef.binary main_call6.v4 main_call6.v3 main_call6.v5 Host.divf,
    StableHlo.TRef.binary (.of main_v37 : StableHlo.TRef sig ⟨S4x4096x2048, .f32⟩) main_call6.v5 main_call6.v6 mulf,
    StableHlo.unary main_arg3 main_v39 ((extractStridedSlice S1x2048x2048 ![2, 0, 0] · slices_S4x2048x2048_S1x2048x2048_2_0_0) : (⟨S4x2048x2048, .f32⟩ : BufTy).Contents (Elt F) → (⟨S1x2048x2048, .f32⟩ : BufTy).Contents (Elt F)),
    StableHlo.reshape main_v39 main_v40 rfl shapeCasts_S1x2048x2048_S2048x2048,
    StableHlo.binary main_arg0 main_v40 main_v41 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.binary main_v38 main_v41 main_v42 (mulf : (⟨S4x4096x2048, .f32⟩ : BufTy).Contents (Elt F) → (⟨S4x4096x2048, .f32⟩ : BufTy).Contents (Elt F) → (⟨S4x4096x2048, .f32⟩ : BufTy).Contents (Elt F)),
    StableHlo.unary main_arg4 main_v43 ((extractStridedSlice S1x2048x2048 ![2, 0, 0] · slices_S4x2048x2048_S1x2048x2048_2_0_0) : (⟨S4x2048x2048, .f32⟩ : BufTy).Contents (Elt F) → (⟨S1x2048x2048, .f32⟩ : BufTy).Contents (Elt F)),
    StableHlo.reshape main_v43 main_v44 rfl shapeCasts_S1x2048x2048_S2048x2048,
    StableHlo.binary main_v42 main_v44 main_v45 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)) ]

/-- Expert 2's rows kept where the expert word is 2. -/
abbrev k2 : List (HloOp τ sig (Elt F)) :=
  [ StableHlo.nullary main_c_5 (constantI S_ 32 2#32),
    StableHlo.unary main_c_5 main_v46 (broadcastInDim S4x4096 ![] bcast_S_S4x4096 : (⟨S_, .i32⟩ : BufTy).Contents (Elt F) → (⟨S4x4096, .i32⟩ : BufTy).Contents (Elt F)),
    StableHlo.binary main_v3 main_v46 main_v47 (cmpi .eq : (⟨S4x4096, .i32⟩ : BufTy).Contents (Elt F) → (⟨S4x4096, .i32⟩ : BufTy).Contents (Elt F) → (⟨S4x4096, .i1⟩ : BufTy).Contents (Elt F)),
    StableHlo.unary main_v47 main_v48 (broadcastInDim S4x4096x1 ![0, 1] bcast_S4x4096_S4x4096x1_0_1 : (⟨S4x4096, .i1⟩ : BufTy).Contents (Elt F) → (⟨S4x4096x1, .i1⟩ : BufTy).Contents (Elt F)),
    StableHlo.TRef.unary (.of main_v48 : StableHlo.TRef sig ⟨S4x4096x1, .i1⟩) main_call7.v0 (broadcastInDim S4x4096x2048 ![0, 1, 2] bcast_S4x4096x1_S4x4096x2048_0_1_2),
    StableHlo.TRef.ternary main_call7.v0 (.of main_v45 : StableHlo.TRef sig ⟨S4x4096x2048, .f32⟩) (.of main_v34 : StableHlo.TRef sig ⟨S4x4096x2048, .f32⟩) main_call7.v1 select ]

/-- Expert 3's gated unit on every token. -/
abbrev e3 : List (HloOp τ sig (Elt F)) :=
  [ StableHlo.unary main_arg2 main_v50 ((extractStridedSlice S1x2048x2048 ![3, 0, 0] · slices_S4x2048x2048_S1x2048x2048_3_0_0) : (⟨S4x2048x2048, .f32⟩ : BufTy).Contents (Elt F) → (⟨S1x2048x2048, .f32⟩ : BufTy).Contents (Elt F)),
    StableHlo.reshape main_v50 main_v51 rfl shapeCasts_S1x2048x2048_S2048x2048,
    StableHlo.binary main_arg0 main_v51 main_v52 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.TRef.unary (.of main_v52 : StableHlo.TRef sig ⟨S4x4096x2048, .f32⟩) main_call8.v0 Host.negf,
    StableHlo.TRef.unary main_call8.v0 main_call8.v1 Host.exp,
    StableHlo.TRef.nullary main_call8.cst (constant S_ .f32 0x3F800000#32),
    StableHlo.TRef.unary main_call8.cst main_call8.v2 (broadcastInDim S4x4096x2048 ![] bcast_S_S4x4096x2048),
    StableHlo.TRef.binary main_call8.v2 main_call8.v1 main_call8.v3 addf,
    StableHlo.TRef.nullary main_call8.cst_0 (constant S_ .f32 0x3F800000#32),
    StableHlo.TRef.unary main_call8.cst_0 main_call8.v4 (broadcastInDim S4x4096x2048 ![] bcast_S_S4x4096x2048),
    StableHlo.TRef.binary main_call8.v4 main_call8.v3 main_call8.v5 Host.divf,
    StableHlo.TRef.binary (.of main_v52 : StableHlo.TRef sig ⟨S4x4096x2048, .f32⟩) main_call8.v5 main_call8.v6 mulf,
    StableHlo.unary main_arg3 main_v54 ((extractStridedSlice S1x2048x2048 ![3, 0, 0] · slices_S4x2048x2048_S1x2048x2048_3_0_0) : (⟨S4x2048x2048, .f32⟩ : BufTy).Contents (Elt F) → (⟨S1x2048x2048, .f32⟩ : BufTy).Contents (Elt F)),
    StableHlo.reshape main_v54 main_v55 rfl shapeCasts_S1x2048x2048_S2048x2048,
    StableHlo.binary main_arg0 main_v55 main_v56 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    StableHlo.binary main_v53 main_v56 main_v57 (mulf : (⟨S4x4096x2048, .f32⟩ : BufTy).Contents (Elt F) → (⟨S4x4096x2048, .f32⟩ : BufTy).Contents (Elt F) → (⟨S4x4096x2048, .f32⟩ : BufTy).Contents (Elt F)),
    StableHlo.unary main_arg4 main_v58 ((extractStridedSlice S1x2048x2048 ![3, 0, 0] · slices_S4x2048x2048_S1x2048x2048_3_0_0) : (⟨S4x2048x2048, .f32⟩ : BufTy).Contents (Elt F) → (⟨S1x2048x2048, .f32⟩ : BufTy).Contents (Elt F)),
    StableHlo.reshape main_v58 main_v59 rfl shapeCasts_S1x2048x2048_S2048x2048,
    StableHlo.binary main_v57 main_v59 main_v60 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)) ]

/-- Expert 3's rows kept where the expert word is 3. -/
abbrev k3 : List (HloOp τ sig (Elt F)) :=
  [ StableHlo.nullary main_c_6 (constantI S_ 32 3#32),
    StableHlo.unary main_c_6 main_v61 (broadcastInDim S4x4096 ![] bcast_S_S4x4096 : (⟨S_, .i32⟩ : BufTy).Contents (Elt F) → (⟨S4x4096, .i32⟩ : BufTy).Contents (Elt F)),
    StableHlo.binary main_v3 main_v61 main_v62 (cmpi .eq : (⟨S4x4096, .i32⟩ : BufTy).Contents (Elt F) → (⟨S4x4096, .i32⟩ : BufTy).Contents (Elt F) → (⟨S4x4096, .i1⟩ : BufTy).Contents (Elt F)),
    StableHlo.unary main_v62 main_v63 (broadcastInDim S4x4096x1 ![0, 1] bcast_S4x4096_S4x4096x1_0_1 : (⟨S4x4096, .i1⟩ : BufTy).Contents (Elt F) → (⟨S4x4096x1, .i1⟩ : BufTy).Contents (Elt F)),
    StableHlo.TRef.unary (.of main_v63 : StableHlo.TRef sig ⟨S4x4096x1, .i1⟩) main_call9.v0 (broadcastInDim S4x4096x2048 ![0, 1, 2] bcast_S4x4096x1_S4x4096x2048_0_1_2),
    StableHlo.TRef.ternary main_call9.v0 (.of main_v60 : StableHlo.TRef sig ⟨S4x4096x2048, .f32⟩) (.of main_v49 : StableHlo.TRef sig ⟨S4x4096x2048, .f32⟩) main_call9.v1 select ]

set_option maxRecDepth 8192 in
set_option maxHeartbeats 4000000 in
theorem sIds_out (W : Valuation τ sig (Elt F)) :
    StableHlo.after sIds W (main_v3 : DevRef τ sig) = Term.expertIds (W (main_arg1 : DevRef τ sig)) := by
  after_results_simp <;> rfl

theorem sIds_keep_arg0 (W : Valuation τ sig (Elt F)) :
    StableHlo.after sIds W (main_arg0 : DevRef τ sig) = W (main_arg0 : DevRef τ sig) := by
  after_results_simp

theorem sIds_keep_arg1 (W : Valuation τ sig (Elt F)) :
    StableHlo.after sIds W (main_arg1 : DevRef τ sig) = W (main_arg1 : DevRef τ sig) := by
  after_results_simp

theorem sIds_keep_arg2 (W : Valuation τ sig (Elt F)) :
    StableHlo.after sIds W (main_arg2 : DevRef τ sig) = W (main_arg2 : DevRef τ sig) := by
  after_results_simp

theorem sIds_keep_arg3 (W : Valuation τ sig (Elt F)) :
    StableHlo.after sIds W (main_arg3 : DevRef τ sig) = W (main_arg3 : DevRef τ sig) := by
  after_results_simp

theorem sIds_keep_arg4 (W : Valuation τ sig (Elt F)) :
    StableHlo.after sIds W (main_arg4 : DevRef τ sig) = W (main_arg4 : DevRef τ sig) := by
  after_results_simp

set_option maxRecDepth 8192 in
set_option maxHeartbeats 4000000 in
theorem sZero_out (W : Valuation τ sig (Elt F)) :
    StableHlo.after sZero W (main_v4 : DevRef τ sig) = broadcastInDim S4x4096x2048 ![] bcast_S_S4x4096x2048 (constant S_ .f32 0x00000000#32) := by
  after_results_simp <;> rfl

theorem sZero_keep_arg0 (W : Valuation τ sig (Elt F)) :
    StableHlo.after sZero W (main_arg0 : DevRef τ sig) = W (main_arg0 : DevRef τ sig) := by
  after_results_simp

theorem sZero_keep_arg1 (W : Valuation τ sig (Elt F)) :
    StableHlo.after sZero W (main_arg1 : DevRef τ sig) = W (main_arg1 : DevRef τ sig) := by
  after_results_simp

theorem sZero_keep_arg2 (W : Valuation τ sig (Elt F)) :
    StableHlo.after sZero W (main_arg2 : DevRef τ sig) = W (main_arg2 : DevRef τ sig) := by
  after_results_simp

theorem sZero_keep_arg3 (W : Valuation τ sig (Elt F)) :
    StableHlo.after sZero W (main_arg3 : DevRef τ sig) = W (main_arg3 : DevRef τ sig) := by
  after_results_simp

theorem sZero_keep_arg4 (W : Valuation τ sig (Elt F)) :
    StableHlo.after sZero W (main_arg4 : DevRef τ sig) = W (main_arg4 : DevRef τ sig) := by
  after_results_simp

theorem sZero_keep_v3 (W : Valuation τ sig (Elt F)) :
    StableHlo.after sZero W (main_v3 : DevRef τ sig) = W (main_v3 : DevRef τ sig) := by
  after_results_simp

set_option maxRecDepth 8192 in
set_option maxHeartbeats 4000000 in
theorem e0_out (W : Valuation τ sig (Elt F)) :
    StableHlo.after e0 W (main_v15 : DevRef τ sig) = Term.expertOut (W (main_arg0 : DevRef τ sig)) (Term.slice0 (W (main_arg2 : DevRef τ sig))) (Term.slice0 (W (main_arg3 : DevRef τ sig))) (Term.slice0 (W (main_arg4 : DevRef τ sig))) := by
  after_results_simp <;> rfl

theorem e0_keep_arg0 (W : Valuation τ sig (Elt F)) :
    StableHlo.after e0 W (main_arg0 : DevRef τ sig) = W (main_arg0 : DevRef τ sig) := by
  after_results_simp

theorem e0_keep_arg1 (W : Valuation τ sig (Elt F)) :
    StableHlo.after e0 W (main_arg1 : DevRef τ sig) = W (main_arg1 : DevRef τ sig) := by
  after_results_simp

theorem e0_keep_arg2 (W : Valuation τ sig (Elt F)) :
    StableHlo.after e0 W (main_arg2 : DevRef τ sig) = W (main_arg2 : DevRef τ sig) := by
  after_results_simp

theorem e0_keep_arg3 (W : Valuation τ sig (Elt F)) :
    StableHlo.after e0 W (main_arg3 : DevRef τ sig) = W (main_arg3 : DevRef τ sig) := by
  after_results_simp

theorem e0_keep_arg4 (W : Valuation τ sig (Elt F)) :
    StableHlo.after e0 W (main_arg4 : DevRef τ sig) = W (main_arg4 : DevRef τ sig) := by
  after_results_simp

theorem e0_keep_v3 (W : Valuation τ sig (Elt F)) :
    StableHlo.after e0 W (main_v3 : DevRef τ sig) = W (main_v3 : DevRef τ sig) := by
  after_results_simp

theorem e0_keep_v4 (W : Valuation τ sig (Elt F)) :
    StableHlo.after e0 W (main_v4 : DevRef τ sig) = W (main_v4 : DevRef τ sig) := by
  after_results_simp

set_option maxRecDepth 8192 in
set_option maxHeartbeats 4000000 in
theorem k0_out (W : Valuation τ sig (Elt F)) :
    StableHlo.after k0 W (main_v19 : DevRef τ sig) = Term.keepWhere (W (main_v3 : DevRef τ sig)) 0#32 (W (main_v15 : DevRef τ sig)) (W (main_v4 : DevRef τ sig)) := by
  after_results_simp <;> rfl

theorem k0_keep_arg0 (W : Valuation τ sig (Elt F)) :
    StableHlo.after k0 W (main_arg0 : DevRef τ sig) = W (main_arg0 : DevRef τ sig) := by
  after_results_simp

theorem k0_keep_arg1 (W : Valuation τ sig (Elt F)) :
    StableHlo.after k0 W (main_arg1 : DevRef τ sig) = W (main_arg1 : DevRef τ sig) := by
  after_results_simp

theorem k0_keep_arg2 (W : Valuation τ sig (Elt F)) :
    StableHlo.after k0 W (main_arg2 : DevRef τ sig) = W (main_arg2 : DevRef τ sig) := by
  after_results_simp

theorem k0_keep_arg3 (W : Valuation τ sig (Elt F)) :
    StableHlo.after k0 W (main_arg3 : DevRef τ sig) = W (main_arg3 : DevRef τ sig) := by
  after_results_simp

theorem k0_keep_arg4 (W : Valuation τ sig (Elt F)) :
    StableHlo.after k0 W (main_arg4 : DevRef τ sig) = W (main_arg4 : DevRef τ sig) := by
  after_results_simp

theorem k0_keep_v3 (W : Valuation τ sig (Elt F)) :
    StableHlo.after k0 W (main_v3 : DevRef τ sig) = W (main_v3 : DevRef τ sig) := by
  after_results_simp

set_option maxRecDepth 8192 in
set_option maxHeartbeats 4000000 in
theorem e1_out (W : Valuation τ sig (Elt F)) :
    StableHlo.after e1 W (main_v30 : DevRef τ sig) = Term.expertOut (W (main_arg0 : DevRef τ sig)) (Term.slice1 (W (main_arg2 : DevRef τ sig))) (Term.slice1 (W (main_arg3 : DevRef τ sig))) (Term.slice1 (W (main_arg4 : DevRef τ sig))) := by
  after_results_simp <;> rfl

theorem e1_keep_arg0 (W : Valuation τ sig (Elt F)) :
    StableHlo.after e1 W (main_arg0 : DevRef τ sig) = W (main_arg0 : DevRef τ sig) := by
  after_results_simp

theorem e1_keep_arg1 (W : Valuation τ sig (Elt F)) :
    StableHlo.after e1 W (main_arg1 : DevRef τ sig) = W (main_arg1 : DevRef τ sig) := by
  after_results_simp

theorem e1_keep_arg2 (W : Valuation τ sig (Elt F)) :
    StableHlo.after e1 W (main_arg2 : DevRef τ sig) = W (main_arg2 : DevRef τ sig) := by
  after_results_simp

theorem e1_keep_arg3 (W : Valuation τ sig (Elt F)) :
    StableHlo.after e1 W (main_arg3 : DevRef τ sig) = W (main_arg3 : DevRef τ sig) := by
  after_results_simp

theorem e1_keep_arg4 (W : Valuation τ sig (Elt F)) :
    StableHlo.after e1 W (main_arg4 : DevRef τ sig) = W (main_arg4 : DevRef τ sig) := by
  after_results_simp

theorem e1_keep_v3 (W : Valuation τ sig (Elt F)) :
    StableHlo.after e1 W (main_v3 : DevRef τ sig) = W (main_v3 : DevRef τ sig) := by
  after_results_simp

theorem e1_keep_v19 (W : Valuation τ sig (Elt F)) :
    StableHlo.after e1 W (main_v19 : DevRef τ sig) = W (main_v19 : DevRef τ sig) := by
  after_results_simp

set_option maxRecDepth 8192 in
set_option maxHeartbeats 4000000 in
theorem k1_out (W : Valuation τ sig (Elt F)) :
    StableHlo.after k1 W (main_v34 : DevRef τ sig) = Term.keepWhere (W (main_v3 : DevRef τ sig)) 1#32 (W (main_v30 : DevRef τ sig)) (W (main_v19 : DevRef τ sig)) := by
  after_results_simp <;> rfl

theorem k1_keep_arg0 (W : Valuation τ sig (Elt F)) :
    StableHlo.after k1 W (main_arg0 : DevRef τ sig) = W (main_arg0 : DevRef τ sig) := by
  after_results_simp

theorem k1_keep_arg1 (W : Valuation τ sig (Elt F)) :
    StableHlo.after k1 W (main_arg1 : DevRef τ sig) = W (main_arg1 : DevRef τ sig) := by
  after_results_simp

theorem k1_keep_arg2 (W : Valuation τ sig (Elt F)) :
    StableHlo.after k1 W (main_arg2 : DevRef τ sig) = W (main_arg2 : DevRef τ sig) := by
  after_results_simp

theorem k1_keep_arg3 (W : Valuation τ sig (Elt F)) :
    StableHlo.after k1 W (main_arg3 : DevRef τ sig) = W (main_arg3 : DevRef τ sig) := by
  after_results_simp

theorem k1_keep_arg4 (W : Valuation τ sig (Elt F)) :
    StableHlo.after k1 W (main_arg4 : DevRef τ sig) = W (main_arg4 : DevRef τ sig) := by
  after_results_simp

theorem k1_keep_v3 (W : Valuation τ sig (Elt F)) :
    StableHlo.after k1 W (main_v3 : DevRef τ sig) = W (main_v3 : DevRef τ sig) := by
  after_results_simp

set_option maxRecDepth 8192 in
set_option maxHeartbeats 4000000 in
theorem e2_out (W : Valuation τ sig (Elt F)) :
    StableHlo.after e2 W (main_v45 : DevRef τ sig) = Term.expertOut (W (main_arg0 : DevRef τ sig)) (Term.slice2 (W (main_arg2 : DevRef τ sig))) (Term.slice2 (W (main_arg3 : DevRef τ sig))) (Term.slice2 (W (main_arg4 : DevRef τ sig))) := by
  after_results_simp <;> rfl

theorem e2_keep_arg0 (W : Valuation τ sig (Elt F)) :
    StableHlo.after e2 W (main_arg0 : DevRef τ sig) = W (main_arg0 : DevRef τ sig) := by
  after_results_simp

theorem e2_keep_arg1 (W : Valuation τ sig (Elt F)) :
    StableHlo.after e2 W (main_arg1 : DevRef τ sig) = W (main_arg1 : DevRef τ sig) := by
  after_results_simp

theorem e2_keep_arg2 (W : Valuation τ sig (Elt F)) :
    StableHlo.after e2 W (main_arg2 : DevRef τ sig) = W (main_arg2 : DevRef τ sig) := by
  after_results_simp

theorem e2_keep_arg3 (W : Valuation τ sig (Elt F)) :
    StableHlo.after e2 W (main_arg3 : DevRef τ sig) = W (main_arg3 : DevRef τ sig) := by
  after_results_simp

theorem e2_keep_arg4 (W : Valuation τ sig (Elt F)) :
    StableHlo.after e2 W (main_arg4 : DevRef τ sig) = W (main_arg4 : DevRef τ sig) := by
  after_results_simp

theorem e2_keep_v3 (W : Valuation τ sig (Elt F)) :
    StableHlo.after e2 W (main_v3 : DevRef τ sig) = W (main_v3 : DevRef τ sig) := by
  after_results_simp

theorem e2_keep_v34 (W : Valuation τ sig (Elt F)) :
    StableHlo.after e2 W (main_v34 : DevRef τ sig) = W (main_v34 : DevRef τ sig) := by
  after_results_simp

set_option maxRecDepth 8192 in
set_option maxHeartbeats 4000000 in
theorem k2_out (W : Valuation τ sig (Elt F)) :
    StableHlo.after k2 W (main_v49 : DevRef τ sig) = Term.keepWhere (W (main_v3 : DevRef τ sig)) 2#32 (W (main_v45 : DevRef τ sig)) (W (main_v34 : DevRef τ sig)) := by
  after_results_simp <;> rfl

theorem k2_keep_arg0 (W : Valuation τ sig (Elt F)) :
    StableHlo.after k2 W (main_arg0 : DevRef τ sig) = W (main_arg0 : DevRef τ sig) := by
  after_results_simp

theorem k2_keep_arg1 (W : Valuation τ sig (Elt F)) :
    StableHlo.after k2 W (main_arg1 : DevRef τ sig) = W (main_arg1 : DevRef τ sig) := by
  after_results_simp

theorem k2_keep_arg2 (W : Valuation τ sig (Elt F)) :
    StableHlo.after k2 W (main_arg2 : DevRef τ sig) = W (main_arg2 : DevRef τ sig) := by
  after_results_simp

theorem k2_keep_arg3 (W : Valuation τ sig (Elt F)) :
    StableHlo.after k2 W (main_arg3 : DevRef τ sig) = W (main_arg3 : DevRef τ sig) := by
  after_results_simp

theorem k2_keep_arg4 (W : Valuation τ sig (Elt F)) :
    StableHlo.after k2 W (main_arg4 : DevRef τ sig) = W (main_arg4 : DevRef τ sig) := by
  after_results_simp

theorem k2_keep_v3 (W : Valuation τ sig (Elt F)) :
    StableHlo.after k2 W (main_v3 : DevRef τ sig) = W (main_v3 : DevRef τ sig) := by
  after_results_simp

set_option maxRecDepth 8192 in
set_option maxHeartbeats 4000000 in
theorem e3_out (W : Valuation τ sig (Elt F)) :
    StableHlo.after e3 W (main_v60 : DevRef τ sig) = Term.expertOut (W (main_arg0 : DevRef τ sig)) (Term.slice3 (W (main_arg2 : DevRef τ sig))) (Term.slice3 (W (main_arg3 : DevRef τ sig))) (Term.slice3 (W (main_arg4 : DevRef τ sig))) := by
  after_results_simp <;> rfl

theorem e3_keep_arg0 (W : Valuation τ sig (Elt F)) :
    StableHlo.after e3 W (main_arg0 : DevRef τ sig) = W (main_arg0 : DevRef τ sig) := by
  after_results_simp

theorem e3_keep_arg1 (W : Valuation τ sig (Elt F)) :
    StableHlo.after e3 W (main_arg1 : DevRef τ sig) = W (main_arg1 : DevRef τ sig) := by
  after_results_simp

theorem e3_keep_arg2 (W : Valuation τ sig (Elt F)) :
    StableHlo.after e3 W (main_arg2 : DevRef τ sig) = W (main_arg2 : DevRef τ sig) := by
  after_results_simp

theorem e3_keep_arg3 (W : Valuation τ sig (Elt F)) :
    StableHlo.after e3 W (main_arg3 : DevRef τ sig) = W (main_arg3 : DevRef τ sig) := by
  after_results_simp

theorem e3_keep_arg4 (W : Valuation τ sig (Elt F)) :
    StableHlo.after e3 W (main_arg4 : DevRef τ sig) = W (main_arg4 : DevRef τ sig) := by
  after_results_simp

theorem e3_keep_v3 (W : Valuation τ sig (Elt F)) :
    StableHlo.after e3 W (main_v3 : DevRef τ sig) = W (main_v3 : DevRef τ sig) := by
  after_results_simp

theorem e3_keep_v49 (W : Valuation τ sig (Elt F)) :
    StableHlo.after e3 W (main_v49 : DevRef τ sig) = W (main_v49 : DevRef τ sig) := by
  after_results_simp

set_option maxRecDepth 8192 in
set_option maxHeartbeats 4000000 in
theorem k3_out (W : Valuation τ sig (Elt F)) :
    StableHlo.after k3 W (main_v64 : DevRef τ sig) = Term.keepWhere (W (main_v3 : DevRef τ sig)) 3#32 (W (main_v60 : DevRef τ sig)) (W (main_v49 : DevRef τ sig)) := by
  after_results_simp <;> rfl

theorem k3_keep_arg0 (W : Valuation τ sig (Elt F)) :
    StableHlo.after k3 W (main_arg0 : DevRef τ sig) = W (main_arg0 : DevRef τ sig) := by
  after_results_simp

theorem k3_keep_arg1 (W : Valuation τ sig (Elt F)) :
    StableHlo.after k3 W (main_arg1 : DevRef τ sig) = W (main_arg1 : DevRef τ sig) := by
  after_results_simp

theorem k3_keep_arg2 (W : Valuation τ sig (Elt F)) :
    StableHlo.after k3 W (main_arg2 : DevRef τ sig) = W (main_arg2 : DevRef τ sig) := by
  after_results_simp

theorem k3_keep_arg3 (W : Valuation τ sig (Elt F)) :
    StableHlo.after k3 W (main_arg3 : DevRef τ sig) = W (main_arg3 : DevRef τ sig) := by
  after_results_simp

theorem k3_keep_arg4 (W : Valuation τ sig (Elt F)) :
    StableHlo.after k3 W (main_arg4 : DevRef τ sig) = W (main_arg4 : DevRef τ sig) := by
  after_results_simp

set_option maxRecDepth 8192 in
/-- The line is its ten stretches in a row. -/
theorem ops_split : (ops0 ++ ops1 : List (HloOp τ sig (Elt F))) = sIds ++ (sZero ++ (e0 ++ (k0 ++ (e1 ++ (k1 ++ (e2 ++ (k2 ++ (e3 ++ (k3))))))))) := rfl

/-- The contents after the line, stretch by stretch. -/
theorem after_split (V : Valuation τ sig (Elt F)) :
    StableHlo.after ops1 (StableHlo.after ops0 V) = StableHlo.after k3 (StableHlo.after e3 (StableHlo.after k2 (StableHlo.after e2 (StableHlo.after k1 (StableHlo.after e1 (StableHlo.after k0 (StableHlo.after e0 (StableHlo.after sZero (StableHlo.after sIds V))))))))) := by
  rw [← after_app, ops_split]
  simp only [after_app]

set_option maxRecDepth 8192 in
set_option maxHeartbeats 4000000 in
/-- The result buffer after the line holds the composition of the printed operations over the arguments' contents. -/
theorem out_eq (V : Valuation τ sig (Elt F)) :
    StableHlo.after ops1 (StableHlo.after ops0 V) (main_v64 : DevRef τ sig)
      = Term.refOut (V (main_arg0 : DevRef τ sig)) (V (main_arg1 : DevRef τ sig)) (V (main_arg2 : DevRef τ sig))
          (V (main_arg3 : DevRef τ sig)) (V (main_arg4 : DevRef τ sig)) := by
  rw [after_split]
  have h0_o := sIds_out V
  have h0_arg0 := sIds_keep_arg0 V
  have h0_arg1 := sIds_keep_arg1 V
  have h0_arg2 := sIds_keep_arg2 V
  have h0_arg3 := sIds_keep_arg3 V
  have h0_arg4 := sIds_keep_arg4 V
  generalize StableHlo.after sIds V = W1 at h0_o h0_arg0 h0_arg1 h0_arg2 h0_arg3 h0_arg4 ⊢
  have h1_o := sZero_out W1
  have h1_arg0 := (sZero_keep_arg0 W1).trans h0_arg0
  have h1_arg1 := (sZero_keep_arg1 W1).trans h0_arg1
  have h1_arg2 := (sZero_keep_arg2 W1).trans h0_arg2
  have h1_arg3 := (sZero_keep_arg3 W1).trans h0_arg3
  have h1_arg4 := (sZero_keep_arg4 W1).trans h0_arg4
  have h1_v3 := (sZero_keep_v3 W1).trans h0_o
  generalize StableHlo.after sZero W1 = W2 at h1_o h1_arg0 h1_arg1 h1_arg2 h1_arg3 h1_arg4 h1_v3 ⊢
  clear h0_o h0_arg0 h0_arg1 h0_arg2 h0_arg3 h0_arg4
  have h2_o := e0_out W2
  rw [h1_arg0, h1_arg2, h1_arg3, h1_arg4] at h2_o
  have h2_arg0 := (e0_keep_arg0 W2).trans h1_arg0
  have h2_arg1 := (e0_keep_arg1 W2).trans h1_arg1
  have h2_arg2 := (e0_keep_arg2 W2).trans h1_arg2
  have h2_arg3 := (e0_keep_arg3 W2).trans h1_arg3
  have h2_arg4 := (e0_keep_arg4 W2).trans h1_arg4
  have h2_v3 := (e0_keep_v3 W2).trans h1_v3
  have h2_v4 := (e0_keep_v4 W2).trans h1_o
  generalize StableHlo.after e0 W2 = W3 at h2_o h2_arg0 h2_arg1 h2_arg2 h2_arg3 h2_arg4 h2_v3 h2_v4 ⊢
  clear h1_o h1_arg0 h1_arg1 h1_arg2 h1_arg3 h1_arg4 h1_v3
  have h3_o := k0_out W3
  rw [h2_v3, h2_o, h2_v4] at h3_o
  have h3_arg0 := (k0_keep_arg0 W3).trans h2_arg0
  have h3_arg1 := (k0_keep_arg1 W3).trans h2_arg1
  have h3_arg2 := (k0_keep_arg2 W3).trans h2_arg2
  have h3_arg3 := (k0_keep_arg3 W3).trans h2_arg3
  have h3_arg4 := (k0_keep_arg4 W3).trans h2_arg4
  have h3_v3 := (k0_keep_v3 W3).trans h2_v3
  generalize StableHlo.after k0 W3 = W4 at h3_o h3_arg0 h3_arg1 h3_arg2 h3_arg3 h3_arg4 h3_v3 ⊢
  clear h2_o h2_arg0 h2_arg1 h2_arg2 h2_arg3 h2_arg4 h2_v3 h2_v4
  have h4_o := e1_out W4
  rw [h3_arg0, h3_arg2, h3_arg3, h3_arg4] at h4_o
  have h4_arg0 := (e1_keep_arg0 W4).trans h3_arg0
  have h4_arg1 := (e1_keep_arg1 W4).trans h3_arg1
  have h4_arg2 := (e1_keep_arg2 W4).trans h3_arg2
  have h4_arg3 := (e1_keep_arg3 W4).trans h3_arg3
  have h4_arg4 := (e1_keep_arg4 W4).trans h3_arg4
  have h4_v3 := (e1_keep_v3 W4).trans h3_v3
  have h4_v19 := (e1_keep_v19 W4).trans h3_o
  generalize StableHlo.after e1 W4 = W5 at h4_o h4_arg0 h4_arg1 h4_arg2 h4_arg3 h4_arg4 h4_v3 h4_v19 ⊢
  clear h3_o h3_arg0 h3_arg1 h3_arg2 h3_arg3 h3_arg4 h3_v3
  have h5_o := k1_out W5
  rw [h4_v3, h4_o, h4_v19] at h5_o
  have h5_arg0 := (k1_keep_arg0 W5).trans h4_arg0
  have h5_arg1 := (k1_keep_arg1 W5).trans h4_arg1
  have h5_arg2 := (k1_keep_arg2 W5).trans h4_arg2
  have h5_arg3 := (k1_keep_arg3 W5).trans h4_arg3
  have h5_arg4 := (k1_keep_arg4 W5).trans h4_arg4
  have h5_v3 := (k1_keep_v3 W5).trans h4_v3
  generalize StableHlo.after k1 W5 = W6 at h5_o h5_arg0 h5_arg1 h5_arg2 h5_arg3 h5_arg4 h5_v3 ⊢
  clear h4_o h4_arg0 h4_arg1 h4_arg2 h4_arg3 h4_arg4 h4_v3 h4_v19
  have h6_o := e2_out W6
  rw [h5_arg0, h5_arg2, h5_arg3, h5_arg4] at h6_o
  have h6_arg0 := (e2_keep_arg0 W6).trans h5_arg0
  have h6_arg1 := (e2_keep_arg1 W6).trans h5_arg1
  have h6_arg2 := (e2_keep_arg2 W6).trans h5_arg2
  have h6_arg3 := (e2_keep_arg3 W6).trans h5_arg3
  have h6_arg4 := (e2_keep_arg4 W6).trans h5_arg4
  have h6_v3 := (e2_keep_v3 W6).trans h5_v3
  have h6_v34 := (e2_keep_v34 W6).trans h5_o
  generalize StableHlo.after e2 W6 = W7 at h6_o h6_arg0 h6_arg1 h6_arg2 h6_arg3 h6_arg4 h6_v3 h6_v34 ⊢
  clear h5_o h5_arg0 h5_arg1 h5_arg2 h5_arg3 h5_arg4 h5_v3
  have h7_o := k2_out W7
  rw [h6_v3, h6_o, h6_v34] at h7_o
  have h7_arg0 := (k2_keep_arg0 W7).trans h6_arg0
  have h7_arg1 := (k2_keep_arg1 W7).trans h6_arg1
  have h7_arg2 := (k2_keep_arg2 W7).trans h6_arg2
  have h7_arg3 := (k2_keep_arg3 W7).trans h6_arg3
  have h7_arg4 := (k2_keep_arg4 W7).trans h6_arg4
  have h7_v3 := (k2_keep_v3 W7).trans h6_v3
  generalize StableHlo.after k2 W7 = W8 at h7_o h7_arg0 h7_arg1 h7_arg2 h7_arg3 h7_arg4 h7_v3 ⊢
  clear h6_o h6_arg0 h6_arg1 h6_arg2 h6_arg3 h6_arg4 h6_v3 h6_v34
  have h8_o := e3_out W8
  rw [h7_arg0, h7_arg2, h7_arg3, h7_arg4] at h8_o
  have h8_arg0 := (e3_keep_arg0 W8).trans h7_arg0
  have h8_arg1 := (e3_keep_arg1 W8).trans h7_arg1
  have h8_arg2 := (e3_keep_arg2 W8).trans h7_arg2
  have h8_arg3 := (e3_keep_arg3 W8).trans h7_arg3
  have h8_arg4 := (e3_keep_arg4 W8).trans h7_arg4
  have h8_v3 := (e3_keep_v3 W8).trans h7_v3
  have h8_v49 := (e3_keep_v49 W8).trans h7_o
  generalize StableHlo.after e3 W8 = W9 at h8_o h8_arg0 h8_arg1 h8_arg2 h8_arg3 h8_arg4 h8_v3 h8_v49 ⊢
  clear h7_o h7_arg0 h7_arg1 h7_arg2 h7_arg3 h7_arg4 h7_v3
  have h9_o := k3_out W9
  rw [h8_v3, h8_o, h8_v49] at h9_o
  exact h9_o

/-- No operation of the line writes this argument's buffer. -/
theorem arg0_eq (V : Valuation τ sig (Elt F)) :
    StableHlo.after ops1 (StableHlo.after ops0 V) (main_arg0 : DevRef τ sig) = V (main_arg0 : DevRef τ sig) := by
  rw [after_split]
  exact (k3_keep_arg0 _).trans ((e3_keep_arg0 _).trans ((k2_keep_arg0 _).trans ((e2_keep_arg0 _).trans ((k1_keep_arg0 _).trans ((e1_keep_arg0 _).trans ((k0_keep_arg0 _).trans ((e0_keep_arg0 _).trans ((sZero_keep_arg0 _).trans (sIds_keep_arg0 V)))))))))

/-- No operation of the line writes this argument's buffer. -/
theorem arg1_eq (V : Valuation τ sig (Elt F)) :
    StableHlo.after ops1 (StableHlo.after ops0 V) (main_arg1 : DevRef τ sig) = V (main_arg1 : DevRef τ sig) := by
  rw [after_split]
  exact (k3_keep_arg1 _).trans ((e3_keep_arg1 _).trans ((k2_keep_arg1 _).trans ((e2_keep_arg1 _).trans ((k1_keep_arg1 _).trans ((e1_keep_arg1 _).trans ((k0_keep_arg1 _).trans ((e0_keep_arg1 _).trans ((sZero_keep_arg1 _).trans (sIds_keep_arg1 V)))))))))

/-- No operation of the line writes this argument's buffer. -/
theorem arg2_eq (V : Valuation τ sig (Elt F)) :
    StableHlo.after ops1 (StableHlo.after ops0 V) (main_arg2 : DevRef τ sig) = V (main_arg2 : DevRef τ sig) := by
  rw [after_split]
  exact (k3_keep_arg2 _).trans ((e3_keep_arg2 _).trans ((k2_keep_arg2 _).trans ((e2_keep_arg2 _).trans ((k1_keep_arg2 _).trans ((e1_keep_arg2 _).trans ((k0_keep_arg2 _).trans ((e0_keep_arg2 _).trans ((sZero_keep_arg2 _).trans (sIds_keep_arg2 V)))))))))

/-- No operation of the line writes this argument's buffer. -/
theorem arg3_eq (V : Valuation τ sig (Elt F)) :
    StableHlo.after ops1 (StableHlo.after ops0 V) (main_arg3 : DevRef τ sig) = V (main_arg3 : DevRef τ sig) := by
  rw [after_split]
  exact (k3_keep_arg3 _).trans ((e3_keep_arg3 _).trans ((k2_keep_arg3 _).trans ((e2_keep_arg3 _).trans ((k1_keep_arg3 _).trans ((e1_keep_arg3 _).trans ((k0_keep_arg3 _).trans ((e0_keep_arg3 _).trans ((sZero_keep_arg3 _).trans (sIds_keep_arg3 V)))))))))

/-- No operation of the line writes this argument's buffer. -/
theorem arg4_eq (V : Valuation τ sig (Elt F)) :
    StableHlo.after ops1 (StableHlo.after ops0 V) (main_arg4 : DevRef τ sig) = V (main_arg4 : DevRef τ sig) := by
  rw [after_split]
  exact (k3_keep_arg4 _).trans ((e3_keep_arg4 _).trans ((k2_keep_arg4 _).trans ((e2_keep_arg4 _).trans ((k1_keep_arg4 _).trans ((e1_keep_arg4 _).trans ((k0_keep_arg4 _).trans ((e0_keep_arg4 _).trans ((sZero_keep_arg4 _).trans (sIds_keep_arg4 V)))))))))

end Line

variable (m : (ℓ : Loc nD τ sig) → Buf (Elt Ideal) ℓ) (ρ : Dev nD → PrngReg)

theorem run :
    θ_run (defs (F := Ideal)) (onTc (τ := τ) (main (F := Ideal))) ⟨m, fun _ => 0, ρ⟩ (fun r => ∀ c : Dev nD,
      r.2.mem ((c.tc : Thread nD τ).loc main_v64)
          = Term.refOut (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨(h c main_v64).trans ((congrFun (after_app ops0 ops1 _) _).trans (out_eq _)),
       (h c main_arg0).trans ((congrFun (after_app ops0 ops1 _) _).trans (arg0_eq _)),
       (h c main_arg1).trans ((congrFun (after_app ops0 ops1 _) _).trans (arg1_eq _)),
       (h c main_arg2).trans ((congrFun (after_app ops0 ops1 _) _).trans (arg2_eq _)),
       (h c main_arg3).trans ((congrFun (after_app ops0 ops1 _) _).trans (arg3_eq _)),
       (h c main_arg4).trans ((congrFun (after_app ops0 ops1 _) _).trans (arg4_eq _))⟩)
    (StableHlo.run_seq scopedRefs_eq scopedSems_eq defs main (fun _ => ops) main_eq (fun _ => ops_sub) m ρ
      (fun _ => ops_fresh))

end Cert.Moe.RefRun

end
-- ==== Proof.RefRead.lean ====
/-
  The reference's result read at an index: the four keep-where steps pick, for token (b, s), the gated unit over the slices of the one expert whose number equals the token's expert word.
-/
import proofs.«400137_j63582695850549_3_alg».proof.Proof.RefTerm
import proofs.«400137_j63582695850549_3_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.Moe.RefRead

open Idealize.ShloMosaic Idealize.ShloMosaic.ValueIdx Cert.ReferenceIdeal
open scoped BigOperators

variable [Cert.ReferenceIdeal.Facts₀]

/-! ## Keep-where at an index -/

/-- A select on the equality bit of two words is the `if` on their equality. -/
theorem select_cmpi_eq {α : Type} (w j : BitVec 32) (A B : α) :
    Scalar.select (IntOp.cmpi .eq w j) A B = if w = j then A else B := by
  by_cases h : w = j
  · subst h; simp [Scalar.select, IntOp.cmpi]
  · have hb : (w == j) = false := by simpa using h
    simp [Scalar.select, IntOp.cmpi, hb, h]

/-- Keep-where at (b, s, d): `y` there when the token's word is `j`, the previous value otherwise. -/
theorem keepWhere_apply (e : IVec S4x4096 32) (j : BitVec 32) (y prev : FVec Ideal S4x4096x2048 .f32)
    (b : Fin 4) (s : Fin 4096) (d : Fin 2048) :
    Term.keepWhere (F := Ideal) e j y prev (ix3 b s d)
      = if e (ix2 b s) = j then y (ix3 b s d) else prev (ix3 b s d) := by
  unfold Term.keepWhere
  rw [select_apply]
  rw [broadcastInDim_apply _ _ _ (ix3 b s d) (ix3 b s (0 : Fin 1)) (fun a => by
      match a with
      | ⟨0, _⟩ => rfl
      | ⟨1, _⟩ => rfl
      | ⟨2, _⟩ => rfl)]
  rw [broadcastInDim_apply _ _ _ (ix3 b s (0 : Fin 1)) (ix2 b s) (fun a => by
      match a with
      | ⟨0, _⟩ => rfl
      | ⟨1, _⟩ => rfl)]
  exact select_cmpi_eq _ _ _ _

/-! ## The matrix product at an index -/

theorem dot_lhs_0 (j : S4x4096x2048.Idx) (k : dot_S4x4096x2048_S2048x2048_S4x4096x2048_2_1_01_0_n_n.contr.Idx) :
    (dot_S4x4096x2048_S2048x2048_S4x4096x2048_2_1_01_0_n_n.lhsIdx j k 0).val = (j 0).val := by
  simp [DotDims.lhsIdx, dot_S4x4096x2048_S2048x2048_S4x4096x2048_2_1_01_0_n_n]; rfl

theorem dot_lhs_1 (j : S4x4096x2048.Idx) (k : dot_S4x4096x2048_S2048x2048_S4x4096x2048_2_1_01_0_n_n.contr.Idx) :
    (dot_S4x4096x2048_S2048x2048_S4x4096x2048_2_1_01_0_n_n.lhsIdx j k 1).val = (j 1).val := by
  simp [DotDims.lhsIdx, dot_S4x4096x2048_S2048x2048_S4x4096x2048_2_1_01_0_n_n]; rfl

theorem dot_lhs_2 (j : S4x4096x2048.Idx) (k : dot_S4x4096x2048_S2048x2048_S4x4096x2048_2_1_01_0_n_n.contr.Idx) :
    (dot_S4x4096x2048_S2048x2048_S4x4096x2048_2_1_01_0_n_n.lhsIdx j k 2).val = (k ⟨0, Nat.one_pos⟩).val :=
  DotDims.lhsIdx_val_of_single _ rfl j k

theorem dot_rhs_0 (j : S4x4096x2048.Idx) (k : dot_S4x4096x2048_S2048x2048_S4x4096x2048_2_1_01_0_n_n.contr.Idx) :
    (dot_S4x4096x2048_S2048x2048_S4x4096x2048_2_1_01_0_n_n.rhsIdx j k 0).val = (j 2).val := by
  simp [DotDims.rhsIdx, dot_S4x4096x2048_S2048x2048_S4x4096x2048_2_1_01_0_n_n]; rfl

theorem dot_rhs_1 (j : S4x4096x2048.Idx) (k : dot_S4x4096x2048_S2048x2048_S4x4096x2048_2_1_01_0_n_n.contr.Idx) :
    (dot_S4x4096x2048_S2048x2048_S4x4096x2048_2_1_01_0_n_n.rhsIdx j k 1).val = (k ⟨0, Nat.one_pos⟩).val :=
  DotDims.rhsIdx_val_of_single _ rfl j k

/-- The product of the tokens by a matrix stored [out, in], at (b, s, f): the sum over k of x[b, s, k] * w[f, k]. -/
theorem dot_apply (x : FVec Ideal S4x4096x2048 .f32) (w : FVec Ideal S2048x2048 .f32)
    (b : Fin 4) (s : Fin 4096) (f : Fin 2048) :
    Host.dotGeneral (F := Ideal) dot_S4x4096x2048_S2048x2048_S4x4096x2048_2_1_01_0_n_n none x w (ix3 b s f)
      = ∑ k : Fin 2048, x (ix3 b s k) * w (ix2 f k) := by
  show FloatOps.dotGeneral _ none _ x w (ix3 b s f) = _
  rw [Ideal.dotGeneral_apply,
    ← Equiv.sum_comp (contrEquiv1 dot_S4x4096x2048_S2048x2048_S4x4096x2048_2_1_01_0_n_n 2048 rfl rfl).symm]
  refine Finset.sum_congr rfl fun c _ => ?_
  have hc := contrEquiv1_symm_val dot_S4x4096x2048_S2048x2048_S4x4096x2048_2_1_01_0_n_n 2048 rfl rfl c
  have hl : dot_S4x4096x2048_S2048x2048_S4x4096x2048_2_1_01_0_n_n.lhsIdx (ix3 b s f)
      ((contrEquiv1 dot_S4x4096x2048_S2048x2048_S4x4096x2048_2_1_01_0_n_n 2048 rfl rfl).symm c) = ix3 b s c := by
    funext ax; apply Fin.ext
    match ax with
    | ⟨0, _⟩ => exact dot_lhs_0 _ _
    | ⟨1, _⟩ => exact dot_lhs_1 _ _
    | ⟨2, _⟩ => exact (dot_lhs_2 _ _).trans hc
  have hr : dot_S4x4096x2048_S2048x2048_S4x4096x2048_2_1_01_0_n_n.rhsIdx (ix3 b s f)
      ((contrEquiv1 dot_S4x4096x2048_S2048x2048_S4x4096x2048_2_1_01_0_n_n 2048 rfl rfl).symm c) = ix2 f c := by
    funext ax; apply Fin.ext
    match ax with
    | ⟨0, _⟩ => exact dot_rhs_0 _ _
    | ⟨1, _⟩ => exact (dot_rhs_1 _ _).trans hc
  rw [hl, hr]

/-! ## The gate function, the slices, one expert's unit -/

/-- The gate function at an element: a * logistic a. -/
theorem silu_apply (a : FVec Ideal S4x4096x2048 .f32) (i : S4x4096x2048.Idx) :
    Term.silu (F := Ideal) a i = a i * Ideal.logistic (a i) := by
  show a i * Ideal.div (Ideal.ofBits .f32 0x3F800000#32) (Ideal.ofBits .f32 0x3F800000#32 + Ideal.exp (-(a i))) = _
  rw [Ideal.ofBits_one_f32]
  rfl

/-- Slice `j` of a stack of four matrices, as a matrix, at (f, k): the stack at (j, f, k). -/
theorem slice_apply (j : Fin 4) (w : FVec Ideal S4x2048x2048 .f32)
    (h : S4x2048x2048.Slices ![j.val, 0, 0] S1x2048x2048) (f k : Fin 2048) :
    shapeCast S2048x2048 (extractStridedSlice S1x2048x2048 ![j.val, 0, 0] w h) Facts₀.shapeCasts_S1x2048x2048_S2048x2048 (ix2 f k)
      = w (ix3 j f k) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

theorem slice0_apply (w : FVec Ideal S4x2048x2048 .f32) (f k : Fin 2048) :
    Term.slice0 w (ix2 f k) = w (ix3 (0 : Fin 4) f k) := slice_apply 0 w _ f k
theorem slice1_apply (w : FVec Ideal S4x2048x2048 .f32) (f k : Fin 2048) :
    Term.slice1 w (ix2 f k) = w (ix3 (1 : Fin 4) f k) := slice_apply 1 w _ f k
theorem slice2_apply (w : FVec Ideal S4x2048x2048 .f32) (f k : Fin 2048) :
    Term.slice2 w (ix2 f k) = w (ix3 (2 : Fin 4) f k) := slice_apply 2 w _ f k
theorem slice3_apply (w : FVec Ideal S4x2048x2048 .f32) (f k : Fin 2048) :
    Term.slice3 w (ix2 f k) = w (ix3 (3 : Fin 4) f k) := slice_apply 3 w _ f k

/-- One expert's unit on every token, at (b, s, d): the gated unit of row (b, s) over the three matrices. -/
theorem expertOut_apply (x : FVec Ideal S4x4096x2048 .f32) (g u dn : FVec Ideal S2048x2048 .f32)
    (b : Fin 4) (s : Fin 4096) (d : Fin 2048) :
    Term.expertOut (F := Ideal) x g u dn (ix3 b s d)
      = Cert.Moe.mlp (fun k => x (ix3 b s k)) (fun f k => g (ix2 f k)) (fun f k => u (ix2 f k))
          (fun f k => dn (ix2 f k)) d := by
  unfold Term.expertOut Cert.Moe.mlp
  rw [dot_apply]
  refine Finset.sum_congr rfl fun f _ => ?_
  rw [mulf_apply, silu_apply, dot_apply, dot_apply]

/-! ## The expert word is one of four -/

/-- A word whose value is below four is one of the four words 0, 1, 2, 3. -/
theorem word_cases (w : BitVec 32) (h : w.toNat < 4) : w = 0#32 ∨ w = 1#32 ∨ w = 2#32 ∨ w = 3#32 := by
  have h' : w.toNat = 0 ∨ w.toNat = 1 ∨ w.toNat = 2 ∨ w.toNat = 3 := by omega
  rcases h' with h' | h' | h' | h'
  · exact Or.inl (BitVec.eq_of_toNat_eq (by rw [h']; rfl))
  · exact Or.inr (Or.inl (BitVec.eq_of_toNat_eq (by rw [h']; rfl)))
  · exact Or.inr (Or.inr (Or.inl (BitVec.eq_of_toNat_eq (by rw [h']; rfl))))
  · exact Or.inr (Or.inr (Or.inr (BitVec.eq_of_toNat_eq (by rw [h']; rfl))))

theorem expertOf_0 : Cert.Moe.expertOf 0#32 = (0 : Fin 4) := by decide
theorem expertOf_1 : Cert.Moe.expertOf 1#32 = (1 : Fin 4) := by decide
theorem expertOf_2 : Cert.Moe.expertOf 2#32 = (2 : Fin 4) := by decide
theorem expertOf_3 : Cert.Moe.expertOf 3#32 = (3 : Fin 4) := by decide

/-! ## The reference's result at an index -/

theorem refOut_apply (x : FVec Ideal S4x4096x2048 .f32) (tok : IVec S4x4096 32) (wg wu wd : FVec Ideal S4x2048x2048 .f32)
    (hE : ∀ j : S4x4096.Idx, (Term.expertIds tok j).toNat < 4) (i : S4x4096x2048.Idx) :
    Term.refOut (F := Ideal) x tok wg wu wd i = Cert.Moe.G x (Term.expertIds tok) wg wu wd i := by
  obtain ⟨b, s, d, rfl⟩ : ∃ (b : Fin 4) (s : Fin 4096) (d : Fin 2048), i = ix3 b s d :=
    ⟨i 0, i 1, i 2, eq_ix3 i⟩
  unfold Term.refOut
  rw [keepWhere_apply, keepWhere_apply, keepWhere_apply, keepWhere_apply]
  show _ = Cert.Moe.mlp (fun k => x (ix3 b s k))
    (fun f k => wg (ix3 (Cert.Moe.expertOf (Term.expertIds tok (ix2 b s))) f k))
    (fun f k => wu (ix3 (Cert.Moe.expertOf (Term.expertIds tok (ix2 b s))) f k))
    (fun f k => wd (ix3 (Cert.Moe.expertOf (Term.expertIds tok (ix2 b s))) f k)) d
  have n03 : ¬ (0#32 : BitVec 32) = 3#32 := by decide
  have n02 : ¬ (0#32 : BitVec 32) = 2#32 := by decide
  have n01 : ¬ (0#32 : BitVec 32) = 1#32 := by decide
  have n13 : ¬ (1#32 : BitVec 32) = 3#32 := by decide
  have n12 : ¬ (1#32 : BitVec 32) = 2#32 := by decide
  have n23 : ¬ (2#32 : BitVec 32) = 3#32 := by decide
  rcases word_cases _ (hE (ix2 b s)) with h | h | h | h
  · rw [h, if_neg n03, if_neg n02, if_neg n01, if_pos rfl, expertOut_apply, expertOf_0]
    simp only [slice0_apply]
  · rw [h, if_neg n13, if_neg n12, if_pos rfl, expertOut_apply, expertOf_1]
    simp only [slice1_apply]
  · rw [h, if_neg n23, if_pos rfl, expertOut_apply, expertOf_2]
    simp only [slice2_apply]
  · rw [h, if_pos rfl, expertOut_apply, expertOf_3]
    simp only [slice3_apply]

end Cert.Moe.RefRead

end
-- ==== Proof.lean ====
/-
  A token-routed expert layer against its dense reference, over the extended reals.

  Both programs send token (b, s), a row of 2048 numbers, through the gated unit of ONE of four experts,
  the expert e(b, s) = min(clip(id, 0, 99999) / 25000, 3) of the token's id:
      out[b, s, d] = sum_f (g_f * logistic(g_f) * u_f) * Wd[e, d, f],
      g_f = sum_k x_k * Wg[e, f, k],   u_f = sum_k x_k * Wu[e, f, k].
  The reference computes the gated unit of every expert on every token and keeps, expert by expert, the
  tokens whose expert word equals the expert's number; since the word is always one of 0, 1, 2, 3, exactly
  one expert's value survives.
  The kernel's program sorts the tokens by expert, gives each expert's group a whole number of 256-row
  tiles in a padded buffer of 68 tiles, runs the gated unit of each tile against the weight slices of the
  tile's expert (read from a table of 68 words), and gathers every token's row back from its padded row.
  That this is the same function is a statement about the routing tables: each token's padded row lies in
  the buffer, the padded token array holds the token's own row there, and the row's tile carries the
  token's own expert. It follows from the sorting order being a bijection that keeps the experts
  nondecreasing, by counting. No law of the extended reals beyond reordering factors is used, so the
  finiteness of the inputs is never opened.
  The tile table's words are sums of three 0/1 words, hence below 4 for every input: the weight blocks
  the grid fetches always lie inside their arrays, which is what both kernels' frames need.
-/
import proofs.«400137_j63582695850549_3_alg».proof.Defs
import proofs.«400137_j63582695850549_3_alg».proof.Proof.Gen.Kernel.Frame
import proofs.«400137_j63582695850549_3_alg».proof.Proof.Gen.KernelIdeal.Frame
import proofs.«400137_j63582695850549_3_alg».proof.Proof.Gen.ReferenceIdeal
import proofs.«400137_j63582695850549_3_alg».proof.Proof.Gen.Pre_finite_inputs
import proofs.«400137_j63582695850549_3_alg».proof.Proof.KOk
import proofs.«400137_j63582695850549_3_alg».proof.Proof.KTail
import proofs.«400137_j63582695850549_3_alg».proof.Proof.KValue
import proofs.«400137_j63582695850549_3_alg».proof.Proof.RefRun
import proofs.«400137_j63582695850549_3_alg».proof.Proof.RefRead
import proofs.«400137_j63582695850549_3_alg».proof.Proof.ExpertRange
import Idealize.ShloMosaic.Adequacy
import Idealize.ShloMosaic.Init

noncomputable section

namespace Cert.Proof

open Idealize.ShloMosaic Idealize.SL.Sem

/-- The word-level kernel runs and keeps its arguments: its frame, the tile table always in range. -/
theorem frame_k : Cert.frame_Kernel := fun m ρ _ => Cert.Kernel.Gen.frame m ρ (Cert.Moe.KOk.ok_bits m)

/-- The idealized kernel likewise. -/
theorem frame_ki : Cert.frame_KernelIdeal := fun m ρ _ => Cert.KernelIdeal.Gen.frame m ρ (Cert.Moe.KOk.ok_ideal m)

/-- The reference runs and keeps its arguments: its run with the result dropped. -/
theorem frame_ri : Cert.frame_ReferenceIdeal := fun m ρ _ =>
  (θ_run Cert.ReferenceIdeal.defs _ _).mono (fun _ h c => (h c).2) (Cert.Moe.RefRun.run m ρ)

/-- Both programs end at the common form of the arguments. -/
theorem algebraic : Cert.algebraic_KernelIdeal_ReferenceIdeal := by
  intro m ρ m' ρ' _ hagree
  refine ⟨fun c => Cert.Moe.G (m ((c.tc : Thread Cert.KernelIdeal.nD Cert.KernelIdeal.τ).loc Cert.KernelIdeal.main_arg0)) (Cert.KernelIdeal.Tab.expertIds (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.Moe.KValue.kernel_value m (Cert.Moe.KOk.ok_ideal m) c), (h c).2⟩)
      (Cert.Moe.KTail.run m ρ (Cert.Moe.KOk.ok_ideal m))
  · refine (θ_run Cert.ReferenceIdeal.defs _ _).mono (fun _ h c => ⟨(h c).1.trans ?_, (h c).2⟩) (Cert.Moe.RefRun.run m' ρ')
    rw [(hagree c).1, (hagree c).2.1, (hagree c).2.2.1, (hagree c).2.2.2.1, (hagree c).2.2.2.2]
    funext i
    rw [Cert.Moe.RefRead.refOut_apply _ _ _ _ _
      (fun j => by rw [Cert.Moe.ExpertRange.term_eq_tab]; exact Cert.Moe.ExpertRange.tab_range _ j) i,
      Cert.Moe.ExpertRange.term_eq_tab]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
